-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128x128 .f32) (main_arg5 : FVec F S128x128 .f32) (main_arg6 : FVec F S128x128 .f32) (main_arg7 : FVec F S128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S800000x128 .f32) (main_arg2 : FVec F S128x128 .f32) (main_arg3 : FVec F S128x128 .f32) (main_arg4 : FVec F S128x128 .f32) (main_arg5 : FVec F S128x128 .f32) (main_arg6 : FVec F S128x128 .f32) (main_arg7 : FVec F S128 .f32) (main_arg8 : FVec F S128 .f32) (main_arg9 : IVec S800000 32) (main_arg10 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S800000 : Shape := ⟨1, ![800000]⟩
abbrev S128x512 : Shape := ⟨2, ![128, 512]⟩
abbrev S50000x512 : Shape := ⟨2, ![50000, 512]⟩
abbrev S5000x128 : Shape := ⟨2, ![5000, 128]⟩
abbrev S5000x512 : Shape := ⟨2, ![5000, 512]⟩
abbrev S16000x128 : Shape := ⟨2, ![16000, 128]⟩
abbrev S_ : Shape := ⟨0, ![]⟩
abbrev S800000x1 : Shape := ⟨2, ![800000, 1]⟩
abbrev S1x128 : Shape := ⟨2, ![1, 128]⟩

abbrev nBuf : Space → Nat
  | .hbm => 69
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S800000, .i32⟩
  | .hbm, ⟨10, _⟩ => ⟨S800000, .i32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x512, .f32⟩
  | .hbm, ⟨16, _⟩ => ⟨S50000x512, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S128x128, .f32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x512, .f32⟩
  | .local _ .vmem, ⟨3, _⟩ => ⟨S5000x512, .f32⟩
  | .local _ .vmem, ⟨4, _⟩ => ⟨S5000x512, .f32⟩
  | .local _ .vmem, ⟨5, _⟩ => ⟨S16000x128, .f32⟩
  | .local _ .vmem, ⟨6, _⟩ => ⟨S16000x128, .f32⟩
  | .local _ .vmem, ⟨7, _⟩ => ⟨S128x128, .f32⟩
  | .local _ .vmem, ⟨8, _⟩ => ⟨S16000x128, .f32⟩
  | .local _ .vmem, ⟨9, _⟩ => ⟨S16000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37_0 : Ref sig .tc := ⟨.hbm, 55, rfl⟩
abbrev main_v37_1 : Ref sig .tc := ⟨.hbm, 56, rfl⟩
abbrev main_v37_2 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_scratch0 : Ref sig .tc := ⟨.vmem, 28, rfl⟩
abbrev cc3_scratch1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_15 : BitVec 32 := 0#32
  let v26 : BitVec 1 := Scalar.cmpi .ne v25 c0_i32_15
  v26

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  transposes_S128x128_S128x128_1_0 : S128x128.Transposes [1, 0] S128x128
  concatenates_S128x128_S128x128_S128x128_S128x128_S128x512_d1 : Shape.Concatenates [S128x128, S128x128, S128x128, S128x128] S128x512 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S5000x512_S5000x512_0_0 : ∀ a, (![0, 0] : Fin 2 → Nat) a + S5000x512.size a ≤ S5000x512.size a
  h_S5000x512 : 0 < S5000x512.numel
  slices_S50000x512_S50000x128_0_0 : S50000x512.Slices ![0, 0] S50000x128
  slices_S50000x512_S50000x128_0_128 : S50000x512.Slices ![0, 128] S50000x128
  slices_S50000x512_S50000x128_0_256 : S50000x512.Slices ![0, 256] S50000x128
  slices_S50000x512_S50000x128_0_384 : S50000x512.Slices ![0, 384] S50000x128
  inb_S16000x128_S16000x128_0_0 : ∀ a, (![0, 0] : Fin 2 → Nat) a + S16000x128.size a ≤ S16000x128.size a
  h_S16000x128 : 0 < S16000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  shapeCasts_S5000x128_S5000x128 : S5000x128.ShapeCasts S5000x128
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  dot_S5000x128_S128x512_S5000x512_1_0_0_1_n_n_wf : DotDims.WF S5000x128 S128x512 S5000x512 [1] [0] [0] [1] [] []
  dot_S16000x128_S128x128_S16000x128_1_0_0_1_n_n_wf : DotDims.WF S16000x128 S128x128 S16000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x512.size a ≤ S50000x512.size a
  hwx0_2 : ∀ i : grid0.Coords, EltTy.bits .f32 = 32 ∨ (Rect.block (s := S50000x512) S5000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x128.size a ≤ S800000x128.size a
  hwx1_0 : ∀ i : grid1.Coords, EltTy.bits .f32 = 32 ∨ (Rect.block (s := S800000x128) S16000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16000x128.size a ≤ S800000x128.size a
  hwx1_2 : ∀ i : grid1.Coords, EltTy.bits .f32 = 32 ∨ (Rect.block (s := S800000x128) S16000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S800000x128.size a
  hwx2_0 : ∀ i : grid2.Coords, EltTy.bits .f32 = 32 ∨ (Rect.block (s := S800000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S800000x128.size a
  hwx2_1 : ∀ i : grid2.Coords, EltTy.bits .f32 = 32 ∨ (Rect.block (s := S800000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S800000x128.size a
  hwx2_2 : ∀ i : grid2.Coords, EltTy.bits .f32 = 32 ∨ (Rect.block (s := S800000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S800000x128.size a
  hwx2_3 : ∀ i : grid2.Coords, EltTy.bits .f32 = 32 ∨ (Rect.block (s := S800000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S800000x128.size a
  hwx2_4 : ∀ i : grid2.Coords, EltTy.bits .f32 = 32 ∨ (Rect.block (s := S800000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)

variable [Facts₀]

def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S16000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S16000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v33) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v9) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37_0) S5000x128.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v37_1) S1x128.size cc3_transform_3 reads3_3 true true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37_2) S1x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun i => !(k3_cond2 i == 1#1) | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v37_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v39) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v43) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v45) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v46) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S800000, .i32⟩
  | .hbm, ⟨10, _⟩ => ⟨S800000, .i32⟩
  | .hbm, ⟨11, _⟩ => ⟨S128x128, .f32⟩
  | .hbm, ⟨12, _⟩ => ⟨S50000x128, .f32⟩
  | .hbm, ⟨13, _⟩ => ⟨S128x128, .f32⟩
  | .hbm, ⟨14, _⟩ => ⟨S50000x128, .f32⟩
  | .hbm, ⟨15, _⟩ => ⟨S128x128, .f32⟩
  | .hbm, ⟨16, _⟩ => ⟨S50000x128, .f32⟩
  | .hbm, ⟨17, _⟩ => ⟨S128x128, .f32⟩
  | .hbm, ⟨18, _⟩ => ⟨S800000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S800000x128, .f32⟩
  | .hbm, ⟨46, _⟩ => ⟨S800000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S128x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call0_cst : Ref sig .tc := ⟨.hbm, 94, rfl⟩
abbrev main_call0_v0 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.K.Reg0.lean ====
/-
  The node projection, first launch: ten row tiles of the node features (5000 rows of 128) against the
  whole 128 × 512 weight block, each tile's product written to the matching 5000 × 512 tile of the result.
  Here: what one grid point leaves in the result tile's staging buffer (the matrix product of the two
  staged blocks), the run of the body that shows it, and the proof data of the launch at arbitrary entry
  contents `V` of the buffers.
-/
import proofs.«111111_j10943576670413_1_alg».proof.Proof.Gen.Kernel.Launch
import proofs.«111111_j10943576670413_1_alg».proof.Proof.Gen.Kernel.Skeleton
import proofs.«111111_j10943576670413_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight block's staging buffer (fetched once, its index constant) holds the block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 5000 × 512 tile, as the one store's rectangle. -/
abbrev r0_out : Rect S5000x512 := Rect.unit (s := S5000x512) ![0, 0] S5000x512.size inb_S5000x512_S5000x512_0_0
abbrev r0_x : Rect S5000x128 := Rect.unit (s := S5000x128) ![0, 0] S5000x128.size inb_S5000x128_S5000x128_0_0
abbrev r0_w : Rect S128x512 := Rect.unit (s := S128x512) ![0, 0] S128x512.size inb_S128x512_S128x512_0_0

/-- What the body leaves in the result tile's buffer: the product of the feature tile and the weight block. -/
def out0_2 (x0 : Vec F S5000x128 .f32) (x1 : Vec F S128x512 .f32) : Vec F S5000x512 .f32 :=
  View.canon [⟨r0_out, k0_pay1 (View.ld x0 r0_x) (View.ld x1 r0_w)⟩]

/-- The one store covers the tile. -/
theorem cover0_2 (p0 : Vec F S5000x512 .f32) (y : S5000x512.Idx) :
    ∃ pc ∈ ([⟨r0_out, p0⟩] : List (View.Piece (Elt F) S5000x512 .f32)), y ∈ pc.1.set :=
  View.cover_of_tiled [⟨r0_out, p0⟩] S5000x512.size (by rfl) y

set_option maxHeartbeats 1000000 in
/-- The body on whole staging buffers: the two inputs are handed back as read, the result's buffer ends at `out0_2`. -/
theorem sound_kernel0 (c : Dev nD) (E : Set ℕ) (i : grid0.Coords) (arg1 : Memref sig .tc .vmem S5000x128 .f32) (harg1 : arg1.IsWhole) (arg2 : Memref sig .tc .vmem S128x512 .f32) (harg2 : arg2.IsWhole)
    (arg3 : Memref sig .tc .vmem S5000x512 .f32) (harg3 : arg3.IsWhole)
    (x0 : Vec F S5000x128 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The launch's proof data at entry contents `V`: inputs stay at their blocks, the result tile's buffer
    ends at the product; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first launch, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The edge projection, second launch: the 800000 × 128 edge features are cut into fifty row tiles of 16000 rows,
  and each tile is multiplied by the whole 128 × 128 weight block; the product fills the tile of the same rows
  in the 800000 × 128 result. This file fixes what one grid point leaves in the result tile's staging buffer
  (the matrix product of the two staged blocks), shows that the body computes it, and assembles the proof data
  of the launch for arbitrary entry contents `V` of the buffers.
-/
import proofs.«111111_j10943576670413_1_alg».proof.Proof.Gen.Kernel.Launch
import proofs.«111111_j10943576670413_1_alg».proof.Proof.Gen.Kernel.Skeleton
import proofs.«111111_j10943576670413_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` addresses, as a read of the window's array at its entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The edge tile is fetched at every point, so its staging buffer holds the point's own 16000 rows. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The 128 × 128 weight block has a constant index: fetched at the first point, it is still there at every later one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The full rectangles of the three blocks: the 16000 × 128 result tile the store writes, the edge tile and the weight block the loads read. -/
abbrev r1_out : Rect S16000x128 := Rect.unit (s := S16000x128) ![0, 0] S16000x128.size inb_S16000x128_S16000x128_0_0
abbrev r1_x : Rect S16000x128 := Rect.unit (s := S16000x128) ![0, 0] S16000x128.size inb_S16000x128_S16000x128_0_0
abbrev r1_w : Rect S128x128 := Rect.unit (s := S128x128) ![0, 0] S128x128.size inb_S128x128_S128x128_0_0

/-- The result tile after the body: the edge tile times the weight block, written over the whole tile. -/
def out1_2 (x0 : Vec F S16000x128 .f32) (x1 : Vec F S128x128 .f32) : Vec F S16000x128 .f32 :=
  View.canon [⟨r1_out, k1_pay1 (View.ld x0 r1_x) (View.ld x1 r1_w)⟩]

/-- A single piece of full extent covers every index of the tile. -/
theorem cover1_2 (p0 : Vec F S16000x128 .f32) (y : S16000x128.Idx) :
    ∃ pc ∈ ([⟨r1_out, p0⟩] : List (View.Piece (Elt F) S16000x128 .f32)), y ∈ pc.1.set :=
  View.cover_of_tiled [⟨r1_out, p0⟩] S16000x128.size (by rfl) y

set_option maxHeartbeats 1000000 in
/-- One run of the body: the two input buffers come back unchanged, and whatever the result buffer held is replaced by `out1_2`. -/
theorem sound_kernel1 (c : Dev nD) (E : Set ℕ) (i : grid1.Coords) (arg1 : Memref sig .tc .vmem S16000x128 .f32) (harg1 : arg1.IsWhole) (arg2 : Memref sig .tc .vmem S128x128 .f32) (harg2 : arg2.IsWhole)
    (arg3 : Memref sig .tc .vmem S16000x128 .f32) (harg3 : arg3.IsWhole)
    (x0 : Vec F S16000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- Proof data of the second launch at entry contents `V`: each input window ends a point at its own block, the
    result window at the product of the two; the invariant is the arrays' class invariant and no transfer is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Every grid point of the second launch meets the body obligation. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  The gated message, third launch: 160 edge tiles of 5000 rows of 128. At each tile the four staged
  blocks a (source projection), b (destination projection), ch (source message) and en (new edge
  feature) give the tile ch * logistic((a + b) + en) of the result.
  Here: what one grid point leaves in the result tile's staging buffer, the run of the body that shows
  it, and the proof data of the launch at arbitrary entry contents `V` of the buffers.
-/
import proofs.«111111_j10943576670413_1_alg».proof.Proof.Gen.Kernel.Launch
import proofs.«111111_j10943576670413_1_alg».proof.Proof.Gen.Kernel.Skeleton
import proofs.«111111_j10943576670413_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The source-projection tile's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The destination-projection tile's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The source-message tile's staging buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The edge-feature tile's staging buffer holds its block at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole 5000 × 128 tile: the rectangle of every load and of the one store. -/
abbrev r2_tile : Rect S5000x128 := Rect.unit (s := S5000x128) ![0, 0] S5000x128.size inb_S5000x128_S5000x128_0_0

/-- What the body leaves in the result tile's buffer: ch * logistic((a + b) + en) of the four staged tiles
    (`x0` = a, `x1` = b, `x2` = ch, `x3` = en). -/
def out2_4 (x0 x1 x2 x3 : Vec F S5000x128 .f32) : Vec F S5000x128 .f32 :=
  View.canon [⟨r2_tile, k2_pay1 (View.ld x0 r2_tile) (View.ld x1 r2_tile) (View.ld x3 r2_tile) (View.ld x2 r2_tile)⟩]

/-- The one store covers the tile. -/
theorem cover2_4 (p0 : Vec F S5000x128 .f32) (y : S5000x128.Idx) :
    ∃ pc ∈ ([⟨r2_tile, p0⟩] : List (View.Piece (Elt F) S5000x128 .f32)), y ∈ pc.1.set :=
  View.cover_of_tiled [⟨r2_tile, p0⟩] S5000x128.size (by rfl) y

set_option maxHeartbeats 1000000 in
/-- The body on whole staging buffers: the four inputs are handed back as read, the result's buffer ends at `out2_4`. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S5000x128 .f32) (harg5 : arg5.IsWhole)
    (x0 x1 x2 x3 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__gate_kernel i arg1 harg1 arg2 harg2 arg3 harg3 arg4 harg4 arg5 harg5) K := by
  simp only [cc2__gate_kernel_eq_skeleton]; unfold cc2__gate_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The launch's proof data at entry contents `V`: inputs stay at their blocks, the result tile's buffer
    ends at the gated message of the four; the class invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the third launch, at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.RunA.lean ====
/-
  The contents of the TensorCore's buffers at each boundary of the program up to the fourth launch's entry:
  the launch memory, then each stretch of host operations applied, then each launch's arrays at what its
  write-backs leave (every other buffer as it was).
-/
import proofs.«111111_j10943576670413_1_alg».proof.Proof.K.Reg0
import proofs.«111111_j10943576670413_1_alg».proof.Proof.K.Reg1
import proofs.«111111_j10943576670413_1_alg».proof.Proof.K.Reg2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the four weight transposes and their concatenation). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the node projection. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the four column slices and the edge weight's transpose). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the edge projection. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the index normalisations and the three row gathers). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the gated message. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the fourth host stretch (the zero table and the segment sum of the messages). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

end Cert.Kernel.Hand

end
-- ==== Proof.K.Reg3.lean ====
/-
  The batch-norm statistics, fourth launch: ten row tiles (5000 rows of 128) of the two summands; at each
  grid point the tile of their sum is written to the result, and its column sums and the column sums of its
  squares are added to two running 1 × 128 rows kept in scratch memory (reset to zero at the first point);
  at the last point the two rows are copied to the two 1 × 128 results.
  Here: what one grid point leaves in the result tile's buffer, in the two running rows and (at the last
  point) in the two row results; the three runs of the body (first point, middle points, last point) that
  show it; the accumulation over the grid; and the proof data of the launch at arbitrary entry contents `V`
  of the buffers, with the invariant that names the two rows' contents between points.
-/
import proofs.«111111_j10943576670413_1_alg».proof.Proof.Gen.Kernel.Launch
import proofs.«111111_j10943576670413_1_alg».proof.Proof.Gen.Kernel.Skeleton
import proofs.«111111_j10943576670413_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first input tile's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The second input tile's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, over the grid -/

/-- The first conditional (the reset of the two running rows): the grid coordinate is 0. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 10 = 0 :=
  (by decide +kernel : ∀ t : Fin grid3.N, cond3_0 (grid3.coords t) ↔ t.val % 10 = 0)

/-- The second conditional (the copy of the two running rows to their outputs): the grid coordinate is 9. -/
abbrev cond3_1 (i : grid3.Coords) : Prop := k3_cond2 i = 1#1
/-- It holds at the last point only. -/
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Off the last point the two row outputs are idle and not written back; -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- at the last point they are live. -/
theorem liveAt3_3 : ∀ t : Fin cfg3.N, cond3_1 (grid3.coords t) → cfg3.idle 3 (grid3.coords t) = false := by decide +kernel
theorem liveAt3_4 : ∀ t : Fin cfg3.N, cond3_1 (grid3.coords t) → cfg3.idle 4 (grid3.coords t) = false := by decide +kernel

/-! ## The staging memrefs and the two scratch rows -/

abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
/-- The running column sums of the tiles, -/
abbrev scM3_0 : Memref sig .tc .vmem S1x128 .f32 := Memref.whole cc3_scratch0
/-- and of their squares. -/
abbrev scM3_1 : Memref sig .tc .vmem S1x128 .f32 := Memref.whole cc3_scratch1

/-- The class invariant with the two scratch rows as memrefs owned at some contents, the other scoped buffers unopened. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

/-! ## What the body leaves -/

/-- The whole 5000 × 128 tile and the whole 1 × 128 row, as the loads' and stores' rectangles. -/
abbrev r3_t : Rect S5000x128 := Rect.unit (s := S5000x128) ![0, 0] S5000x128.size inb_S5000x128_S5000x128_0_0
abbrev r3_r : Rect S1x128 := Rect.unit (s := S1x128) ![0, 0] S1x128.size inb_S1x128_S1x128_0_0

/-- The output tile: the sum of the two input tiles. -/
def out3_2 (x0 x1 : Vec F S5000x128 .f32) : Vec F S5000x128 .f32 :=
  View.canon [⟨r3_t, k3_pay3 (View.ld x0 r3_t) (View.ld x1 r3_t)⟩]

/-- The running sum row after a point: the row carried in plus the column sums of the point's output tile. -/
def sacc3_0 (x0 x1 : Vec F S5000x128 .f32) (s : Vec F S1x128 .f32) : Vec F S1x128 .f32 :=
  View.canon [⟨r3_r, k3_pay4 (View.ld x0 r3_t) (View.ld x1 r3_t) (View.ld s r3_r)⟩]

/-- The running sum-of-squares row after a point: the row carried in plus the column sums of the squared output tile. -/
def sacc3_1 (x0 x1 : Vec F S5000x128 .f32) (s : Vec F S1x128 .f32) : Vec F S1x128 .f32 :=
  View.canon [⟨r3_r, k3_pay5 (View.ld x0 r3_t) (View.ld x1 r3_t) (View.ld s r3_r)⟩]

/-- The two rows as the first point resets them: zeros. -/
def szero3_0 : Vec F S1x128 .f32 := View.canon [⟨r3_r, k3_pay1 (F := F)⟩]
def szero3_1 : Vec F S1x128 .f32 := View.canon [⟨r3_r, k3_pay2 (F := F)⟩]

/-- A row output at the last point: the scratch row just accumulated, copied. -/
def srow3 (s : Vec F S1x128 .f32) : Vec F S1x128 .f32 :=
  View.canon [⟨r3_r, View.ld s r3_r⟩]

theorem cover3_t (p0 : r3_t.shape.Idx → Elt F .f32) (y : S5000x128.Idx) :
    ∃ pc ∈ ([⟨r3_t, p0⟩] : List (View.Piece (Elt F) S5000x128 .f32)), y ∈ pc.1.set :=
  View.cover_of_tiled [⟨r3_t, p0⟩] S5000x128.size (by rfl) y

theorem cover3_r (p0 : r3_r.shape.Idx → Elt F .f32) (L : List (View.Piece (Elt F) S1x128 .f32)) (y : S1x128.Idx) :
    ∃ pc ∈ ((⟨r3_r, p0⟩ :: L : List (View.Piece (Elt F) S1x128 .f32))), y ∈ pc.1.set :=
  ⟨_, List.mem_cons_self, View.mem_set_unit_zero (off := ![0, 0]) (by funext a; fin_cases a <;> rfl) inb_S1x128_S1x128_0_0 y⟩

/-! ## The same contents, without the rectangles -/

theorem off3_zero2 : (![0, 0] : Fin 2 → ℕ) = fun _ => 0 := by funext a; fin_cases a <;> rfl

/-- A load of the whole row reads the row; -/
theorem ld_r3_r (s : Vec F S1x128 .f32) : View.ld s r3_r = s := View.ld_unit_zero off3_zero2 _ s
/-- a load of the whole tile reads the tile; -/
theorem ld_r3_t (x : Vec F S5000x128 .f32) : View.ld x r3_t = x := View.ld_unit_zero off3_zero2 _ x
/-- a store of the whole row, last, leaves its payload; -/
theorem canon_r3_r (w : r3_r.shape.Idx → Elt F .f32) (L : List (View.Piece (Elt F) S1x128 .f32)) : View.canon (⟨r3_r, w⟩ :: L) = w :=
  View.canon_cons_unit_zero off3_zero2 _ w L
/-- a store of the whole tile, last, leaves its payload. -/
theorem canon_r3_t (w : r3_t.shape.Idx → Elt F .f32) (L : List (View.Piece (Elt F) S5000x128 .f32)) : View.canon (⟨r3_t, w⟩ :: L) = w :=
  View.canon_cons_unit_zero off3_zero2 _ w L

theorem out3_2_eq (x0 x1 : Vec F S5000x128 .f32) : out3_2 x0 x1 = k3_pay3 x0 x1 := by
  unfold out3_2; rw [canon_r3_t, ld_r3_t, ld_r3_t]
theorem sacc3_0_eq (x0 x1 : Vec F S5000x128 .f32) (s : Vec F S1x128 .f32) : sacc3_0 x0 x1 s = k3_pay4 x0 x1 s := by
  unfold sacc3_0; rw [canon_r3_r, ld_r3_r, ld_r3_t, ld_r3_t]
theorem sacc3_1_eq (x0 x1 : Vec F S5000x128 .f32) (s : Vec F S1x128 .f32) : sacc3_1 x0 x1 s = k3_pay5 x0 x1 s := by
  unfold sacc3_1; rw [canon_r3_r, ld_r3_r, ld_r3_t, ld_r3_t]
theorem szero3_0_eq : szero3_0 (F := F) = k3_pay1 := canon_r3_r _ _
theorem szero3_1_eq : szero3_1 (F := F) = k3_pay2 := canon_r3_r _ _
theorem srow3_eq (s : Vec F S1x128 .f32) : srow3 s = s := by
  unfold srow3; rw [canon_r3_r, ld_r3_r]

/-! ## The body's three runs -/

set_option maxHeartbeats 1000000 in
theorem sound_kernel3_B (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : ¬cond3_0 i) (hc1 : ¬cond3_1 i)
    (x0 x1 : Vec F S5000x128 .f32) (xi3 xi4 s0 s1 : Vec F S1x128 .f32)
    (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out3_2 x0 x1) ∗ owns (c : Thread nD τ) arg4 fullShare xi3 ∗ owns (c : Thread nD τ) arg5 fullShare xi4 ∗ owns (c : Thread nD τ) arg6 fullShare (sacc3_0 x0 x1 s0) ∗ owns (c : Thread nD τ) arg7 fullShare (sacc3_1 x0 x1 s1)) -∗ K ⟨⟩))
      ⊢ wp frame (wpE (defs₀ (F := F)) Variants.none c none) E (cc3__bn_stats_kernel i arg1 harg1 arg2 harg2 arg3 harg3 arg4 harg4 arg5 harg5 arg6 harg6 arg7 harg7) K := by
  simp only [cc3__bn_stats_kernel_eq_skeleton]; unfold cc3__bn_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  subst hf0; subst hf1; subst hf3; subst hf4; subst hf5; subst hf6
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr
    swap; · iexact H2
    ipureintro; exact View.read_writes_eq_canon _ _ _ (cover3_t _)
  isplitl [H3]
  · iexists _; isplitr; · ipureintro; rfl
    iexact H3
  isplitl [H4]
  · iexists _; isplitr; · ipureintro; rfl
    iexact H4
  isplitl [H5]
  · iexists _; isplitr
    swap; · iexact H5
    ipureintro; exact View.read_writes_eq_canon _ _ _ (cover3_r _ _)
  iexists _; isplitr
  swap; · iexact H6
  ipureintro; exact View.read_writes_eq_canon _ _ _ (cover3_r _ _)

set_option maxHeartbeats 1000000 in
theorem sound_kernel3_A (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : cond3_0 i) (hc1 : ¬cond3_1 i)
    (x0 x1 : Vec F S5000x128 .f32) (xi3 xi4 : Vec F S1x128 .f32)
    (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out3_2 x0 x1) ∗ owns (c : Thread nD τ) arg4 fullShare xi3 ∗ owns (c : Thread nD τ) arg5 fullShare xi4 ∗ owns (c : Thread nD τ) arg6 fullShare (sacc3_0 x0 x1 szero3_0) ∗ owns (c : Thread nD τ) arg7 fullShare (sacc3_1 x0 x1 szero3_1)) -∗ K ⟨⟩))
      ⊢ wp frame (wpE (defs₀ (F := F)) Variants.none c none) E (cc3__bn_stats_kernel i arg1 harg1 arg2 harg2 arg3 harg3 arg4 harg4 arg5 harg5 arg6 harg6 arg7 harg7) K := by
  simp only [cc3__bn_stats_kernel_eq_skeleton]; unfold cc3__bn_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
  subst hf0; subst hf1; subst hf3; subst hf4
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr
    swap; · iexact H2
    ipureintro; exact View.read_writes_eq_canon _ _ _ (cover3_t _)
  isplitl [H3]
  · iexists _; isplitr; · ipureintro; rfl
    iexact H3
  isplitl [H4]
  · iexists _; isplitr; · ipureintro; rfl
    iexact H4
  isplitl [H5]
  · iexists _; isplitr
    swap; · iexact H5
    ipureintro; exact (View.read_writes_eq_canon _ _ _ (cover3_r _ _)).trans ((canon_r3_r _ _).trans ((congrArg (k3_pay4 _ _) ((View.readCov_unit_zero _ off3_zero2 _ _).trans ((ld_r3_r _).trans szero3_0_eq).symm)).trans (canon_r3_r _ _).symm))
  iexists _; isplitr
  swap; · iexact H6
  ipureintro; exact (View.read_writes_eq_canon _ _ _ (cover3_r _ _)).trans ((canon_r3_r _ _).trans ((congrArg (k3_pay5 _ _) ((View.readCov_unit_zero _ off3_zero2 _ _).trans ((ld_r3_r _).trans szero3_1_eq).symm)).trans (canon_r3_r _ _).symm))

set_option maxHeartbeats 1000000 in
theorem sound_kernel3_C (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : ¬cond3_0 i) (hc1 : cond3_1 i)
    (x0 x1 : Vec F S5000x128 .f32) (s0 s1 : Vec F S1x128 .f32)
    (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out3_2 x0 x1) ∗ owns (c : Thread nD τ) arg4 fullShare (srow3 (sacc3_0 x0 x1 s0)) ∗ owns (c : Thread nD τ) arg5 fullShare (srow3 (sacc3_1 x0 x1 s1)) ∗ owns (c : Thread nD τ) arg6 fullShare (sacc3_0 x0 x1 s0) ∗ owns (c : Thread nD τ) arg7 fullShare (sacc3_1 x0 x1 s1)) -∗ K ⟨⟩))
      ⊢ wp frame (wpE (defs₀ (F := F)) Variants.none c none) E (cc3__bn_stats_kernel i arg1 harg1 arg2 harg2 arg3 harg3 arg4 harg4 arg5 harg5 arg6 harg6 arg7 harg7) K := by
  simp only [cc3__bn_stats_kernel_eq_skeleton]; unfold cc3__bn_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr
    swap; · iexact H2
    ipureintro; exact View.read_writes_eq_canon _ _ _ (cover3_t _)
  isplitl [H3]
  · iexists _; isplitr
    swap; · iexact H3
    ipureintro; exact (View.read_writes_eq_canon _ _ _ (cover3_r _ _)).trans ((canon_r3_r _ _).trans ((View.readCov_unit_zero _ off3_zero2 _ _).trans ((canon_r3_r _ _).symm.trans (srow3_eq _).symm)))
  isplitl [H4]
  · iexists _; isplitr
    swap; · iexact H4
    ipureintro; exact (View.read_writes_eq_canon _ _ _ (cover3_r _ _)).trans ((canon_r3_r _ _).trans ((View.readCov_unit_zero _ off3_zero2 _ _).trans ((canon_r3_r _ _).symm.trans (srow3_eq _).symm)))
  isplitl [H5]
  · iexists _; isplitr
    swap; · iexact H5
    ipureintro; exact View.read_writes_eq_canon _ _ _ (cover3_r _ _)
  iexists _; isplitr
  swap; · iexact H6
  ipureintro; exact View.read_writes_eq_canon _ _ _ (cover3_r _ _)

/-! ## What the outputs and the two scratch rows hold after each point -/

/-- One point's step: from the two input tiles and the two rows carried in, the output tile, the two row
    outputs (the rows just accumulated, copied: what the last point stores; at the other points the row
    outputs are idle and these two components are not consulted), and the two rows carried out. -/
def step3 (x0 x1 : Vec F S5000x128 .f32) (s0 s1 : Vec F S1x128 .f32) : Vec F S5000x128 .f32 × Vec F S1x128 .f32 × Vec F S1x128 .f32 × Vec F S1x128 .f32 × Vec F S1x128 .f32 :=
  (out3_2 x0 x1, srow3 (sacc3_0 x0 x1 s0), srow3 (sacc3_1 x0 x1 s1), sacc3_0 x0 x1 s0, sacc3_1 x0 x1 s1)

/-- The accumulation over the grid: (output tile, row output 3, row output 4, sum row, sum-of-squares row)
    after the body at position `n`. The first point starts from the zero rows, every later point from the
    rows the point before left. -/
def outsAt3 (c : Dev nD) : (n : ℕ) → n < cfg3.N → Vec F S5000x128 .f32 × Vec F S1x128 .f32 × Vec F S1x128 .f32 × Vec F S1x128 .f32 × Vec F S1x128 .f32
  | 0, hn => step3 (iblk3 V c 0 ⟨0, hn⟩) (iblk3 V c 1 ⟨0, hn⟩) szero3_0 szero3_1
  | n + 1, hn => step3 (iblk3 V c 0 ⟨n + 1, hn⟩) (iblk3 V c 1 ⟨n + 1, hn⟩)
      (outsAt3 c n (Nat.lt_of_succ_lt hn)).2.2.2.1 (outsAt3 c n (Nat.lt_of_succ_lt hn)).2.2.2.2

theorem outsAt3_zero (c : Dev nD) (hn : 0 < cfg3.N) :
    outsAt3 V c 0 hn = step3 (iblk3 V c 0 ⟨0, hn⟩) (iblk3 V c 1 ⟨0, hn⟩) szero3_0 szero3_1 := rfl
theorem outsAt3_succ (c : Dev nD) (n : ℕ) (hn : n + 1 < cfg3.N) :
    outsAt3 V c (n + 1) hn = step3 (iblk3 V c 0 ⟨n + 1, hn⟩) (iblk3 V c 1 ⟨n + 1, hn⟩)
      (outsAt3 V c n (Nat.lt_of_succ_lt hn)).2.2.2.1 (outsAt3 V c n (Nat.lt_of_succ_lt hn)).2.2.2.2 := rfl

/-- At the first point: the step from the zero rows. -/
theorem outsAt3_A (c : Dev nD) (t : Fin cfg3.N) (h0 : t.val % 10 = 0) :
    outsAt3 V c t.val t.isLt = step3 (iblk3 V c 0 t) (iblk3 V c 1 t) szero3_0 szero3_1 := by
  obtain ⟨n, hn⟩ := t
  cases n with
  | zero => rfl
  | succ n => exfalso; have hN : n + 1 < 10 := lt_of_lt_of_eq hn (show cfg3.N = 10 from N_3); (try dsimp only at h0); omega

/-- At a point after the first: the step from the rows the point before left. -/
theorem outsAt3_pos (c : Dev nD) (t : Fin cfg3.N) (h0 : ¬t.val % 10 = 0) :
    outsAt3 V c t.val t.isLt = step3 (iblk3 V c 0 t) (iblk3 V c 1 t)
      (outsAt3 V c (t.val - 1) (Nat.lt_of_le_of_lt (Nat.sub_le _ _) t.isLt)).2.2.2.1
      (outsAt3 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => rfl

/-- At a middle point (neither first nor last). -/
theorem outsAt3_B (c : Dev nD) (t : Fin cfg3.N) (h0 : ¬t.val % 10 = 0) (h1 : ¬t.val % 10 = 9) :
    outsAt3 V c t.val t.isLt = step3 (iblk3 V c 0 t) (iblk3 V c 1 t)
      (outsAt3 V c (t.val - 1) (Nat.lt_of_le_of_lt (Nat.sub_le _ _) t.isLt)).2.2.2.1
      (outsAt3 V c (t.val - 1) (Nat.lt_of_le_of_lt (Nat.sub_le _ _) t.isLt)).2.2.2.2 := outsAt3_pos V c t h0

/-- At the last point. -/
theorem outsAt3_C (c : Dev nD) (t : Fin cfg3.N) (h0 : ¬t.val % 10 = 0) (h1 : t.val % 10 = 9) :
    outsAt3 V c t.val t.isLt = step3 (iblk3 V c 0 t) (iblk3 V c 1 t)
      (outsAt3 V c (t.val - 1) (Nat.lt_of_le_of_lt (Nat.sub_le _ _) t.isLt)).2.2.2.1
      (outsAt3 V c (t.val - 1) (Nat.lt_of_le_of_lt (Nat.sub_le _ _) t.isLt)).2.2.2.2 := outsAt3_pos V c t h0

/-! ## The invariant: the two scratch rows at their named contents -/

/-- Before position `n`: at the start the class invariant (the two rows at anything); afterwards the two rows
    at what the point before left, beside the unopened scoped buffers and the generator register. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.2.1) ∗ owns (c : Thread nD τ) scM3_1 fullShare ((outsAt3 V c n hn).2.2.2.2))
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.2.2.1) ∗ owns (c : Thread nD τ) scM3_1 fullShare ((outsAt3 V c n hn).2.2.2.2))
      ∗ Pipeline.scopedRestBut (Ix := Unit) (Name := ℕ) (U := UR sig nD τ) (Lvl := ℕ) (Val := Elt F) spec3 c [cc3_scratch0, cc3_scratch1]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.2.1) ∗ owns (c : Thread nD τ) scM3_1 fullShare ((outsAt3 V c (n - 1) (by omega)).2.2.2.2))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The launch's proof data -/

/-- The proof data at entry contents `V`: the inputs stay at their blocks; the output tile, the two row outputs
    and (through the invariant) the two scratch rows at `outsAt3`'s components; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
    | ⟨3, _⟩ => (outsAt3 V c t.val t.isLt).2.1
    | ⟨4, _⟩ => (outsAt3 V c t.val t.isLt).2.2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem after3_3 (c : Dev nD) (t : Fin cfg3.N) : (dat3 V c).after 3 t = (outsAt3 V c t.val t.isLt).2.1 := by dsimp only [dat3]
theorem after3_4 (c : Dev nD) (t : Fin cfg3.N) : (dat3 V c).after 4 t = (outsAt3 V c t.val t.isLt).2.2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4000000 in
/-- The body at any point. The inputs' buffers hold their blocks; the point is the first, a middle one or the
    last; the invariant hands the body the two rows (at anything at the first point, else at what the point
    before left) and takes them back at this point's contents; off the last point the two row outputs are
    handed back untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  have hN : t.val < 10 := lt_of_lt_of_eq t.isLt (show cfg3.N = 10 from N_3)
  by_cases h0 : t.val % 10 = 0
  · have hz : t.val = 0 := by omega
    have hc0 : cond3_0 (grid3.coords t) := (hcond3_0 t).mpr h0
    have hc1 : ¬cond3_1 (grid3.coords t) := fun h => by have := (hcond3_1 t).mp h; omega
    rw [Dat.leavesExact_idle (dat3 V c) 3 t (idleAt3_3 t hc1) (noFlush3_3 t hc1)]
    rw [Dat.leavesExact_idle (dat3 V c) 4 t (idleAt3_4 t hc1) (noFlush3_4 t hc1)]
    rw [outsAt3_A V c t h0]
    unfold step3; (try dsimp only)
    rw [PhiS3_castSucc V c t, PhiS3_zero V c _ _ hz, PhiA3_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (sound_kernel3_A c Set.univ (grid3.coords t) _ _ _ _ _ _ _ _ _ _ _ _ _ _ hc0 hc1 (iblk3 V c 0 t) (iblk3 V c 1 t) _ _ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitr [Hg]
      · isplitr [HR]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hc0 : ¬cond3_0 (grid3.coords t) := fun h => h0 ((hcond3_0 t).mp h)
    by_cases h1 : t.val % 10 = 9
    · have hc1 : cond3_1 (grid3.coords t) := (hcond3_1 t).mpr h1
      rw [show (dat3 V c).leavesExact 3 t = owns (c : Thread nD τ) (ms3_3 t) fullShare ((dat3 V c).after 3 t) from by
      unfold Dat.leavesExact; rw [liveAt3_3 t hc1], after3_3]
      rw [show (dat3 V c).leavesExact 4 t = owns (c : Thread nD τ) (ms3_4 t) fullShare ((dat3 V c).after 4 t) from by
      unfold Dat.leavesExact; rw [liveAt3_4 t hc1], after3_4]
      rw [outsAt3_C V c t h0 h1]
      unfold step3; (try dsimp only)
      rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel3_C c Set.univ (grid3.coords t) _ _ _ _ _ _ _ _ _ _ _ _ _ _ hc0 hc1 (iblk3 V c 0 t) (iblk3 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · have hc1 : ¬cond3_1 (grid3.coords t) := fun h => h1 ((hcond3_1 t).mp h)
      rw [Dat.leavesExact_idle (dat3 V c) 3 t (idleAt3_3 t hc1) (noFlush3_3 t hc1)]
      rw [Dat.leavesExact_idle (dat3 V c) 4 t (idleAt3_4 t hc1) (noFlush3_4 t hc1)]
      rw [outsAt3_B V c t h0 h1]
      unfold step3; (try dsimp only)
      rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel3_B c Set.univ (grid3.coords t) _ _ _ _ _ _ _ _ _ _ _ _ _ _ hc0 hc1 (iblk3 V c 0 t) (iblk3 V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of the fourth launch, at every grid point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the class invariant back: the two rows' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitr [Hg]
  · isplitr [HR]
    · isplitl [HS0]
      · iexists _; iexact HS0
      iexists _; iexact HS1
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 10 := N_3; omega)

end Cert.Kernel.Hand

end
-- ==== Proof.K.Reg4.lean ====
/-
  The normalisation, fifth launch: ten row tiles of the summed node features (5000 rows of 128), each
  shifted by the column mean, scaled by the reciprocal square root of the column variance plus a small
  constant, scaled by gamma, shifted by beta and clamped below at zero; the four rows of 128 (mean,
  variance, gamma, beta) are staged once and stay in place. Here: what one grid point leaves in the
  result tile's staging buffer, the run of the body that shows it, and the proof data of the launch at
  arbitrary entry contents `V` of the buffers.
-/
import proofs.«111111_j10943576670413_1_alg».proof.Proof.Gen.Kernel.Launch
import proofs.«111111_j10943576670413_1_alg».proof.Proof.Gen.Kernel.Skeleton
import proofs.«111111_j10943576670413_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The feature tile's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The mean row's staging buffer (fetched once, its index constant) holds the row at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The variance row's staging buffer (fetched once, its index constant) holds the row at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The gamma row's staging buffer (fetched once, its index constant) holds the row at every point. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The beta row's staging buffer (fetched once, its index constant) holds the row at every point. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The whole 5000 × 128 tile, as the one store's rectangle, and the whole row of 128. -/
abbrev r4_tile : Rect S5000x128 := Rect.unit (s := S5000x128) ![0, 0] S5000x128.size inb_S5000x128_S5000x128_0_0
abbrev r4_row : Rect S1x128 := Rect.unit (s := S1x128) ![0, 0] S1x128.size inb_S1x128_S1x128_0_0

/-- What the body leaves in the result tile's buffer: the normalised, scaled, shifted and clamped feature tile. -/
def out4_5 (x0 : Vec F S5000x128 .f32) (x1 x2 x3 x4 : Vec F S1x128 .f32) : Vec F S5000x128 .f32 :=
  View.canon [⟨r4_tile, k4_pay1 (View.ld x0 r4_tile) (View.ld x1 r4_row) (View.ld x2 r4_row) (View.ld x3 r4_row) (View.ld x4 r4_row)⟩]

/-- The one store covers the tile. -/
theorem cover4_5 (p0 : Vec F S5000x128 .f32) (y : S5000x128.Idx) :
    ∃ pc ∈ ([⟨r4_tile, p0⟩] : List (View.Piece (Elt F) S5000x128 .f32)), y ∈ pc.1.set :=
  View.cover_of_tiled [⟨r4_tile, p0⟩] S5000x128.size (by rfl) y

set_option maxHeartbeats 1000000 in
/-- The body on whole staging buffers: the five inputs are handed back as read, the result's buffer ends at `out4_5`. -/
theorem sound_kernel4 (c : Dev nD) (E : Set ℕ) (i : grid4.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__bn_norm_kernel i arg1 harg1 arg2 harg2 arg3 harg3 arg4 harg4 arg5 harg5 arg6 harg6) K := by
  simp only [cc4__bn_norm_kernel_eq_skeleton]; unfold cc4__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The launch's proof data at entry contents `V`: inputs stay at their blocks, the result tile's buffer
    ends at the normalised tile; the class invariant; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the fifth launch, at every grid point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
/-
  The whole program as a run: the buffer contents at the last boundaries (after the statistics launch, the
  host arithmetic on the statistics, the normalisation launch), every launch as a segment entered from the
  buffers at its boundary's contents and left at the next boundary's, the host stretches between them, and the
  launch of the whole: every weakly fair execution terminates with every unscoped buffer at the last boundary's
  contents.
-/
import proofs.«111111_j10943576670413_1_alg».proof.Proof.K.RunA
import proofs.«111111_j10943576670413_1_alg».proof.Proof.K.Reg3
import proofs.«111111_j10943576670413_1_alg».proof.Proof.K.Reg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After launch 3: its arrays at what the write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the last host stretch (mean, mean of squares, variance; the scale and shift rows). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b

/-- After launch 4: its arrays at what the write-backs leave, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- No launch has a prefetched table. -/
abbrev adm : (p : Fin 5) → (pcfgs (F := F) p).Adm := fun p => (cfgs p).toPCfg_adm
/-- Every launch's proof data, each at its entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m ρ c) ∗ ∃ r, prngReg c r)

set_option backward.isDefEq.respectTransparency.types false in
/-- Launch 0 over the thread state: its arrays taken out of the unscoped buffers at the entry contents and put back at
    the exit contents; the generator register lent to the launch's invariant and returned; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: its arrays taken out of the unscoped buffers at the entry contents and put back at
    the exit contents; the generator register lent to the launch's invariant and returned; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: its arrays taken out of the unscoped buffers at the entry contents and put back at
    the exit contents; the generator register lent to the launch's invariant and returned; nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 over the thread state: its arrays taken out of the unscoped buffers at the entry contents and put back at
    the exit contents; the generator register lent to the launch's invariant and returned; nothing owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show iprop(Pipeline.scopedRest spec3 c ∗ ∃ r, prngReg c r) ⊢ ((pdats m ρ 3 c).Φ 0 : sProp 𝕄) from hin3 (V7 m ρ) c)
    isplitl [Hr]; · iexact Hr
    iexact Hp
  hout c := by
    rw [Pipeline.ownSems0_none]
    refine (hout3 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4 over the thread state: its arrays taken out of the unscoped buffers at the entry contents and put back at
    the exit contents; the generator register lent to the launch's invariant and returned; nothing owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's ten segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.Kernel.Hand

end
-- ==== Proof.K.Args.lean ====
/-
  The frame: every argument array ends holding its launch contents. An argument is written by no host operation;
  the launches change only their own result arrays, and the two that stage an argument as an input window (the
  node features in the first, the edge features in the second) hand it back as found. So the contents at the last
  boundary, read at an argument, walk back to the launch memory.
-/
import proofs.«111111_j10943576670413_1_alg».proof.Proof.K.Run
import proofs.«111111_j10943576670413_1_alg».proof.Proof.Gen.Kernel.Regions

set_option maxRecDepth 16384

noncomputable section

namespace Cert.Kernel.Hand

open Cert.Kernel
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- A host stretch leaves every buffer it does not write as it found it. -/
theorem keep1 (c : Dev nD) (r : Ref sig .tc) (h : r ∉ (Gen.hostOps0_W : List (Ref sig .tc))) : W1 m ρ c (Proc.devRef .tc r) = W0 m ρ c (Proc.devRef .tc r) :=
  StableHlo.after_of_writes_sub Gen.hostOps0 _ Gen.hostOps0_writes h
theorem keep3 (c : Dev nD) (r : Ref sig .tc) (h : r ∉ (Gen.hostOps1_W : List (Ref sig .tc))) : W3 m ρ c (Proc.devRef .tc r) = W2 m ρ c (Proc.devRef .tc r) :=
  StableHlo.after_of_writes_sub Gen.hostOps1 _ Gen.hostOps1_writes h
theorem keep5 (c : Dev nD) (r : Ref sig .tc) (h : r ∉ (Gen.hostOps2_W : List (Ref sig .tc))) : W5 m ρ c (Proc.devRef .tc r) = W4 m ρ c (Proc.devRef .tc r) :=
  StableHlo.after_of_writes_sub Gen.hostOps2 _ Gen.hostOps2_writes h
theorem keep7 (c : Dev nD) (r : Ref sig .tc) (h : r ∉ (Gen.hostOps3_W : List (Ref sig .tc))) : W7 m ρ c (Proc.devRef .tc r) = W6 m ρ c (Proc.devRef .tc r) :=
  StableHlo.after_of_writes_sub Gen.hostOps3 _ Gen.hostOps3_writes h
theorem keep9 (c : Dev nD) (r : Ref sig .tc) (h : r ∉ (Gen.hostOps4_W : List (Ref sig .tc))) : W9 m ρ c (Proc.devRef .tc r) = W8 m ρ c (Proc.devRef .tc r) :=
  StableHlo.after_of_writes_sub Gen.hostOps4 _ Gen.hostOps4_writes h

/-- No host operation writes argument 0 and no launch changes it (the launch that stages it as an input hands its array back as found): it ends as launched. -/
theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := keep9 m ρ c main_arg0 (by decide)
    _ = W7 m ρ c (Proc.devRef .tc main_arg0) := W8_of_ne m ρ c main_arg0 (by decide)
    _ = W6 m ρ c (Proc.devRef .tc main_arg0) := keep7 m ρ c main_arg0 (by decide)
    _ = W5 m ρ c (Proc.devRef .tc main_arg0) := W6_of_ne m ρ c main_arg0 (by decide)
    _ = W4 m ρ c (Proc.devRef .tc main_arg0) := keep5 m ρ c main_arg0 (by decide)
    _ = W3 m ρ c (Proc.devRef .tc main_arg0) := W4_of_ne m ρ c main_arg0 (by decide)
    _ = W2 m ρ c (Proc.devRef .tc main_arg0) := keep3 m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keep1 m ρ c main_arg0 (by decide)
    _ = m ((c : Thread nD τ).loc main_arg0) := rfl

/-- No host operation writes argument 1 and no launch changes it (the launch that stages it as an input hands its array back as found): it ends as launched. -/
theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := keep9 m ρ c main_arg1 (by decide)
    _ = W7 m ρ c (Proc.devRef .tc main_arg1) := W8_of_ne m ρ c main_arg1 (by decide)
    _ = W6 m ρ c (Proc.devRef .tc main_arg1) := keep7 m ρ c main_arg1 (by decide)
    _ = W5 m ρ c (Proc.devRef .tc main_arg1) := W6_of_ne m ρ c main_arg1 (by decide)
    _ = W4 m ρ c (Proc.devRef .tc main_arg1) := keep5 m ρ c main_arg1 (by decide)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := keep3 m ρ c main_arg1 (by decide)
    _ = W1 m ρ c (Proc.devRef .tc main_arg1) := W2_of_ne m ρ c main_arg1 (by decide)
    _ = W0 m ρ c (Proc.devRef .tc main_arg1) := keep1 m ρ c main_arg1 (by decide)
    _ = m ((c : Thread nD τ).loc main_arg1) := rfl

/-- No host operation writes argument 2 and no launch changes it: it ends as launched. -/
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := keep9 m ρ c main_arg2 (by decide)
    _ = W7 m ρ c (Proc.devRef .tc main_arg2) := W8_of_ne m ρ c main_arg2 (by decide)
    _ = W6 m ρ c (Proc.devRef .tc main_arg2) := keep7 m ρ c main_arg2 (by decide)
    _ = W5 m ρ c (Proc.devRef .tc main_arg2) := W6_of_ne m ρ c main_arg2 (by decide)
    _ = W4 m ρ c (Proc.devRef .tc main_arg2) := keep5 m ρ c main_arg2 (by decide)
    _ = W3 m ρ c (Proc.devRef .tc main_arg2) := W4_of_ne m ρ c main_arg2 (by decide)
    _ = W2 m ρ c (Proc.devRef .tc main_arg2) := keep3 m ρ c main_arg2 (by decide)
    _ = W1 m ρ c (Proc.devRef .tc main_arg2) := W2_of_ne m ρ c main_arg2 (by decide)
    _ = W0 m ρ c (Proc.devRef .tc main_arg2) := keep1 m ρ c main_arg2 (by decide)
    _ = m ((c : Thread nD τ).loc main_arg2) := rfl

/-- No host operation writes argument 3 and no launch changes it: it ends as launched. -/
theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := keep9 m ρ c main_arg3 (by decide)
    _ = W7 m ρ c (Proc.devRef .tc main_arg3) := W8_of_ne m ρ c main_arg3 (by decide)
    _ = W6 m ρ c (Proc.devRef .tc main_arg3) := keep7 m ρ c main_arg3 (by decide)
    _ = W5 m ρ c (Proc.devRef .tc main_arg3) := W6_of_ne m ρ c main_arg3 (by decide)
    _ = W4 m ρ c (Proc.devRef .tc main_arg3) := keep5 m ρ c main_arg3 (by decide)
    _ = W3 m ρ c (Proc.devRef .tc main_arg3) := W4_of_ne m ρ c main_arg3 (by decide)
    _ = W2 m ρ c (Proc.devRef .tc main_arg3) := keep3 m ρ c main_arg3 (by decide)
    _ = W1 m ρ c (Proc.devRef .tc main_arg3) := W2_of_ne m ρ c main_arg3 (by decide)
    _ = W0 m ρ c (Proc.devRef .tc main_arg3) := keep1 m ρ c main_arg3 (by decide)
    _ = m ((c : Thread nD τ).loc main_arg3) := rfl

/-- No host operation writes argument 4 and no launch changes it: it ends as launched. -/
theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := keep9 m ρ c main_arg4 (by decide)
    _ = W7 m ρ c (Proc.devRef .tc main_arg4) := W8_of_ne m ρ c main_arg4 (by decide)
    _ = W6 m ρ c (Proc.devRef .tc main_arg4) := keep7 m ρ c main_arg4 (by decide)
    _ = W5 m ρ c (Proc.devRef .tc main_arg4) := W6_of_ne m ρ c main_arg4 (by decide)
    _ = W4 m ρ c (Proc.devRef .tc main_arg4) := keep5 m ρ c main_arg4 (by decide)
    _ = W3 m ρ c (Proc.devRef .tc main_arg4) := W4_of_ne m ρ c main_arg4 (by decide)
    _ = W2 m ρ c (Proc.devRef .tc main_arg4) := keep3 m ρ c main_arg4 (by decide)
    _ = W1 m ρ c (Proc.devRef .tc main_arg4) := W2_of_ne m ρ c main_arg4 (by decide)
    _ = W0 m ρ c (Proc.devRef .tc main_arg4) := keep1 m ρ c main_arg4 (by decide)
    _ = m ((c : Thread nD τ).loc main_arg4) := rfl

/-- No host operation writes argument 5 and no launch changes it: it ends as launched. -/
theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := keep9 m ρ c main_arg5 (by decide)
    _ = W7 m ρ c (Proc.devRef .tc main_arg5) := W8_of_ne m ρ c main_arg5 (by decide)
    _ = W6 m ρ c (Proc.devRef .tc main_arg5) := keep7 m ρ c main_arg5 (by decide)
    _ = W5 m ρ c (Proc.devRef .tc main_arg5) := W6_of_ne m ρ c main_arg5 (by decide)
    _ = W4 m ρ c (Proc.devRef .tc main_arg5) := keep5 m ρ c main_arg5 (by decide)
    _ = W3 m ρ c (Proc.devRef .tc main_arg5) := W4_of_ne m ρ c main_arg5 (by decide)
    _ = W2 m ρ c (Proc.devRef .tc main_arg5) := keep3 m ρ c main_arg5 (by decide)
    _ = W1 m ρ c (Proc.devRef .tc main_arg5) := W2_of_ne m ρ c main_arg5 (by decide)
    _ = W0 m ρ c (Proc.devRef .tc main_arg5) := keep1 m ρ c main_arg5 (by decide)
    _ = m ((c : Thread nD τ).loc main_arg5) := rfl

/-- No host operation writes argument 6 and no launch changes it: it ends as launched. -/
theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := keep9 m ρ c main_arg6 (by decide)
    _ = W7 m ρ c (Proc.devRef .tc main_arg6) := W8_of_ne m ρ c main_arg6 (by decide)
    _ = W6 m ρ c (Proc.devRef .tc main_arg6) := keep7 m ρ c main_arg6 (by decide)
    _ = W5 m ρ c (Proc.devRef .tc main_arg6) := W6_of_ne m ρ c main_arg6 (by decide)
    _ = W4 m ρ c (Proc.devRef .tc main_arg6) := keep5 m ρ c main_arg6 (by decide)
    _ = W3 m ρ c (Proc.devRef .tc main_arg6) := W4_of_ne m ρ c main_arg6 (by decide)
    _ = W2 m ρ c (Proc.devRef .tc main_arg6) := keep3 m ρ c main_arg6 (by decide)
    _ = W1 m ρ c (Proc.devRef .tc main_arg6) := W2_of_ne m ρ c main_arg6 (by decide)
    _ = W0 m ρ c (Proc.devRef .tc main_arg6) := keep1 m ρ c main_arg6 (by decide)
    _ = m ((c : Thread nD τ).loc main_arg6) := rfl

/-- No host operation writes argument 7 and no launch changes it: it ends as launched. -/
theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := keep9 m ρ c main_arg7 (by decide)
    _ = W7 m ρ c (Proc.devRef .tc main_arg7) := W8_of_ne m ρ c main_arg7 (by decide)
    _ = W6 m ρ c (Proc.devRef .tc main_arg7) := keep7 m ρ c main_arg7 (by decide)
    _ = W5 m ρ c (Proc.devRef .tc main_arg7) := W6_of_ne m ρ c main_arg7 (by decide)
    _ = W4 m ρ c (Proc.devRef .tc main_arg7) := keep5 m ρ c main_arg7 (by decide)
    _ = W3 m ρ c (Proc.devRef .tc main_arg7) := W4_of_ne m ρ c main_arg7 (by decide)
    _ = W2 m ρ c (Proc.devRef .tc main_arg7) := keep3 m ρ c main_arg7 (by decide)
    _ = W1 m ρ c (Proc.devRef .tc main_arg7) := W2_of_ne m ρ c main_arg7 (by decide)
    _ = W0 m ρ c (Proc.devRef .tc main_arg7) := keep1 m ρ c main_arg7 (by decide)
    _ = m ((c : Thread nD τ).loc main_arg7) := rfl

/-- No host operation writes argument 8 and no launch changes it: it ends as launched. -/
theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := keep9 m ρ c main_arg8 (by decide)
    _ = W7 m ρ c (Proc.devRef .tc main_arg8) := W8_of_ne m ρ c main_arg8 (by decide)
    _ = W6 m ρ c (Proc.devRef .tc main_arg8) := keep7 m ρ c main_arg8 (by decide)
    _ = W5 m ρ c (Proc.devRef .tc main_arg8) := W6_of_ne m ρ c main_arg8 (by decide)
    _ = W4 m ρ c (Proc.devRef .tc main_arg8) := keep5 m ρ c main_arg8 (by decide)
    _ = W3 m ρ c (Proc.devRef .tc main_arg8) := W4_of_ne m ρ c main_arg8 (by decide)
    _ = W2 m ρ c (Proc.devRef .tc main_arg8) := keep3 m ρ c main_arg8 (by decide)
    _ = W1 m ρ c (Proc.devRef .tc main_arg8) := W2_of_ne m ρ c main_arg8 (by decide)
    _ = W0 m ρ c (Proc.devRef .tc main_arg8) := keep1 m ρ c main_arg8 (by decide)
    _ = m ((c : Thread nD τ).loc main_arg8) := rfl

/-- No host operation writes argument 9 and no launch changes it: it ends as launched. -/
theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := keep9 m ρ c main_arg9 (by decide)
    _ = W7 m ρ c (Proc.devRef .tc main_arg9) := W8_of_ne m ρ c main_arg9 (by decide)
    _ = W6 m ρ c (Proc.devRef .tc main_arg9) := keep7 m ρ c main_arg9 (by decide)
    _ = W5 m ρ c (Proc.devRef .tc main_arg9) := W6_of_ne m ρ c main_arg9 (by decide)
    _ = W4 m ρ c (Proc.devRef .tc main_arg9) := keep5 m ρ c main_arg9 (by decide)
    _ = W3 m ρ c (Proc.devRef .tc main_arg9) := W4_of_ne m ρ c main_arg9 (by decide)
    _ = W2 m ρ c (Proc.devRef .tc main_arg9) := keep3 m ρ c main_arg9 (by decide)
    _ = W1 m ρ c (Proc.devRef .tc main_arg9) := W2_of_ne m ρ c main_arg9 (by decide)
    _ = W0 m ρ c (Proc.devRef .tc main_arg9) := keep1 m ρ c main_arg9 (by decide)
    _ = m ((c : Thread nD τ).loc main_arg9) := rfl

/-- No host operation writes argument 10 and no launch changes it: it ends as launched. -/
theorem W10_main_arg10 (c : Dev nD) : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := keep9 m ρ c main_arg10 (by decide)
    _ = W7 m ρ c (Proc.devRef .tc main_arg10) := W8_of_ne m ρ c main_arg10 (by decide)
    _ = W6 m ρ c (Proc.devRef .tc main_arg10) := keep7 m ρ c main_arg10 (by decide)
    _ = W5 m ρ c (Proc.devRef .tc main_arg10) := W6_of_ne m ρ c main_arg10 (by decide)
    _ = W4 m ρ c (Proc.devRef .tc main_arg10) := keep5 m ρ c main_arg10 (by decide)
    _ = W3 m ρ c (Proc.devRef .tc main_arg10) := W4_of_ne m ρ c main_arg10 (by decide)
    _ = W2 m ρ c (Proc.devRef .tc main_arg10) := keep3 m ρ c main_arg10 (by decide)
    _ = W1 m ρ c (Proc.devRef .tc main_arg10) := W2_of_ne m ρ c main_arg10 (by decide)
    _ = W0 m ρ c (Proc.devRef .tc main_arg10) := keep1 m ρ c main_arg10 (by decide)
    _ = m ((c : Thread nD τ).loc main_arg10) := rfl

/-- THE FRAME at any instance: every weakly fair execution terminates, nothing faults, the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c),
     (h c _ (mem_uc main_arg10 (by decide))).trans (W10_main_arg10 m ρ c)⟩) (run_all m ρ)

end Cert.Kernel.Hand

end
-- ==== Proof.KI.Reg0.lean ====
/-
  The node projection, first launch: ten row tiles of the node features (5000 rows of 128) against the
  whole 128 × 512 weight block, each tile's product written to the matching 5000 × 512 tile of the result.
  Here: what one grid point leaves in the result tile's staging buffer (the matrix product of the two
  staged blocks), the run of the body that shows it, and the proof data of the launch at arbitrary entry
  contents `V` of the buffers.
-/
import proofs.«111111_j10943576670413_1_alg».proof.Proof.Gen.KernelIdeal.Launch
import proofs.«111111_j10943576670413_1_alg».proof.Proof.Gen.KernelIdeal.Skeleton
import proofs.«111111_j10943576670413_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight block's staging buffer (fetched once, its index constant) holds the block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 5000 × 512 tile, as the one store's rectangle. -/
abbrev r0_out : Rect S5000x512 := Rect.unit (s := S5000x512) ![0, 0] S5000x512.size inb_S5000x512_S5000x512_0_0
abbrev r0_x : Rect S5000x128 := Rect.unit (s := S5000x128) ![0, 0] S5000x128.size inb_S5000x128_S5000x128_0_0
abbrev r0_w : Rect S128x512 := Rect.unit (s := S128x512) ![0, 0] S128x512.size inb_S128x512_S128x512_0_0

/-- What the body leaves in the result tile's buffer: the product of the feature tile and the weight block. -/
def out0_2 (x0 : Vec F S5000x128 .f32) (x1 : Vec F S128x512 .f32) : Vec F S5000x512 .f32 :=
  View.canon [⟨r0_out, k0_pay1 (View.ld x0 r0_x) (View.ld x1 r0_w)⟩]

/-- The one store covers the tile. -/
theorem cover0_2 (p0 : Vec F S5000x512 .f32) (y : S5000x512.Idx) :
    ∃ pc ∈ ([⟨r0_out, p0⟩] : List (View.Piece (Elt F) S5000x512 .f32)), y ∈ pc.1.set :=
  View.cover_of_tiled [⟨r0_out, p0⟩] S5000x512.size (by rfl) y

set_option maxHeartbeats 1000000 in
/-- The body on whole staging buffers: the two inputs are handed back as read, the result's buffer ends at `out0_2`. -/
theorem sound_kernel0 (c : Dev nD) (E : Set ℕ) (i : grid0.Coords) (arg1 : Memref sig .tc .vmem S5000x128 .f32) (harg1 : arg1.IsWhole) (arg2 : Memref sig .tc .vmem S128x512 .f32) (harg2 : arg2.IsWhole)
    (arg3 : Memref sig .tc .vmem S5000x512 .f32) (harg3 : arg3.IsWhole)
    (x0 : Vec F S5000x128 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The launch's proof data at entry contents `V`: inputs stay at their blocks, the result tile's buffer
    ends at the product; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first launch, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The edge projection, second launch: the 800000 × 128 edge features are cut into fifty row tiles of 16000 rows,
  and each tile is multiplied by the whole 128 × 128 weight block; the product fills the tile of the same rows
  in the 800000 × 128 result. This file fixes what one grid point leaves in the result tile's staging buffer
  (the matrix product of the two staged blocks), shows that the body computes it, and assembles the proof data
  of the launch for arbitrary entry contents `V` of the buffers.
-/
import proofs.«111111_j10943576670413_1_alg».proof.Proof.Gen.KernelIdeal.Launch
import proofs.«111111_j10943576670413_1_alg».proof.Proof.Gen.KernelIdeal.Skeleton
import proofs.«111111_j10943576670413_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` addresses, as a read of the window's array at its entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The edge tile is fetched at every point, so its staging buffer holds the point's own 16000 rows. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The 128 × 128 weight block has a constant index: fetched at the first point, it is still there at every later one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The full rectangles of the three blocks: the 16000 × 128 result tile the store writes, the edge tile and the weight block the loads read. -/
abbrev r1_out : Rect S16000x128 := Rect.unit (s := S16000x128) ![0, 0] S16000x128.size inb_S16000x128_S16000x128_0_0
abbrev r1_x : Rect S16000x128 := Rect.unit (s := S16000x128) ![0, 0] S16000x128.size inb_S16000x128_S16000x128_0_0
abbrev r1_w : Rect S128x128 := Rect.unit (s := S128x128) ![0, 0] S128x128.size inb_S128x128_S128x128_0_0

/-- The result tile after the body: the edge tile times the weight block, written over the whole tile. -/
def out1_2 (x0 : Vec F S16000x128 .f32) (x1 : Vec F S128x128 .f32) : Vec F S16000x128 .f32 :=
  View.canon [⟨r1_out, k1_pay1 (View.ld x0 r1_x) (View.ld x1 r1_w)⟩]

/-- A single piece of full extent covers every index of the tile. -/
theorem cover1_2 (p0 : Vec F S16000x128 .f32) (y : S16000x128.Idx) :
    ∃ pc ∈ ([⟨r1_out, p0⟩] : List (View.Piece (Elt F) S16000x128 .f32)), y ∈ pc.1.set :=
  View.cover_of_tiled [⟨r1_out, p0⟩] S16000x128.size (by rfl) y

set_option maxHeartbeats 1000000 in
/-- One run of the body: the two input buffers come back unchanged, and whatever the result buffer held is replaced by `out1_2`. -/
theorem sound_kernel1 (c : Dev nD) (E : Set ℕ) (i : grid1.Coords) (arg1 : Memref sig .tc .vmem S16000x128 .f32) (harg1 : arg1.IsWhole) (arg2 : Memref sig .tc .vmem S128x128 .f32) (harg2 : arg2.IsWhole)
    (arg3 : Memref sig .tc .vmem S16000x128 .f32) (harg3 : arg3.IsWhole)
    (x0 : Vec F S16000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- Proof data of the second launch at entry contents `V`: each input window ends a point at its own block, the
    result window at the product of the two; the invariant is the arrays' class invariant and no transfer is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Every grid point of the second launch meets the body obligation. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The gated message, third launch: 160 edge tiles of 5000 rows of 128. At each tile the four staged
  blocks a (source projection), b (destination projection), ch (source message) and en (new edge
  feature) give the tile ch * logistic((a + b) + en) of the result.
  Here: what one grid point leaves in the result tile's staging buffer, the run of the body that shows
  it, and the proof data of the launch at arbitrary entry contents `V` of the buffers.
-/
import proofs.«111111_j10943576670413_1_alg».proof.Proof.Gen.KernelIdeal.Launch
import proofs.«111111_j10943576670413_1_alg».proof.Proof.Gen.KernelIdeal.Skeleton
import proofs.«111111_j10943576670413_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The source-projection tile's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The destination-projection tile's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The source-message tile's staging buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The edge-feature tile's staging buffer holds its block at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole 5000 × 128 tile: the rectangle of every load and of the one store. -/
abbrev r2_tile : Rect S5000x128 := Rect.unit (s := S5000x128) ![0, 0] S5000x128.size inb_S5000x128_S5000x128_0_0

/-- What the body leaves in the result tile's buffer: ch * logistic((a + b) + en) of the four staged tiles
    (`x0` = a, `x1` = b, `x2` = ch, `x3` = en). -/
def out2_4 (x0 x1 x2 x3 : Vec F S5000x128 .f32) : Vec F S5000x128 .f32 :=
  View.canon [⟨r2_tile, k2_pay1 (View.ld x0 r2_tile) (View.ld x1 r2_tile) (View.ld x3 r2_tile) (View.ld x2 r2_tile)⟩]

/-- The one store covers the tile. -/
theorem cover2_4 (p0 : Vec F S5000x128 .f32) (y : S5000x128.Idx) :
    ∃ pc ∈ ([⟨r2_tile, p0⟩] : List (View.Piece (Elt F) S5000x128 .f32)), y ∈ pc.1.set :=
  View.cover_of_tiled [⟨r2_tile, p0⟩] S5000x128.size (by rfl) y

set_option maxHeartbeats 1000000 in
/-- The body on whole staging buffers: the four inputs are handed back as read, the result's buffer ends at `out2_4`. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S5000x128 .f32) (harg5 : arg5.IsWhole)
    (x0 x1 x2 x3 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__gate_kernel i arg1 harg1 arg2 harg2 arg3 harg3 arg4 harg4 arg5 harg5) K := by
  simp only [cc2__gate_kernel_eq_skeleton]; unfold cc2__gate_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The launch's proof data at entry contents `V`: inputs stay at their blocks, the result tile's buffer
    ends at the gated message of the four; the class invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the third launch, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.RunA.lean ====
/-
  The contents of the TensorCore's buffers at each boundary of the program up to the fourth launch's entry:
  the launch memory, then each stretch of host operations applied, then each launch's arrays at what its
  write-backs leave (every other buffer as it was).
-/
import proofs.«111111_j10943576670413_1_alg».proof.Proof.KI.Reg0
import proofs.«111111_j10943576670413_1_alg».proof.Proof.KI.Reg1
import proofs.«111111_j10943576670413_1_alg».proof.Proof.KI.Reg2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the four weight transposes and their concatenation). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the node projection. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the four column slices and the edge weight's transpose). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the edge projection. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the index normalisations and the three row gathers). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the gated message. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the fourth host stretch (the zero table and the segment sum of the messages). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

end Cert.KernelIdeal.Hand

end
-- ==== Proof.KI.Reg3.lean ====
/-
  The batch-norm statistics, fourth launch: ten row tiles (5000 rows of 128) of the two summands; at each
  grid point the tile of their sum is written to the result, and its column sums and the column sums of its
  squares are added to two running 1 × 128 rows kept in scratch memory (reset to zero at the first point);
  at the last point the two rows are copied to the two 1 × 128 results.
  Here: what one grid point leaves in the result tile's buffer, in the two running rows and (at the last
  point) in the two row results; the three runs of the body (first point, middle points, last point) that
  show it; the accumulation over the grid; and the proof data of the launch at arbitrary entry contents `V`
  of the buffers, with the invariant that names the two rows' contents between points.
-/
import proofs.«111111_j10943576670413_1_alg».proof.Proof.Gen.KernelIdeal.Launch
import proofs.«111111_j10943576670413_1_alg».proof.Proof.Gen.KernelIdeal.Skeleton
import proofs.«111111_j10943576670413_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first input tile's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The second input tile's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, over the grid -/

/-- The first conditional (the reset of the two running rows): the grid coordinate is 0. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 10 = 0 :=
  (by decide +kernel : ∀ t : Fin grid3.N, cond3_0 (grid3.coords t) ↔ t.val % 10 = 0)

/-- The second conditional (the copy of the two running rows to their outputs): the grid coordinate is 9. -/
abbrev cond3_1 (i : grid3.Coords) : Prop := k3_cond2 i = 1#1
/-- It holds at the last point only. -/
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Off the last point the two row outputs are idle and not written back; -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- at the last point they are live. -/
theorem liveAt3_3 : ∀ t : Fin cfg3.N, cond3_1 (grid3.coords t) → cfg3.idle 3 (grid3.coords t) = false := by decide +kernel
theorem liveAt3_4 : ∀ t : Fin cfg3.N, cond3_1 (grid3.coords t) → cfg3.idle 4 (grid3.coords t) = false := by decide +kernel

/-! ## The staging memrefs and the two scratch rows -/

abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
/-- The running column sums of the tiles, -/
abbrev scM3_0 : Memref sig .tc .vmem S1x128 .f32 := Memref.whole cc3_scratch0
/-- and of their squares. -/
abbrev scM3_1 : Memref sig .tc .vmem S1x128 .f32 := Memref.whole cc3_scratch1

/-- The class invariant with the two scratch rows as memrefs owned at some contents, the other scoped buffers unopened. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

/-! ## What the body leaves -/

/-- The whole 5000 × 128 tile and the whole 1 × 128 row, as the loads' and stores' rectangles. -/
abbrev r3_t : Rect S5000x128 := Rect.unit (s := S5000x128) ![0, 0] S5000x128.size inb_S5000x128_S5000x128_0_0
abbrev r3_r : Rect S1x128 := Rect.unit (s := S1x128) ![0, 0] S1x128.size inb_S1x128_S1x128_0_0

/-- The output tile: the sum of the two input tiles. -/
def out3_2 (x0 x1 : Vec F S5000x128 .f32) : Vec F S5000x128 .f32 :=
  View.canon [⟨r3_t, k3_pay3 (View.ld x0 r3_t) (View.ld x1 r3_t)⟩]

/-- The running sum row after a point: the row carried in plus the column sums of the point's output tile. -/
def sacc3_0 (x0 x1 : Vec F S5000x128 .f32) (s : Vec F S1x128 .f32) : Vec F S1x128 .f32 :=
  View.canon [⟨r3_r, k3_pay4 (View.ld x0 r3_t) (View.ld x1 r3_t) (View.ld s r3_r)⟩]

/-- The running sum-of-squares row after a point: the row carried in plus the column sums of the squared output tile. -/
def sacc3_1 (x0 x1 : Vec F S5000x128 .f32) (s : Vec F S1x128 .f32) : Vec F S1x128 .f32 :=
  View.canon [⟨r3_r, k3_pay5 (View.ld x0 r3_t) (View.ld x1 r3_t) (View.ld s r3_r)⟩]

/-- The two rows as the first point resets them: zeros. -/
def szero3_0 : Vec F S1x128 .f32 := View.canon [⟨r3_r, k3_pay1 (F := F)⟩]
def szero3_1 : Vec F S1x128 .f32 := View.canon [⟨r3_r, k3_pay2 (F := F)⟩]

/-- A row output at the last point: the scratch row just accumulated, copied. -/
def srow3 (s : Vec F S1x128 .f32) : Vec F S1x128 .f32 :=
  View.canon [⟨r3_r, View.ld s r3_r⟩]

theorem cover3_t (p0 : r3_t.shape.Idx → Elt F .f32) (y : S5000x128.Idx) :
    ∃ pc ∈ ([⟨r3_t, p0⟩] : List (View.Piece (Elt F) S5000x128 .f32)), y ∈ pc.1.set :=
  View.cover_of_tiled [⟨r3_t, p0⟩] S5000x128.size (by rfl) y

theorem cover3_r (p0 : r3_r.shape.Idx → Elt F .f32) (L : List (View.Piece (Elt F) S1x128 .f32)) (y : S1x128.Idx) :
    ∃ pc ∈ ((⟨r3_r, p0⟩ :: L : List (View.Piece (Elt F) S1x128 .f32))), y ∈ pc.1.set :=
  ⟨_, List.mem_cons_self, View.mem_set_unit_zero (off := ![0, 0]) (by funext a; fin_cases a <;> rfl) inb_S1x128_S1x128_0_0 y⟩

/-! ## The same contents, without the rectangles -/

theorem off3_zero2 : (![0, 0] : Fin 2 → ℕ) = fun _ => 0 := by funext a; fin_cases a <;> rfl

/-- A load of the whole row reads the row; -/
theorem ld_r3_r (s : Vec F S1x128 .f32) : View.ld s r3_r = s := View.ld_unit_zero off3_zero2 _ s
/-- a load of the whole tile reads the tile; -/
theorem ld_r3_t (x : Vec F S5000x128 .f32) : View.ld x r3_t = x := View.ld_unit_zero off3_zero2 _ x
/-- a store of the whole row, last, leaves its payload; -/
theorem canon_r3_r (w : r3_r.shape.Idx → Elt F .f32) (L : List (View.Piece (Elt F) S1x128 .f32)) : View.canon (⟨r3_r, w⟩ :: L) = w :=
  View.canon_cons_unit_zero off3_zero2 _ w L
/-- a store of the whole tile, last, leaves its payload. -/
theorem canon_r3_t (w : r3_t.shape.Idx → Elt F .f32) (L : List (View.Piece (Elt F) S5000x128 .f32)) : View.canon (⟨r3_t, w⟩ :: L) = w :=
  View.canon_cons_unit_zero off3_zero2 _ w L

theorem out3_2_eq (x0 x1 : Vec F S5000x128 .f32) : out3_2 x0 x1 = k3_pay3 x0 x1 := by
  unfold out3_2; rw [canon_r3_t, ld_r3_t, ld_r3_t]
theorem sacc3_0_eq (x0 x1 : Vec F S5000x128 .f32) (s : Vec F S1x128 .f32) : sacc3_0 x0 x1 s = k3_pay4 x0 x1 s := by
  unfold sacc3_0; rw [canon_r3_r, ld_r3_r, ld_r3_t, ld_r3_t]
theorem sacc3_1_eq (x0 x1 : Vec F S5000x128 .f32) (s : Vec F S1x128 .f32) : sacc3_1 x0 x1 s = k3_pay5 x0 x1 s := by
  unfold sacc3_1; rw [canon_r3_r, ld_r3_r, ld_r3_t, ld_r3_t]
theorem szero3_0_eq : szero3_0 (F := F) = k3_pay1 := canon_r3_r _ _
theorem szero3_1_eq : szero3_1 (F := F) = k3_pay2 := canon_r3_r _ _
theorem srow3_eq (s : Vec F S1x128 .f32) : srow3 s = s := by
  unfold srow3; rw [canon_r3_r, ld_r3_r]

/-! ## The body's three runs -/

set_option maxHeartbeats 1000000 in
theorem sound_kernel3_B (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : ¬cond3_0 i) (hc1 : ¬cond3_1 i)
    (x0 x1 : Vec F S5000x128 .f32) (xi3 xi4 s0 s1 : Vec F S1x128 .f32)
    (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out3_2 x0 x1) ∗ owns (c : Thread nD τ) arg4 fullShare xi3 ∗ owns (c : Thread nD τ) arg5 fullShare xi4 ∗ owns (c : Thread nD τ) arg6 fullShare (sacc3_0 x0 x1 s0) ∗ owns (c : Thread nD τ) arg7 fullShare (sacc3_1 x0 x1 s1)) -∗ K ⟨⟩))
      ⊢ wp frame (wpE (defs₀ (F := F)) Variants.none c none) E (cc3__bn_stats_kernel i arg1 harg1 arg2 harg2 arg3 harg3 arg4 harg4 arg5 harg5 arg6 harg6 arg7 harg7) K := by
  simp only [cc3__bn_stats_kernel_eq_skeleton]; unfold cc3__bn_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  subst hf0; subst hf1; subst hf3; subst hf4; subst hf5; subst hf6
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr
    swap; · iexact H2
    ipureintro; exact View.read_writes_eq_canon _ _ _ (cover3_t _)
  isplitl [H3]
  · iexists _; isplitr; · ipureintro; rfl
    iexact H3
  isplitl [H4]
  · iexists _; isplitr; · ipureintro; rfl
    iexact H4
  isplitl [H5]
  · iexists _; isplitr
    swap; · iexact H5
    ipureintro; exact View.read_writes_eq_canon _ _ _ (cover3_r _ _)
  iexists _; isplitr
  swap; · iexact H6
  ipureintro; exact View.read_writes_eq_canon _ _ _ (cover3_r _ _)

set_option maxHeartbeats 1000000 in
theorem sound_kernel3_A (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : cond3_0 i) (hc1 : ¬cond3_1 i)
    (x0 x1 : Vec F S5000x128 .f32) (xi3 xi4 : Vec F S1x128 .f32)
    (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out3_2 x0 x1) ∗ owns (c : Thread nD τ) arg4 fullShare xi3 ∗ owns (c : Thread nD τ) arg5 fullShare xi4 ∗ owns (c : Thread nD τ) arg6 fullShare (sacc3_0 x0 x1 szero3_0) ∗ owns (c : Thread nD τ) arg7 fullShare (sacc3_1 x0 x1 szero3_1)) -∗ K ⟨⟩))
      ⊢ wp frame (wpE (defs₀ (F := F)) Variants.none c none) E (cc3__bn_stats_kernel i arg1 harg1 arg2 harg2 arg3 harg3 arg4 harg4 arg5 harg5 arg6 harg6 arg7 harg7) K := by
  simp only [cc3__bn_stats_kernel_eq_skeleton]; unfold cc3__bn_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
  subst hf0; subst hf1; subst hf3; subst hf4
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr
    swap; · iexact H2
    ipureintro; exact View.read_writes_eq_canon _ _ _ (cover3_t _)
  isplitl [H3]
  · iexists _; isplitr; · ipureintro; rfl
    iexact H3
  isplitl [H4]
  · iexists _; isplitr; · ipureintro; rfl
    iexact H4
  isplitl [H5]
  · iexists _; isplitr
    swap; · iexact H5
    ipureintro; exact (View.read_writes_eq_canon _ _ _ (cover3_r _ _)).trans ((canon_r3_r _ _).trans ((congrArg (k3_pay4 _ _) ((View.readCov_unit_zero _ off3_zero2 _ _).trans ((ld_r3_r _).trans szero3_0_eq).symm)).trans (canon_r3_r _ _).symm))
  iexists _; isplitr
  swap; · iexact H6
  ipureintro; exact (View.read_writes_eq_canon _ _ _ (cover3_r _ _)).trans ((canon_r3_r _ _).trans ((congrArg (k3_pay5 _ _) ((View.readCov_unit_zero _ off3_zero2 _ _).trans ((ld_r3_r _).trans szero3_1_eq).symm)).trans (canon_r3_r _ _).symm))

set_option maxHeartbeats 1000000 in
theorem sound_kernel3_C (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : ¬cond3_0 i) (hc1 : cond3_1 i)
    (x0 x1 : Vec F S5000x128 .f32) (s0 s1 : Vec F S1x128 .f32)
    (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out3_2 x0 x1) ∗ owns (c : Thread nD τ) arg4 fullShare (srow3 (sacc3_0 x0 x1 s0)) ∗ owns (c : Thread nD τ) arg5 fullShare (srow3 (sacc3_1 x0 x1 s1)) ∗ owns (c : Thread nD τ) arg6 fullShare (sacc3_0 x0 x1 s0) ∗ owns (c : Thread nD τ) arg7 fullShare (sacc3_1 x0 x1 s1)) -∗ K ⟨⟩))
      ⊢ wp frame (wpE (defs₀ (F := F)) Variants.none c none) E (cc3__bn_stats_kernel i arg1 harg1 arg2 harg2 arg3 harg3 arg4 harg4 arg5 harg5 arg6 harg6 arg7 harg7) K := by
  simp only [cc3__bn_stats_kernel_eq_skeleton]; unfold cc3__bn_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr
    swap; · iexact H2
    ipureintro; exact View.read_writes_eq_canon _ _ _ (cover3_t _)
  isplitl [H3]
  · iexists _; isplitr
    swap; · iexact H3
    ipureintro; exact (View.read_writes_eq_canon _ _ _ (cover3_r _ _)).trans ((canon_r3_r _ _).trans ((View.readCov_unit_zero _ off3_zero2 _ _).trans ((canon_r3_r _ _).symm.trans (srow3_eq _).symm)))
  isplitl [H4]
  · iexists _; isplitr
    swap; · iexact H4
    ipureintro; exact (View.read_writes_eq_canon _ _ _ (cover3_r _ _)).trans ((canon_r3_r _ _).trans ((View.readCov_unit_zero _ off3_zero2 _ _).trans ((canon_r3_r _ _).symm.trans (srow3_eq _).symm)))
  isplitl [H5]
  · iexists _; isplitr
    swap; · iexact H5
    ipureintro; exact View.read_writes_eq_canon _ _ _ (cover3_r _ _)
  iexists _; isplitr
  swap; · iexact H6
  ipureintro; exact View.read_writes_eq_canon _ _ _ (cover3_r _ _)

/-! ## What the outputs and the two scratch rows hold after each point -/

/-- One point's step: from the two input tiles and the two rows carried in, the output tile, the two row
    outputs (the rows just accumulated, copied: what the last point stores; at the other points the row
    outputs are idle and these two components are not consulted), and the two rows carried out. -/
def step3 (x0 x1 : Vec F S5000x128 .f32) (s0 s1 : Vec F S1x128 .f32) : Vec F S5000x128 .f32 × Vec F S1x128 .f32 × Vec F S1x128 .f32 × Vec F S1x128 .f32 × Vec F S1x128 .f32 :=
  (out3_2 x0 x1, srow3 (sacc3_0 x0 x1 s0), srow3 (sacc3_1 x0 x1 s1), sacc3_0 x0 x1 s0, sacc3_1 x0 x1 s1)

/-- The accumulation over the grid: (output tile, row output 3, row output 4, sum row, sum-of-squares row)
    after the body at position `n`. The first point starts from the zero rows, every later point from the
    rows the point before left. -/
def outsAt3 (c : Dev nD) : (n : ℕ) → n < cfg3.N → Vec F S5000x128 .f32 × Vec F S1x128 .f32 × Vec F S1x128 .f32 × Vec F S1x128 .f32 × Vec F S1x128 .f32
  | 0, hn => step3 (iblk3 V c 0 ⟨0, hn⟩) (iblk3 V c 1 ⟨0, hn⟩) szero3_0 szero3_1
  | n + 1, hn => step3 (iblk3 V c 0 ⟨n + 1, hn⟩) (iblk3 V c 1 ⟨n + 1, hn⟩)
      (outsAt3 c n (Nat.lt_of_succ_lt hn)).2.2.2.1 (outsAt3 c n (Nat.lt_of_succ_lt hn)).2.2.2.2

theorem outsAt3_zero (c : Dev nD) (hn : 0 < cfg3.N) :
    outsAt3 V c 0 hn = step3 (iblk3 V c 0 ⟨0, hn⟩) (iblk3 V c 1 ⟨0, hn⟩) szero3_0 szero3_1 := rfl
theorem outsAt3_succ (c : Dev nD) (n : ℕ) (hn : n + 1 < cfg3.N) :
    outsAt3 V c (n + 1) hn = step3 (iblk3 V c 0 ⟨n + 1, hn⟩) (iblk3 V c 1 ⟨n + 1, hn⟩)
      (outsAt3 V c n (Nat.lt_of_succ_lt hn)).2.2.2.1 (outsAt3 V c n (Nat.lt_of_succ_lt hn)).2.2.2.2 := rfl

/-- At the first point: the step from the zero rows. -/
theorem outsAt3_A (c : Dev nD) (t : Fin cfg3.N) (h0 : t.val % 10 = 0) :
    outsAt3 V c t.val t.isLt = step3 (iblk3 V c 0 t) (iblk3 V c 1 t) szero3_0 szero3_1 := by
  obtain ⟨n, hn⟩ := t
  cases n with
  | zero => rfl
  | succ n => exfalso; have hN : n + 1 < 10 := lt_of_lt_of_eq hn (show cfg3.N = 10 from N_3); (try dsimp only at h0); omega

/-- At a point after the first: the step from the rows the point before left. -/
theorem outsAt3_pos (c : Dev nD) (t : Fin cfg3.N) (h0 : ¬t.val % 10 = 0) :
    outsAt3 V c t.val t.isLt = step3 (iblk3 V c 0 t) (iblk3 V c 1 t)
      (outsAt3 V c (t.val - 1) (Nat.lt_of_le_of_lt (Nat.sub_le _ _) t.isLt)).2.2.2.1
      (outsAt3 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => rfl

/-- At a middle point (neither first nor last). -/
theorem outsAt3_B (c : Dev nD) (t : Fin cfg3.N) (h0 : ¬t.val % 10 = 0) (h1 : ¬t.val % 10 = 9) :
    outsAt3 V c t.val t.isLt = step3 (iblk3 V c 0 t) (iblk3 V c 1 t)
      (outsAt3 V c (t.val - 1) (Nat.lt_of_le_of_lt (Nat.sub_le _ _) t.isLt)).2.2.2.1
      (outsAt3 V c (t.val - 1) (Nat.lt_of_le_of_lt (Nat.sub_le _ _) t.isLt)).2.2.2.2 := outsAt3_pos V c t h0

/-- At the last point. -/
theorem outsAt3_C (c : Dev nD) (t : Fin cfg3.N) (h0 : ¬t.val % 10 = 0) (h1 : t.val % 10 = 9) :
    outsAt3 V c t.val t.isLt = step3 (iblk3 V c 0 t) (iblk3 V c 1 t)
      (outsAt3 V c (t.val - 1) (Nat.lt_of_le_of_lt (Nat.sub_le _ _) t.isLt)).2.2.2.1
      (outsAt3 V c (t.val - 1) (Nat.lt_of_le_of_lt (Nat.sub_le _ _) t.isLt)).2.2.2.2 := outsAt3_pos V c t h0

/-! ## The invariant: the two scratch rows at their named contents -/

/-- Before position `n`: at the start the class invariant (the two rows at anything); afterwards the two rows
    at what the point before left, beside the unopened scoped buffers and the generator register. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.2.1) ∗ owns (c : Thread nD τ) scM3_1 fullShare ((outsAt3 V c n hn).2.2.2.2))
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.2.2.1) ∗ owns (c : Thread nD τ) scM3_1 fullShare ((outsAt3 V c n hn).2.2.2.2))
      ∗ Pipeline.scopedRestBut (Ix := Unit) (Name := ℕ) (U := UR sig nD τ) (Lvl := ℕ) (Val := Elt F) spec3 c [cc3_scratch0, cc3_scratch1]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.2.1) ∗ owns (c : Thread nD τ) scM3_1 fullShare ((outsAt3 V c (n - 1) (by omega)).2.2.2.2))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The launch's proof data -/

/-- The proof data at entry contents `V`: the inputs stay at their blocks; the output tile, the two row outputs
    and (through the invariant) the two scratch rows at `outsAt3`'s components; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
    | ⟨3, _⟩ => (outsAt3 V c t.val t.isLt).2.1
    | ⟨4, _⟩ => (outsAt3 V c t.val t.isLt).2.2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem after3_3 (c : Dev nD) (t : Fin cfg3.N) : (dat3 V c).after 3 t = (outsAt3 V c t.val t.isLt).2.1 := by dsimp only [dat3]
theorem after3_4 (c : Dev nD) (t : Fin cfg3.N) : (dat3 V c).after 4 t = (outsAt3 V c t.val t.isLt).2.2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4000000 in
/-- The body at any point. The inputs' buffers hold their blocks; the point is the first, a middle one or the
    last; the invariant hands the body the two rows (at anything at the first point, else at what the point
    before left) and takes them back at this point's contents; off the last point the two row outputs are
    handed back untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  have hN : t.val < 10 := lt_of_lt_of_eq t.isLt (show cfg3.N = 10 from N_3)
  by_cases h0 : t.val % 10 = 0
  · have hz : t.val = 0 := by omega
    have hc0 : cond3_0 (grid3.coords t) := (hcond3_0 t).mpr h0
    have hc1 : ¬cond3_1 (grid3.coords t) := fun h => by have := (hcond3_1 t).mp h; omega
    rw [Dat.leavesExact_idle (dat3 V c) 3 t (idleAt3_3 t hc1) (noFlush3_3 t hc1)]
    rw [Dat.leavesExact_idle (dat3 V c) 4 t (idleAt3_4 t hc1) (noFlush3_4 t hc1)]
    rw [outsAt3_A V c t h0]
    unfold step3; (try dsimp only)
    rw [PhiS3_castSucc V c t, PhiS3_zero V c _ _ hz, PhiA3_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (sound_kernel3_A c Set.univ (grid3.coords t) _ _ _ _ _ _ _ _ _ _ _ _ _ _ hc0 hc1 (iblk3 V c 0 t) (iblk3 V c 1 t) _ _ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitr [Hg]
      · isplitr [HR]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := by omega
    have hc0 : ¬cond3_0 (grid3.coords t) := fun h => h0 ((hcond3_0 t).mp h)
    by_cases h1 : t.val % 10 = 9
    · have hc1 : cond3_1 (grid3.coords t) := (hcond3_1 t).mpr h1
      rw [show (dat3 V c).leavesExact 3 t = owns (c : Thread nD τ) (ms3_3 t) fullShare ((dat3 V c).after 3 t) from by
      unfold Dat.leavesExact; rw [liveAt3_3 t hc1], after3_3]
      rw [show (dat3 V c).leavesExact 4 t = owns (c : Thread nD τ) (ms3_4 t) fullShare ((dat3 V c).after 4 t) from by
      unfold Dat.leavesExact; rw [liveAt3_4 t hc1], after3_4]
      rw [outsAt3_C V c t h0 h1]
      unfold step3; (try dsimp only)
      rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel3_C c Set.univ (grid3.coords t) _ _ _ _ _ _ _ _ _ _ _ _ _ _ hc0 hc1 (iblk3 V c 0 t) (iblk3 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · have hc1 : ¬cond3_1 (grid3.coords t) := fun h => h1 ((hcond3_1 t).mp h)
      rw [Dat.leavesExact_idle (dat3 V c) 3 t (idleAt3_3 t hc1) (noFlush3_3 t hc1)]
      rw [Dat.leavesExact_idle (dat3 V c) 4 t (idleAt3_4 t hc1) (noFlush3_4 t hc1)]
      rw [outsAt3_B V c t h0 h1]
      unfold step3; (try dsimp only)
      rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel3_B c Set.univ (grid3.coords t) _ _ _ _ _ _ _ _ _ _ _ _ _ _ hc0 hc1 (iblk3 V c 0 t) (iblk3 V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitr [Hg]
        · isplitr [HR]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of the fourth launch, at every grid point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the class invariant back: the two rows' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitr [Hg]
  · isplitr [HR]
    · isplitl [HS0]
      · iexists _; iexact HS0
      iexists _; iexact HS1
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 10 := N_3; omega)

end Cert.KernelIdeal.Hand

end
-- ==== Proof.KI.Reg4.lean ====
/-
  The normalisation, fifth launch: ten row tiles of the summed node features (5000 rows of 128), each
  shifted by the column mean, scaled by the reciprocal square root of the column variance plus a small
  constant, scaled by gamma, shifted by beta and clamped below at zero; the four rows of 128 (mean,
  variance, gamma, beta) are staged once and stay in place. Here: what one grid point leaves in the
  result tile's staging buffer, the run of the body that shows it, and the proof data of the launch at
  arbitrary entry contents `V` of the buffers.
-/
import proofs.«111111_j10943576670413_1_alg».proof.Proof.Gen.KernelIdeal.Launch
import proofs.«111111_j10943576670413_1_alg».proof.Proof.Gen.KernelIdeal.Skeleton
import proofs.«111111_j10943576670413_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the launch finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The feature tile's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The mean row's staging buffer (fetched once, its index constant) holds the row at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The variance row's staging buffer (fetched once, its index constant) holds the row at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The gamma row's staging buffer (fetched once, its index constant) holds the row at every point. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The beta row's staging buffer (fetched once, its index constant) holds the row at every point. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The whole 5000 × 128 tile, as the one store's rectangle, and the whole row of 128. -/
abbrev r4_tile : Rect S5000x128 := Rect.unit (s := S5000x128) ![0, 0] S5000x128.size inb_S5000x128_S5000x128_0_0
abbrev r4_row : Rect S1x128 := Rect.unit (s := S1x128) ![0, 0] S1x128.size inb_S1x128_S1x128_0_0

/-- What the body leaves in the result tile's buffer: the normalised, scaled, shifted and clamped feature tile. -/
def out4_5 (x0 : Vec F S5000x128 .f32) (x1 x2 x3 x4 : Vec F S1x128 .f32) : Vec F S5000x128 .f32 :=
  View.canon [⟨r4_tile, k4_pay1 (View.ld x0 r4_tile) (View.ld x1 r4_row) (View.ld x2 r4_row) (View.ld x3 r4_row) (View.ld x4 r4_row)⟩]

/-- The one store covers the tile. -/
theorem cover4_5 (p0 : Vec F S5000x128 .f32) (y : S5000x128.Idx) :
    ∃ pc ∈ ([⟨r4_tile, p0⟩] : List (View.Piece (Elt F) S5000x128 .f32)), y ∈ pc.1.set :=
  View.cover_of_tiled [⟨r4_tile, p0⟩] S5000x128.size (by rfl) y

set_option maxHeartbeats 1000000 in
/-- The body on whole staging buffers: the five inputs are handed back as read, the result's buffer ends at `out4_5`. -/
theorem sound_kernel4 (c : Dev nD) (E : Set ℕ) (i : grid4.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__bn_norm_kernel i arg1 harg1 arg2 harg2 arg3 harg3 arg4 harg4 arg5 harg5 arg6 harg6) K := by
  simp only [cc4__bn_norm_kernel_eq_skeleton]; unfold cc4__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The launch's proof data at entry contents `V`: inputs stay at their blocks, the result tile's buffer
    ends at the normalised tile; the class invariant; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the fifth launch, at every grid point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The whole program as a run: the buffer contents at the last boundaries (after the statistics launch, the
  host arithmetic on the statistics, the normalisation launch), every launch as a segment entered from the
  buffers at its boundary's contents and left at the next boundary's, the host stretches between them, and the
  launch of the whole: every weakly fair execution terminates with every unscoped buffer at the last boundary's
  contents.
-/
import proofs.«111111_j10943576670413_1_alg».proof.Proof.KI.RunA
import proofs.«111111_j10943576670413_1_alg».proof.Proof.KI.Reg3
import proofs.«111111_j10943576670413_1_alg».proof.Proof.KI.Reg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After launch 3: its arrays at what the write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the last host stretch (mean, mean of squares, variance; the scale and shift rows). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b

/-- After launch 4: its arrays at what the write-backs leave, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- No launch has a prefetched table. -/
abbrev adm : (p : Fin 5) → (pcfgs (F := F) p).Adm := fun p => (cfgs p).toPCfg_adm
/-- Every launch's proof data, each at its entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m ρ c) ∗ ∃ r, prngReg c r)

set_option backward.isDefEq.respectTransparency.types false in
/-- Launch 0 over the thread state: its arrays taken out of the unscoped buffers at the entry contents and put back at
    the exit contents; the generator register lent to the launch's invariant and returned; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: its arrays taken out of the unscoped buffers at the entry contents and put back at
    the exit contents; the generator register lent to the launch's invariant and returned; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: its arrays taken out of the unscoped buffers at the entry contents and put back at
    the exit contents; the generator register lent to the launch's invariant and returned; nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 over the thread state: its arrays taken out of the unscoped buffers at the entry contents and put back at
    the exit contents; the generator register lent to the launch's invariant and returned; nothing owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show iprop(Pipeline.scopedRest spec3 c ∗ ∃ r, prngReg c r) ⊢ ((pdats m ρ 3 c).Φ 0 : sProp 𝕄) from hin3 (V7 m ρ) c)
    isplitl [Hr]; · iexact Hr
    iexact Hp
  hout c := by
    rw [Pipeline.ownSems0_none]
    refine (hout3 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4 over the thread state: its arrays taken out of the unscoped buffers at the entry contents and put back at
    the exit contents; the generator register lent to the launch's invariant and returned; nothing owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's ten segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KernelIdeal.Hand

end
-- ==== Proof.KI.Args.lean ====
/-
  The frame: every argument array ends holding its launch contents. An argument is written by no host operation;
  the launches change only their own result arrays, and the two that stage an argument as an input window (the
  node features in the first, the edge features in the second) hand it back as found. So the contents at the last
  boundary, read at an argument, walk back to the launch memory.
-/
import proofs.«111111_j10943576670413_1_alg».proof.Proof.KI.Run
import proofs.«111111_j10943576670413_1_alg».proof.Proof.Gen.KernelIdeal.Regions

set_option maxRecDepth 16384

noncomputable section

namespace Cert.KernelIdeal.Hand

open Cert.KernelIdeal
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- A host stretch leaves every buffer it does not write as it found it. -/
theorem keep1 (c : Dev nD) (r : Ref sig .tc) (h : r ∉ (Gen.hostOps0_W : List (Ref sig .tc))) : W1 m ρ c (Proc.devRef .tc r) = W0 m ρ c (Proc.devRef .tc r) :=
  StableHlo.after_of_writes_sub Gen.hostOps0 _ Gen.hostOps0_writes h
theorem keep3 (c : Dev nD) (r : Ref sig .tc) (h : r ∉ (Gen.hostOps1_W : List (Ref sig .tc))) : W3 m ρ c (Proc.devRef .tc r) = W2 m ρ c (Proc.devRef .tc r) :=
  StableHlo.after_of_writes_sub Gen.hostOps1 _ Gen.hostOps1_writes h
theorem keep5 (c : Dev nD) (r : Ref sig .tc) (h : r ∉ (Gen.hostOps2_W : List (Ref sig .tc))) : W5 m ρ c (Proc.devRef .tc r) = W4 m ρ c (Proc.devRef .tc r) :=
  StableHlo.after_of_writes_sub Gen.hostOps2 _ Gen.hostOps2_writes h
theorem keep7 (c : Dev nD) (r : Ref sig .tc) (h : r ∉ (Gen.hostOps3_W : List (Ref sig .tc))) : W7 m ρ c (Proc.devRef .tc r) = W6 m ρ c (Proc.devRef .tc r) :=
  StableHlo.after_of_writes_sub Gen.hostOps3 _ Gen.hostOps3_writes h
theorem keep9 (c : Dev nD) (r : Ref sig .tc) (h : r ∉ (Gen.hostOps4_W : List (Ref sig .tc))) : W9 m ρ c (Proc.devRef .tc r) = W8 m ρ c (Proc.devRef .tc r) :=
  StableHlo.after_of_writes_sub Gen.hostOps4 _ Gen.hostOps4_writes h

/-- No host operation writes argument 0 and no launch changes it (the launch that stages it as an input hands its array back as found): it ends as launched. -/
theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := keep9 m ρ c main_arg0 (by decide)
    _ = W7 m ρ c (Proc.devRef .tc main_arg0) := W8_of_ne m ρ c main_arg0 (by decide)
    _ = W6 m ρ c (Proc.devRef .tc main_arg0) := keep7 m ρ c main_arg0 (by decide)
    _ = W5 m ρ c (Proc.devRef .tc main_arg0) := W6_of_ne m ρ c main_arg0 (by decide)
    _ = W4 m ρ c (Proc.devRef .tc main_arg0) := keep5 m ρ c main_arg0 (by decide)
    _ = W3 m ρ c (Proc.devRef .tc main_arg0) := W4_of_ne m ρ c main_arg0 (by decide)
    _ = W2 m ρ c (Proc.devRef .tc main_arg0) := keep3 m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keep1 m ρ c main_arg0 (by decide)
    _ = m ((c : Thread nD τ).loc main_arg0) := rfl

/-- No host operation writes argument 1 and no launch changes it (the launch that stages it as an input hands its array back as found): it ends as launched. -/
theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := keep9 m ρ c main_arg1 (by decide)
    _ = W7 m ρ c (Proc.devRef .tc main_arg1) := W8_of_ne m ρ c main_arg1 (by decide)
    _ = W6 m ρ c (Proc.devRef .tc main_arg1) := keep7 m ρ c main_arg1 (by decide)
    _ = W5 m ρ c (Proc.devRef .tc main_arg1) := W6_of_ne m ρ c main_arg1 (by decide)
    _ = W4 m ρ c (Proc.devRef .tc main_arg1) := keep5 m ρ c main_arg1 (by decide)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := keep3 m ρ c main_arg1 (by decide)
    _ = W1 m ρ c (Proc.devRef .tc main_arg1) := W2_of_ne m ρ c main_arg1 (by decide)
    _ = W0 m ρ c (Proc.devRef .tc main_arg1) := keep1 m ρ c main_arg1 (by decide)
    _ = m ((c : Thread nD τ).loc main_arg1) := rfl

/-- No host operation writes argument 2 and no launch changes it: it ends as launched. -/
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := keep9 m ρ c main_arg2 (by decide)
    _ = W7 m ρ c (Proc.devRef .tc main_arg2) := W8_of_ne m ρ c main_arg2 (by decide)
    _ = W6 m ρ c (Proc.devRef .tc main_arg2) := keep7 m ρ c main_arg2 (by decide)
    _ = W5 m ρ c (Proc.devRef .tc main_arg2) := W6_of_ne m ρ c main_arg2 (by decide)
    _ = W4 m ρ c (Proc.devRef .tc main_arg2) := keep5 m ρ c main_arg2 (by decide)
    _ = W3 m ρ c (Proc.devRef .tc main_arg2) := W4_of_ne m ρ c main_arg2 (by decide)
    _ = W2 m ρ c (Proc.devRef .tc main_arg2) := keep3 m ρ c main_arg2 (by decide)
    _ = W1 m ρ c (Proc.devRef .tc main_arg2) := W2_of_ne m ρ c main_arg2 (by decide)
    _ = W0 m ρ c (Proc.devRef .tc main_arg2) := keep1 m ρ c main_arg2 (by decide)
    _ = m ((c : Thread nD τ).loc main_arg2) := rfl

/-- No host operation writes argument 3 and no launch changes it: it ends as launched. -/
theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := keep9 m ρ c main_arg3 (by decide)
    _ = W7 m ρ c (Proc.devRef .tc main_arg3) := W8_of_ne m ρ c main_arg3 (by decide)
    _ = W6 m ρ c (Proc.devRef .tc main_arg3) := keep7 m ρ c main_arg3 (by decide)
    _ = W5 m ρ c (Proc.devRef .tc main_arg3) := W6_of_ne m ρ c main_arg3 (by decide)
    _ = W4 m ρ c (Proc.devRef .tc main_arg3) := keep5 m ρ c main_arg3 (by decide)
    _ = W3 m ρ c (Proc.devRef .tc main_arg3) := W4_of_ne m ρ c main_arg3 (by decide)
    _ = W2 m ρ c (Proc.devRef .tc main_arg3) := keep3 m ρ c main_arg3 (by decide)
    _ = W1 m ρ c (Proc.devRef .tc main_arg3) := W2_of_ne m ρ c main_arg3 (by decide)
    _ = W0 m ρ c (Proc.devRef .tc main_arg3) := keep1 m ρ c main_arg3 (by decide)
    _ = m ((c : Thread nD τ).loc main_arg3) := rfl

/-- No host operation writes argument 4 and no launch changes it: it ends as launched. -/
theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := keep9 m ρ c main_arg4 (by decide)
    _ = W7 m ρ c (Proc.devRef .tc main_arg4) := W8_of_ne m ρ c main_arg4 (by decide)
    _ = W6 m ρ c (Proc.devRef .tc main_arg4) := keep7 m ρ c main_arg4 (by decide)
    _ = W5 m ρ c (Proc.devRef .tc main_arg4) := W6_of_ne m ρ c main_arg4 (by decide)
    _ = W4 m ρ c (Proc.devRef .tc main_arg4) := keep5 m ρ c main_arg4 (by decide)
    _ = W3 m ρ c (Proc.devRef .tc main_arg4) := W4_of_ne m ρ c main_arg4 (by decide)
    _ = W2 m ρ c (Proc.devRef .tc main_arg4) := keep3 m ρ c main_arg4 (by decide)
    _ = W1 m ρ c (Proc.devRef .tc main_arg4) := W2_of_ne m ρ c main_arg4 (by decide)
    _ = W0 m ρ c (Proc.devRef .tc main_arg4) := keep1 m ρ c main_arg4 (by decide)
    _ = m ((c : Thread nD τ).loc main_arg4) := rfl

/-- No host operation writes argument 5 and no launch changes it: it ends as launched. -/
theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := keep9 m ρ c main_arg5 (by decide)
    _ = W7 m ρ c (Proc.devRef .tc main_arg5) := W8_of_ne m ρ c main_arg5 (by decide)
    _ = W6 m ρ c (Proc.devRef .tc main_arg5) := keep7 m ρ c main_arg5 (by decide)
    _ = W5 m ρ c (Proc.devRef .tc main_arg5) := W6_of_ne m ρ c main_arg5 (by decide)
    _ = W4 m ρ c (Proc.devRef .tc main_arg5) := keep5 m ρ c main_arg5 (by decide)
    _ = W3 m ρ c (Proc.devRef .tc main_arg5) := W4_of_ne m ρ c main_arg5 (by decide)
    _ = W2 m ρ c (Proc.devRef .tc main_arg5) := keep3 m ρ c main_arg5 (by decide)
    _ = W1 m ρ c (Proc.devRef .tc main_arg5) := W2_of_ne m ρ c main_arg5 (by decide)
    _ = W0 m ρ c (Proc.devRef .tc main_arg5) := keep1 m ρ c main_arg5 (by decide)
    _ = m ((c : Thread nD τ).loc main_arg5) := rfl

/-- No host operation writes argument 6 and no launch changes it: it ends as launched. -/
theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := keep9 m ρ c main_arg6 (by decide)
    _ = W7 m ρ c (Proc.devRef .tc main_arg6) := W8_of_ne m ρ c main_arg6 (by decide)
    _ = W6 m ρ c (Proc.devRef .tc main_arg6) := keep7 m ρ c main_arg6 (by decide)
    _ = W5 m ρ c (Proc.devRef .tc main_arg6) := W6_of_ne m ρ c main_arg6 (by decide)
    _ = W4 m ρ c (Proc.devRef .tc main_arg6) := keep5 m ρ c main_arg6 (by decide)
    _ = W3 m ρ c (Proc.devRef .tc main_arg6) := W4_of_ne m ρ c main_arg6 (by decide)
    _ = W2 m ρ c (Proc.devRef .tc main_arg6) := keep3 m ρ c main_arg6 (by decide)
    _ = W1 m ρ c (Proc.devRef .tc main_arg6) := W2_of_ne m ρ c main_arg6 (by decide)
    _ = W0 m ρ c (Proc.devRef .tc main_arg6) := keep1 m ρ c main_arg6 (by decide)
    _ = m ((c : Thread nD τ).loc main_arg6) := rfl

/-- No host operation writes argument 7 and no launch changes it: it ends as launched. -/
theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := keep9 m ρ c main_arg7 (by decide)
    _ = W7 m ρ c (Proc.devRef .tc main_arg7) := W8_of_ne m ρ c main_arg7 (by decide)
    _ = W6 m ρ c (Proc.devRef .tc main_arg7) := keep7 m ρ c main_arg7 (by decide)
    _ = W5 m ρ c (Proc.devRef .tc main_arg7) := W6_of_ne m ρ c main_arg7 (by decide)
    _ = W4 m ρ c (Proc.devRef .tc main_arg7) := keep5 m ρ c main_arg7 (by decide)
    _ = W3 m ρ c (Proc.devRef .tc main_arg7) := W4_of_ne m ρ c main_arg7 (by decide)
    _ = W2 m ρ c (Proc.devRef .tc main_arg7) := keep3 m ρ c main_arg7 (by decide)
    _ = W1 m ρ c (Proc.devRef .tc main_arg7) := W2_of_ne m ρ c main_arg7 (by decide)
    _ = W0 m ρ c (Proc.devRef .tc main_arg7) := keep1 m ρ c main_arg7 (by decide)
    _ = m ((c : Thread nD τ).loc main_arg7) := rfl

/-- No host operation writes argument 8 and no launch changes it: it ends as launched. -/
theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := keep9 m ρ c main_arg8 (by decide)
    _ = W7 m ρ c (Proc.devRef .tc main_arg8) := W8_of_ne m ρ c main_arg8 (by decide)
    _ = W6 m ρ c (Proc.devRef .tc main_arg8) := keep7 m ρ c main_arg8 (by decide)
    _ = W5 m ρ c (Proc.devRef .tc main_arg8) := W6_of_ne m ρ c main_arg8 (by decide)
    _ = W4 m ρ c (Proc.devRef .tc main_arg8) := keep5 m ρ c main_arg8 (by decide)
    _ = W3 m ρ c (Proc.devRef .tc main_arg8) := W4_of_ne m ρ c main_arg8 (by decide)
    _ = W2 m ρ c (Proc.devRef .tc main_arg8) := keep3 m ρ c main_arg8 (by decide)
    _ = W1 m ρ c (Proc.devRef .tc main_arg8) := W2_of_ne m ρ c main_arg8 (by decide)
    _ = W0 m ρ c (Proc.devRef .tc main_arg8) := keep1 m ρ c main_arg8 (by decide)
    _ = m ((c : Thread nD τ).loc main_arg8) := rfl

/-- No host operation writes argument 9 and no launch changes it: it ends as launched. -/
theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := keep9 m ρ c main_arg9 (by decide)
    _ = W7 m ρ c (Proc.devRef .tc main_arg9) := W8_of_ne m ρ c main_arg9 (by decide)
    _ = W6 m ρ c (Proc.devRef .tc main_arg9) := keep7 m ρ c main_arg9 (by decide)
    _ = W5 m ρ c (Proc.devRef .tc main_arg9) := W6_of_ne m ρ c main_arg9 (by decide)
    _ = W4 m ρ c (Proc.devRef .tc main_arg9) := keep5 m ρ c main_arg9 (by decide)
    _ = W3 m ρ c (Proc.devRef .tc main_arg9) := W4_of_ne m ρ c main_arg9 (by decide)
    _ = W2 m ρ c (Proc.devRef .tc main_arg9) := keep3 m ρ c main_arg9 (by decide)
    _ = W1 m ρ c (Proc.devRef .tc main_arg9) := W2_of_ne m ρ c main_arg9 (by decide)
    _ = W0 m ρ c (Proc.devRef .tc main_arg9) := keep1 m ρ c main_arg9 (by decide)
    _ = m ((c : Thread nD τ).loc main_arg9) := rfl

/-- No host operation writes argument 10 and no launch changes it: it ends as launched. -/
theorem W10_main_arg10 (c : Dev nD) : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := keep9 m ρ c main_arg10 (by decide)
    _ = W7 m ρ c (Proc.devRef .tc main_arg10) := W8_of_ne m ρ c main_arg10 (by decide)
    _ = W6 m ρ c (Proc.devRef .tc main_arg10) := keep7 m ρ c main_arg10 (by decide)
    _ = W5 m ρ c (Proc.devRef .tc main_arg10) := W6_of_ne m ρ c main_arg10 (by decide)
    _ = W4 m ρ c (Proc.devRef .tc main_arg10) := keep5 m ρ c main_arg10 (by decide)
    _ = W3 m ρ c (Proc.devRef .tc main_arg10) := W4_of_ne m ρ c main_arg10 (by decide)
    _ = W2 m ρ c (Proc.devRef .tc main_arg10) := keep3 m ρ c main_arg10 (by decide)
    _ = W1 m ρ c (Proc.devRef .tc main_arg10) := W2_of_ne m ρ c main_arg10 (by decide)
    _ = W0 m ρ c (Proc.devRef .tc main_arg10) := keep1 m ρ c main_arg10 (by decide)
    _ = m ((c : Thread nD τ).loc main_arg10) := rfl

/-- THE FRAME at any instance: every weakly fair execution terminates, nothing faults, the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c),
     (h c _ (mem_uc main_arg10 (by decide))).trans (W10_main_arg10 m ρ c)⟩) (run_all m ρ)

end Cert.KernelIdeal.Hand

end
-- ==== Proof.Val.R4.lean ====
/-
  The normalisation, fifth launch, read at an index. One grid point's result tile at row `i`, column `j` is
  max(((x(i,j) - mean(0,j)) * rsqrt(var(0,j) + eps)) * gamma(0,j) + beta(0,j), 0) of the staged blocks (the four
  rows of 128 broadcast down the 5000 rows); the feature tile at point `t` is rows 5000 t … 5000 t + 4999 of the
  feature array and each row block is its whole array, so what point `t` writes back is block `t` of ONE function
  of the five arrays; the ten blocks tile the 50000 rows, so the result array ends at that function.
-/
import proofs.«111111_j10943576670413_1_alg».proof.Proof.KI.Reg4
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer rectangle, as the constant function. -/
theorem zero_off4 : (![0, 0] : Fin 2 → Nat) = fun _ => 0 := funext fun a => by fin_cases a <;> rfl

/-- One element of the normalisation: shift by the mean, scale by the reciprocal root of the variance plus the
    small constant, scale by gamma, shift by beta, clamp below at zero. -/
def norm4_elt (x mean var gamma beta : EReal) : EReal :=
  max ((((x - mean) * Ideal.rsqrt (var + Ideal.ofBits .f32 0x3727C5AC#32)) * gamma) + beta) (Ideal.ofBits .f32 0x00000000#32)

/-- The body's payload at row `i`, column `j`: the element of the tile and the four rows' elements at column `j`. -/
theorem pay4_apply (x0 : Vec Ideal S5000x128 .f32) (x1 x2 x3 x4 : Vec Ideal S1x128 .f32) (i : Fin 5000) (j : Fin 128) :
    (k4_pay1 x0 x1 x2 x3 x4 : S5000x128.Idx → EReal) (ix2 i j)
      = norm4_elt (x0 (ix2 i j)) (x1 (ix2 0 j)) (x2 (ix2 0 j)) (x3 (ix2 0 j)) (x4 (ix2 0 j)) := by
  unfold k4_pay1 norm4_elt
  simp only [shapeCast_self, maximumf_apply, addf_apply, mulf_apply, subf_apply, broadcast_apply, broadcastTo_1b_ab_apply]
  rfl

/-- The column of an index of the tile, as an index of a row of 128. -/
def lrow4 (y : S5000x128.Idx) : S1x128.Idx := ix2 (0 : Fin 1) (y 1 : Fin 128)
/-- The column of an index of the array, as an index of a row of 128. -/
def row4 (z : S50000x128.Idx) : S1x128.Idx := ix2 (0 : Fin 1) (z 1 : Fin 128)

/-- The payload as one function of the tile's index. -/
theorem pay4_eq (x0 : Vec Ideal S5000x128 .f32) (x1 x2 x3 x4 : Vec Ideal S1x128 .f32) :
    (k4_pay1 x0 x1 x2 x3 x4 : S5000x128.Idx → EReal)
      = fun y => norm4_elt (x0 y) (x1 (lrow4 y)) (x2 (lrow4 y)) (x3 (lrow4 y)) (x4 (lrow4 y)) := by
  funext y
  obtain ⟨p, q, rfl⟩ : ∃ (p : Fin 5000) (q : Fin 128), y = ix2 p q := ⟨y 0, y 1, eq_ix2 y⟩
  exact pay4_apply x0 x1 x2 x3 x4 p q

/-- What the result array ends holding: the normalisation of the feature array by the four rows, index by index. -/
def norm4 (x : S50000x128.Idx → EReal) (mean var g b : S1x128.Idx → EReal) : S50000x128.Idx → EReal := fun z =>
  norm4_elt (x z) (mean (row4 z)) (var (row4 z)) (g (row4 z)) (b (row4 z))

/-- The normalisation of the array at row `i`, column `j`: the feature array's element there and the four rows'
    elements at column `j`. -/
theorem norm4_apply (x : S50000x128.Idx → EReal) (mean var g b : S1x128.Idx → EReal) (i : Fin 50000) (j : Fin 128) :
    norm4 x mean var g b (ix2 i j)
      = max ((((x (ix2 i j) - mean (ix2 0 j)) * Ideal.rsqrt (var (ix2 0 j) + Ideal.ofBits .f32 0x3727C5AC#32)) * g (ix2 0 j))
          + b (ix2 0 j)) (Ideal.ofBits .f32 0x00000000#32) := rfl

/-- The printed index maps, decided over the ten points: the feature tile and the result tile sit at row block `t`,
    column block 0; the four rows at block (0, 0). -/
theorem idx4_facts : ∀ t : Fin cfg4.N,
    win4_0.index t (0 : Fin 2) = t.val ∧ win4_0.index t (1 : Fin 2) = 0
    ∧ win4_5.index t (0 : Fin 2) = t.val ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- WHAT POINT `t` WRITES BACK is block `t` of `norm4` of the five arrays as the launch finds them. -/
theorem flushed4_eq (c : Dev nD) (t : Fin cfg4.N) :
    (dat4 (F := Ideal) V c).flushed 5 t
      = ((cfg4.win 5).blk t).view.read (Elt Ideal)
          (norm4 (V c main_v37_0) (V c main_v39) (V c main_v43) (V c main_v44) (V c main_v45)) := by
  show (cfg4.win 5).cut (grid4.coords t) ((dat4 (F := Ideal) V c).after 5 t) = _
  rw [after4_5]
  unfold out4_5
  rw [View.canon_unit_zero zero_off4]
  simp only [View.ld_unit_zero (S := S5000x128) zero_off4, View.ld_unit_zero (S := S1x128) zero_off4]
  rw [pay4_eq]
  obtain ⟨e00, e01, e50, e51, e10, e11, e20, e21, e30, e31, e40, e41⟩ := idx4_facts t
  funext y
  show norm4_elt (V c main_v37_0 (((cfg4.win 0).blk t).view.emb y))
      (V c main_v39 (((cfg4.win 1).blk t).view.emb (lrow4 y)))
      (V c main_v43 (((cfg4.win 2).blk t).view.emb (lrow4 y)))
      (V c main_v44 (((cfg4.win 3).blk t).view.emb (lrow4 y)))
      (V c main_v45 (((cfg4.win 4).blk t).view.emb (lrow4 y)))
    = norm4_elt (V c main_v37_0 (((cfg4.win 5).blk t).view.emb y))
      (V c main_v39 (row4 (((cfg4.win 5).blk t).view.emb y)))
      (V c main_v43 (row4 (((cfg4.win 5).blk t).view.emb y)))
      (V c main_v44 (row4 (((cfg4.win 5).blk t).view.emb y)))
      (V c main_v45 (row4 (((cfg4.win 5).blk t).view.emb y)))
  have h0 : ((cfg4.win 0).blk t).view.emb y = ((cfg4.win 5).blk t).view.emb y := by
    funext a; apply Fin.ext
    match a with
    | ⟨0, _⟩ => show win4_0.index t (0 : Fin 2) * 5000 + 1 * (y 0).val = win4_5.index t (0 : Fin 2) * 5000 + 1 * (y 0).val; omega
    | ⟨1, _⟩ => show win4_0.index t (1 : Fin 2) * 128 + 1 * (y 1).val = win4_5.index t (1 : Fin 2) * 128 + 1 * (y 1).val; omega
  have h1 : ((cfg4.win 1).blk t).view.emb (lrow4 y) = row4 (((cfg4.win 5).blk t).view.emb y) := by
    funext a; apply Fin.ext
    match a with
    | ⟨0, _⟩ => show win4_1.index t (0 : Fin 2) * 1 + 1 * 0 = 0; omega
    | ⟨1, _⟩ => show win4_1.index t (1 : Fin 2) * 128 + 1 * (y 1).val = win4_5.index t (1 : Fin 2) * 128 + 1 * (y 1).val; omega
  have h2 : ((cfg4.win 2).blk t).view.emb (lrow4 y) = row4 (((cfg4.win 5).blk t).view.emb y) := by
    funext a; apply Fin.ext
    match a with
    | ⟨0, _⟩ => show win4_2.index t (0 : Fin 2) * 1 + 1 * 0 = 0; omega
    | ⟨1, _⟩ => show win4_2.index t (1 : Fin 2) * 128 + 1 * (y 1).val = win4_5.index t (1 : Fin 2) * 128 + 1 * (y 1).val; omega
  have h3 : ((cfg4.win 3).blk t).view.emb (lrow4 y) = row4 (((cfg4.win 5).blk t).view.emb y) := by
    funext a; apply Fin.ext
    match a with
    | ⟨0, _⟩ => show win4_3.index t (0 : Fin 2) * 1 + 1 * 0 = 0; omega
    | ⟨1, _⟩ => show win4_3.index t (1 : Fin 2) * 128 + 1 * (y 1).val = win4_5.index t (1 : Fin 2) * 128 + 1 * (y 1).val; omega
  have h4 : ((cfg4.win 4).blk t).view.emb (lrow4 y) = row4 (((cfg4.win 5).blk t).view.emb y) := by
    funext a; apply Fin.ext
    match a with
    | ⟨0, _⟩ => show win4_4.index t (0 : Fin 2) * 1 + 1 * 0 = 0; omega
    | ⟨1, _⟩ => show win4_4.index t (1 : Fin 2) * 128 + 1 * (y 1).val = win4_5.index t (1 : Fin 2) * 128 + 1 * (y 1).val; omega
  rw [h0, h1, h2, h3, h4]

/-- An index of the result array is in point `t`'s block iff each coordinate is in the block's range on its axis. -/
theorem mem_blk4 (t : Fin cfg4.N) (z : S50000x128.Idx) :
    z ∈ ((cfg4.win 5).blk t).view.set ↔ ∀ a : Fin 2, win4_5.index t a * S5000x128.size a ≤ (z a).val ∧ (z a).val < win4_5.index t a * S5000x128.size a + S5000x128.size a := by
  show z ∈ ((View.whole main_v46).slice (win4_5.rect t)).set ↔ _
  rw [View.set_slice_whole, Rect.mem_set_unit]
  exact Iff.rfl

/-- The ten row blocks tile the array: row `r` is in the block of point `r / 5000`. -/
theorem cover4 (z : S50000x128.Idx) : ∃ t : Fin cfg4.N, (cfg4.win 5).flush t = true ∧ z ∈ ((cfg4.win 5).blk t).view.set := by
  have hz0 : (z 0).val < 50000 := (z 0).isLt
  have hz1 : (z 1).val < 128 := (z 1).isLt
  have hN : cfg4.N = 10 := N_4
  let t : Fin cfg4.N := ⟨(z 0).val / 5000, by rw [hN]; omega⟩
  obtain ⟨e00, e01, e50, e51, -⟩ := idx4_facts t
  have ht : t.val = (z 0).val / 5000 := rfl
  refine ⟨t, flush4_5 t, ?_⟩
  rw [mem_blk4]
  intro a
  match a with
  | ⟨0, _⟩ => show win4_5.index t (0 : Fin 2) * 5000 ≤ (z 0).val ∧ (z 0).val < win4_5.index t (0 : Fin 2) * 5000 + 5000; omega
  | ⟨1, _⟩ => show win4_5.index t (1 : Fin 2) * 128 ≤ (z 1).val ∧ (z 1).val < win4_5.index t (1 : Fin 2) * 128 + 128; omega

/-- THE RESULT ARRAY after the launch: `norm4` of the five arrays as the launch finds them. -/
theorem arr4_eq (c : Dev nD) :
    (dat4 (F := Ideal) V c).arrAt 5 cfg4.N = norm4 (V c main_v37_0) (V c main_v39) (V c main_v43) (V c main_v44) (V c main_v45) :=
  (dat4 (F := Ideal) V c).arrAt_eq_of_cover 5 (norm4 (V c main_v37_0) (V c main_v39) (V c main_v43) (V c main_v44) (V c main_v45))
    (fun t _ => flushed4_eq V c t) cover4

/-- `norm4_elt`, opened. -/
theorem norm4_elt_def (x mean var gamma beta : EReal) :
    norm4_elt x mean var gamma beta
      = max ((((x - mean) * Ideal.rsqrt (var + Ideal.ofBits .f32 0x3727C5AC#32)) * gamma) + beta) (Ideal.ofBits .f32 0x00000000#32) := rfl

/-- The result array at row `i`, column `j`: the normalisation of the feature array's element there by the four
    rows' elements at column `j`. -/
theorem arr4_apply (c : Dev nD) (i : Fin 50000) (j : Fin 128) :
    ((dat4 (F := Ideal) V c).arrAt 5 cfg4.N : S50000x128.Idx → EReal) (ix2 i j)
      = norm4_elt (V c main_v37_0 (ix2 i j)) (V c main_v39 (ix2 0 j)) (V c main_v43 (ix2 0 j)) (V c main_v44 (ix2 0 j))
          (V c main_v45 (ix2 0 j)) := by
  rw [arr4_eq]
  rfl

end Cert.KernelIdeal.Val

end
-- ==== Proof.Val.Ref.lean ====
/-
  The reference's side, read at the exact arithmetic of the extended reals. The reference computes
  the four node projections h·Wᵀ and the edge projection e·WEᵀ, gates each edge's message
  Ch[src] by the logistic of Ah[src] + Bh[dst] + e·WEᵀ, sums the messages into their destination
  rows, adds h·WDᵀ (this sum is called HN below), and normalises HN column by column with the
  batch mean and the (biased) batch variance before the affine map and the clamp at zero.
  Here each of these stages is read at one index (i, j), in the spelling the comparison uses.
-/
import proofs.«111111_j10943576670413_1_alg».proof.Proof.Gen.ReferenceIdeal.Read
import Idealize.ShloMosaic.Lib.ValueIdx
import Idealize.ShloMosaic.Lib.ValueIdxRank1
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx
open scoped BigOperators

variable (x0 : (⟨S50000x128, .f32⟩ : BufTy).Contents (Elt Ideal))
  (x1 : (⟨S800000x128, .f32⟩ : BufTy).Contents (Elt Ideal))
  (x2 x3 x4 x5 x6 : (⟨S128x128, .f32⟩ : BufTy).Contents (Elt Ideal))
  (x7 x8 : (⟨S128, .f32⟩ : BufTy).Contents (Elt Ideal))
  (x9 x10 : (⟨S800000, .i32⟩ : BufTy).Contents (Elt Ideal))

/-- The pre-normalisation node features: h·WDᵀ plus the summed gated messages. -/
abbrev HN : S50000x128.Idx → EReal := val_main_v43 (F := Ideal) x0 x1 x2 x3 x4 x5 x6 x9 x10

/-- The batch mean of column j of HN: the column's sum (from the zero word) over the word for 50000. -/
def MU (j : Fin 128) : EReal :=
  Ideal.div (Ideal.ofBits .f32 0x00000000#32 + ∑ k : Fin 50000, HN x0 x1 x2 x3 x4 x5 x6 x9 x10 (ix2 k j))
    (Ideal.ofBits .f32 0x47435000#32)

/-- The biased batch variance of column j of HN: the mean of the squared deviations from MU j. -/
def VAR (j : Fin 128) : EReal :=
  Ideal.div (Ideal.ofBits .f32 0x00000000#32
      + ∑ k : Fin 50000, (HN x0 x1 x2 x3 x4 x5 x6 x9 x10 (ix2 k j) - MU x0 x1 x2 x3 x4 x5 x6 x9 x10 j)
          * (HN x0 x1 x2 x3 x4 x5 x6 x9 x10 (ix2 k j) - MU x0 x1 x2 x3 x4 x5 x6 x9 x10 j))
    (Ideal.ofBits .f32 0x47435000#32)

/-- The result at (i, j): HN centred by the column mean, scaled by the reciprocal root of the column
    variance plus ε, then by γ j, shifted by β j, and clamped below at zero. -/
theorem ref_out_apply (i : Fin 50000) (j : Fin 128) :
    val_main_v69 (F := Ideal) x0 x1 x2 x3 x4 x5 x6 x7 x8 x9 x10 (ix2 i j)
      = max ((((HN x0 x1 x2 x3 x4 x5 x6 x9 x10 (ix2 i j) - MU x0 x1 x2 x3 x4 x5 x6 x9 x10 j)
              * Ideal.rsqrt (VAR x0 x1 x2 x3 x4 x5 x6 x9 x10 j + Ideal.ofBits .f32 0x3727C5AC#32)) * x7 (ix1 j))
            + x8 (ix1 j)) (Ideal.ofBits .f32 0x00000000#32) := by
  -- the row-broadcasts of a length-128 vector read it at the column j
  have h5455 : idx_main_v54 (idx_main_v55 (ix2 i j)) = ix1 j :=
    funext fun a => Fin.ext (by match a with | ⟨0, _⟩ => rfl)
  have h6061 : idx_main_v60 (idx_main_v61 (ix2 i j)) = ix1 j :=
    funext fun a => Fin.ext (by match a with | ⟨0, _⟩ => rfl)
  have h6364 : idx_main_v63 (idx_main_v64 (ix2 i j)) = ix1 j :=
    funext fun a => Fin.ext (by match a with | ⟨0, _⟩ => rfl)
  have h6667 : idx_main_v66 (idx_main_v67 (ix2 i j)) = ix1 j :=
    funext fun a => Fin.ext (by match a with | ⟨0, _⟩ => rfl)
  have h4748 : ∀ k : Fin 50000, idx_main_v47 (idx_main_v48 (ix2 k j)) = ix1 j := fun k =>
    funext fun a => Fin.ext (by match a with | ⟨0, _⟩ => rfl)
  -- a column sum runs over the rows k at the column j
  have h44 : ∀ k : Fin 50000, idx_main_v44 (ix1 j) k = ix2 k j := fun k =>
    funext fun a => Fin.ext (by match a with | ⟨0, _⟩ => rfl | ⟨1, _⟩ => rfl)
  have h51 : ∀ k : Fin 50000, idx_main_v51 (ix1 j) k = ix2 k j := fun k =>
    funext fun a => Fin.ext (by match a with | ⟨0, _⟩ => rfl | ⟨1, _⟩ => rfl)
  unfold MU VAR MU HN
  simp only [val_main_v69_apply, val_main_call0_v0_apply, val_main_call0_cst_apply, val_main_v68_apply,
    val_main_v67_apply, val_main_v66_apply, val_main_v65_apply, val_main_v64_apply, val_main_v63_apply,
    val_main_v62_apply, val_main_v61_apply, val_main_v60_apply, val_main_v59_apply, val_main_v58_apply,
    val_main_v57_apply, val_main_cst_11_apply, val_main_v56_apply, val_main_v55_apply, val_main_v54_apply,
    val_main_v53_apply, val_main_v52_apply, val_main_cst_10_apply, val_main_v51_apply, val_main_cst_9_apply,
    val_main_v50_apply, val_main_v49_apply, val_main_v48_apply, val_main_v47_apply, val_main_v46_apply,
    val_main_v45_apply, val_main_cst_8_apply, val_main_v44_apply, val_main_cst_7_apply,
    h5455, h6061, h6364, h6667, h4748, h44, h51,
    Ideal.ofBits_def, Ideal.addf_def, Ideal.subf_def, Ideal.mulf_def, Ideal.hostDivf_def,
    Ideal.hostUnary_rsqrt_def, Ideal.maximumf_def]

/-- HN is the sum of the two stages it is built from. -/
theorem hn_apply (i : Fin 50000) (j : Fin 128) :
    HN x0 x1 x2 x3 x4 x5 x6 x9 x10 (ix2 i j)
      = val_main_v42 (F := Ideal) x0 x5 (ix2 i j) + val_main_v40 (F := Ideal) x0 x1 x2 x3 x4 x6 x9 x10 (ix2 i j) := by
  show val_main_v43 (F := Ideal) x0 x1 x2 x3 x4 x5 x6 x9 x10 (ix2 i j) = _
  rw [val_main_v43_apply, Ideal.addf_def]

/-- The summed messages: the gated messages scattered, with addition, into the zero array at the
    destination indices. -/
theorem v40_eq :
    val_main_v40 (F := Ideal) x0 x1 x2 x3 x4 x6 x9 x10
      = Host.scatterAdd (F := Ideal) (φ := .f32) scatter_S50000x128_S800000x1_S800000x128_1_0_0_1 (val_main_v38 (F := Ideal))
          (val_main_v39 (F := Ideal) x10) (val_main_v37 (F := Ideal) x0 x1 x2 x3 x4 x6 x9 x10) := rfl

/-- The word 0x3F800000 (sign 0, biased exponent 127, zero fraction) denotes the real number 1. -/
theorem ofBits_one_f32 : Ideal.ofBits .f32 0x3F800000#32 = 1 := by
  simp [Ideal.ofBits, Ideal.ieee, -EReal.coe_mul]; norm_num

/-- The gated message of edge e at column j: Ch[src] times the logistic of Ah[src] + Bh[dst] + e·WEᵀ.
    The reference spells the logistic as 1 / (1 + exp (-x)), which is its definition. -/
theorem v37_apply (e : Fin 800000) (j : Fin 128) :
    val_main_v37 (F := Ideal) x0 x1 x2 x3 x4 x6 x9 x10 (ix2 e j)
      = val_main_v36 (F := Ideal) x0 x4 x9 (ix2 e j)
          * Ideal.logistic ((val_main_v14 (F := Ideal) x0 x2 x9 (ix2 e j) + val_main_v21 (F := Ideal) x0 x3 x10 (ix2 e j))
              + val_main_v7 (F := Ideal) x1 x6 (ix2 e j)) := by
  rw [val_main_v37_apply, val_main_v29_apply, val_main_v28_apply, val_main_cst_3_apply, val_main_v27_apply,
    val_main_v26_apply, val_main_cst_apply, val_main_v25_apply, val_main_v24_apply, val_main_v23_apply,
    val_main_v22_apply]
  simp only [Ideal.ofBits_def, Ideal.addf_def, Ideal.mulf_def, Ideal.hostDivf_def, Ideal.hostUnary_exp_def,
    Ideal.hostNegf_def, Ideal.negf_def, ofBits_one_f32]
  rfl

/-- The three gathers: rows of a projection picked by the (wrapped) edge endpoints. -/
theorem v36_eq :
    val_main_v36 (F := Ideal) x0 x4 x9
      = Host.gather gather_S50000x128_S800000x1_S800000x128_1_0_n_n_0_1_1128 (val_main_v5 (F := Ideal) x0 x4)
          (val_main_v35 (F := Ideal) x9) := rfl

theorem v14_eq :
    val_main_v14 (F := Ideal) x0 x2 x9
      = Host.gather gather_S50000x128_S800000x1_S800000x128_1_0_n_n_0_1_1128 (val_main_v1 (F := Ideal) x0 x2)
          (val_main_v13 (F := Ideal) x9) := rfl

theorem v21_eq :
    val_main_v21 (F := Ideal) x0 x3 x10
      = Host.gather gather_S50000x128_S800000x1_S800000x128_1_0_n_n_0_1_1128 (val_main_v3 (F := Ideal) x0 x3)
          (val_main_v20 (F := Ideal) x10) := rfl

/-- A projection h·Wᵀ at (i, j) is Σₖ h(i,k)·W(j,k): the product's right operand is the transpose of W. -/
theorem lin_apply_v1 (i : Fin 50000) (j : Fin 128) :
    val_main_v1 (F := Ideal) x0 x2 (ix2 i j) = ∑ k : Fin 128, x0 (ix2 i k) * x2 (ix2 j k) := by
  rw [val_main_v1_apply]
  refine Finset.sum_congr rfl fun k _ => ?_
  rw [val_main_v0_apply]
  have hl : lidx_main_v1 (ix2 i j) k = ix2 i k :=
    funext fun a => Fin.ext (by match a with | ⟨0, _⟩ => rfl | ⟨1, _⟩ => rfl)
  have hr : idx_main_v0 (ridx_main_v1 (ix2 i j) k) = ix2 j k :=
    funext fun a => Fin.ext (by match a with | ⟨0, _⟩ => rfl | ⟨1, _⟩ => rfl)
  rw [hl, hr]

theorem lin_apply_v3 (i : Fin 50000) (j : Fin 128) :
    val_main_v3 (F := Ideal) x0 x3 (ix2 i j) = ∑ k : Fin 128, x0 (ix2 i k) * x3 (ix2 j k) := by
  rw [val_main_v3_apply]
  refine Finset.sum_congr rfl fun k _ => ?_
  rw [val_main_v2_apply]
  have hl : lidx_main_v3 (ix2 i j) k = ix2 i k :=
    funext fun a => Fin.ext (by match a with | ⟨0, _⟩ => rfl | ⟨1, _⟩ => rfl)
  have hr : idx_main_v2 (ridx_main_v3 (ix2 i j) k) = ix2 j k :=
    funext fun a => Fin.ext (by match a with | ⟨0, _⟩ => rfl | ⟨1, _⟩ => rfl)
  rw [hl, hr]

theorem lin_apply_v5 (i : Fin 50000) (j : Fin 128) :
    val_main_v5 (F := Ideal) x0 x4 (ix2 i j) = ∑ k : Fin 128, x0 (ix2 i k) * x4 (ix2 j k) := by
  rw [val_main_v5_apply]
  refine Finset.sum_congr rfl fun k _ => ?_
  rw [val_main_v4_apply]
  have hl : lidx_main_v5 (ix2 i j) k = ix2 i k :=
    funext fun a => Fin.ext (by match a with | ⟨0, _⟩ => rfl | ⟨1, _⟩ => rfl)
  have hr : idx_main_v4 (ridx_main_v5 (ix2 i j) k) = ix2 j k :=
    funext fun a => Fin.ext (by match a with | ⟨0, _⟩ => rfl | ⟨1, _⟩ => rfl)
  rw [hl, hr]

theorem lin_apply_v42 (i : Fin 50000) (j : Fin 128) :
    val_main_v42 (F := Ideal) x0 x5 (ix2 i j) = ∑ k : Fin 128, x0 (ix2 i k) * x5 (ix2 j k) := by
  rw [val_main_v42_apply]
  refine Finset.sum_congr rfl fun k _ => ?_
  rw [val_main_v41_apply]
  have hl : lidx_main_v42 (ix2 i j) k = ix2 i k :=
    funext fun a => Fin.ext (by match a with | ⟨0, _⟩ => rfl | ⟨1, _⟩ => rfl)
  have hr : idx_main_v41 (ridx_main_v42 (ix2 i j) k) = ix2 j k :=
    funext fun a => Fin.ext (by match a with | ⟨0, _⟩ => rfl | ⟨1, _⟩ => rfl)
  rw [hl, hr]

/-- The edge projection e·WEᵀ at (e, j). -/
theorem lin_apply_v7 (e : Fin 800000) (j : Fin 128) :
    val_main_v7 (F := Ideal) x1 x6 (ix2 e j) = ∑ k : Fin 128, x1 (ix2 e k) * x6 (ix2 j k) := by
  rw [val_main_v7_apply]
  refine Finset.sum_congr rfl fun k _ => ?_
  rw [val_main_v6_apply]
  have hl : lidx_main_v7 (ix2 e j) k = ix2 e k :=
    funext fun a => Fin.ext (by match a with | ⟨0, _⟩ => rfl | ⟨1, _⟩ => rfl)
  have hr : idx_main_v6 (ridx_main_v7 (ix2 e j) k) = ix2 j k :=
    funext fun a => Fin.ext (by match a with | ⟨0, _⟩ => rfl | ⟨1, _⟩ => rfl)
  rw [hl, hr]

end Cert.ReferenceIdeal.RefValue

end
-- ==== Proof.Val.Alg.lean ====
/- The real-number algebra behind a batch normalisation, on the extended reals with the exact
   operations of PureOps/Ideal.lean. A batch variance computed as E[x²] − E[x]² agrees with the
   one computed as E[(x − E[x])²] when every x is a real number (neither infinity); sums over
   50000 rows regroup into ten tiles of 5000 rows; and the logistic function of ANY extended real
   is a real number. -/
import Idealize.ShloMosaic.PureOps.Ideal
import Idealize.ShloMosaic.PureOps.Ideal.Laws
import Mathlib.Data.EReal.Inv
import Mathlib.Data.Fintype.BigOperators
import Mathlib.Algebra.BigOperators.Ring.Finset
import Mathlib.Logic.Equiv.Fin.Basic
import Mathlib.Tactic.Ring
import Mathlib.Tactic.NormNum

noncomputable section

namespace Cert.Alg

open Idealize.ShloMosaic
open scoped BigOperators

/-! ### Extended reals that are real numbers -/

/-- An extended real that is (the image of) a real number. -/
def IsReal (a : EReal) : Prop := ∃ r : ℝ, a = (r : EReal)

theorem isReal_coe (r : ℝ) : IsReal (r : EReal) := ⟨r, rfl⟩

theorem isReal_zero : IsReal (0 : EReal) := ⟨0, EReal.coe_zero.symm⟩

theorem isReal_one : IsReal (1 : EReal) := ⟨1, EReal.coe_one.symm⟩

/-- The reals are closed under the extended sum. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The reals are closed under the extended product. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- The reals are closed under the extended difference. -/
theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The reals are closed under negation. -/
theorem IsReal.neg {a : EReal} (ha : IsReal a) : IsReal (-a) := by
  obtain ⟨r, rfl⟩ := ha
  exact ⟨-r, (EReal.coe_neg r).symm⟩

/-- A finite sum of reals is a real. -/
theorem isReal_sum {ι : Type*} (s : Finset ι) (f : ι → EReal) (h : ∀ i ∈ s, IsReal (f i)) :
    IsReal (∑ i ∈ s, f i) :=
  Finset.sum_induction f IsReal (fun _ _ ha hb => ha.add hb) isReal_zero h

/-- A quotient of a real by a nonzero real is a real. -/
theorem IsReal.div_coe {a : EReal} (ha : IsReal a) {y : ℝ} (hy : y ≠ 0) : IsReal (Ideal.div a (y : EReal)) := by
  rw [Ideal.div_coe hy]
  exact ha.mul (isReal_coe _)

/-- The logistic function takes every extended real, the infinities included, to a real:
    `0` at `⊥`, `(1 + e^{-r})⁻¹` at a real `r`, `1` at `⊤`. -/
theorem isReal_logistic (a : EReal) : IsReal (Ideal.logistic a) := by
  induction a using EReal.rec with
  | bot => rw [Ideal.logistic_bot]; exact isReal_zero
  | coe r => rw [Ideal.logistic_coe]; exact isReal_coe _
  | top => rw [Ideal.logistic_top]; exact isReal_one

/-! ### The constants -/

/-- The f32 word `0x47435000`: exponent field `142`, significand `2^23 + 4411392 = 12800000`,
    so `12800000 · 2^(142 - 127 - 23) = 50000`. -/
theorem ofBits_50000 : Ideal.ofBits .f32 0x47435000#32 = ((50000 : ℝ) : EReal) := by
  simp [Ideal.ofBits, Ideal.ieee, -EReal.coe_mul]; norm_num

theorem ofBits_zero : Ideal.ofBits .f32 0x00000000#32 = (0 : EReal) := Ideal.ofBits_zero_f32

theorem ofBits_one : Ideal.ofBits .f32 0x3F800000#32 = (1 : EReal) := by
  simp [Ideal.ofBits, Ideal.ieee, -EReal.coe_mul]; norm_num

/-- `1 / (1 + e^{-x})` spelled with the word of `1.0` is the logistic function. -/
theorem logistic_expand (x : EReal) :
    Ideal.div (Ideal.ofBits .f32 0x3F800000#32) (Ideal.ofBits .f32 0x3F800000#32 + Ideal.exp (-x))
      = Ideal.logistic x := by
  rw [ofBits_one]; rfl

/-! ### Regrouping a sum into tiles -/

/-- Row `r` of tile `t`, with tiles of `n` rows, is below `m * n`. -/
theorem tile_lt {m n : ℕ} (t : Fin m) (r : Fin n) : n * t.val + r.val < m * n :=
  calc n * t.val + r.val < n * t.val + n := Nat.add_lt_add_left r.isLt _
    _ = n * (t.val + 1) := (Nat.mul_succ n t.val).symm
    _ ≤ n * m := Nat.mul_le_mul_left n t.isLt
    _ = m * n := Nat.mul_comm n m

/-- A sum over `m * n` rows is the sum over `m` tiles of the sums over each tile's `n` rows:
    `(t, r) ↦ n * t + r` is a bijection of `Fin m × Fin n` with `Fin (m * n)`. -/
theorem sum_blocks {M : Type*} [AddCommMonoid M] (m n : ℕ) (f : Fin (m * n) → M) :
    ∑ t : Fin m, ∑ r : Fin n, f ⟨n * t.val + r.val, tile_lt t r⟩ = ∑ i : Fin (m * n), f i := by
  rw [← Fintype.sum_prod_type' (f := fun (t : Fin m) (r : Fin n) => f ⟨n * t.val + r.val, tile_lt t r⟩)]
  refine Fintype.sum_equiv finProdFinEquiv _ _ ?_
  rintro ⟨t, r⟩
  congr 1
  apply Fin.ext
  simp only [finProdFinEquiv_apply_val]
  exact Nat.add_comm _ _

theorem sum_tiles {M : Type*} [AddCommMonoid M] (f : Fin 50000 → M) :
    ∑ t : Fin 10, ∑ r : Fin 5000, f ⟨5000 * t.val + r.val, by omega⟩ = ∑ i : Fin 50000, f i :=
  sum_blocks 10 5000 f

theorem sum_tiles16 {M : Type*} [AddCommMonoid M] (f : Fin 800000 → M) :
    ∑ t : Fin 50, ∑ r : Fin 16000, f ⟨16000 * t.val + r.val, by omega⟩ = ∑ i : Fin 800000, f i :=
  sum_blocks 50 16000 f

/-! ### The variance identity -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- In the reals: `∑ (xᵢ - m)² = ∑ xᵢ² - 2 m ∑ xᵢ + 50000 m²`. -/
theorem sum_sq_sub (x : Fin 50000 → ℝ) (m : ℝ) :
    ∑ i, (x i - m) * (x i - m) = (∑ i, x i * x i) - 2 * m * (∑ i, x i) + 50000 * (m * m) := by
  have h : ∀ i, (x i - m) * (x i - m) = x i * x i - 2 * m * x i + m * m := fun i => by ring
  simp only [h, Finset.sum_add_distrib, Finset.sum_sub_distrib, ← Finset.mul_sum, Finset.sum_const,
    Finset.card_univ, Fintype.card_fin, nsmul_eq_mul]
  push_cast
  ring

/-- The variance of 50000 real numbers as `E[x²] − E[x]²` and as `E[(x − E[x])²]`. -/
theorem var_identity (X : Fin 50000 → EReal) (hX : ∀ i, IsReal (X i)) (N : EReal) (hN : N = ((50000 : ℝ) : EReal)) :
    Ideal.div (∑ i, X i * X i) N - Ideal.div (∑ i, X i) N * Ideal.div (∑ i, X i) N
      = Ideal.div (∑ i, (X i - Ideal.div (∑ i, X i) N) * (X i - Ideal.div (∑ i, X i) N)) N := by
  choose x hx using hX
  obtain rfl : X = fun i => ((x i : ℝ) : EReal) := funext hx
  subst hN
  have h5 : (50000 : ℝ) ≠ 0 := by norm_num
  -- the mean is a real
  have hm : Ideal.div (∑ i, ((x i : ℝ) : EReal)) ((50000 : ℝ) : EReal)
      = (((∑ i, x i) * (1 / 50000) : ℝ) : EReal) := by
    rw [← coe_sum, Ideal.div_coe h5, ← EReal.coe_mul]
  -- the sum of squares is a real
  have hQ : (∑ i, ((x i : ℝ) : EReal) * ((x i : ℝ) : EReal)) = ((∑ i, x i * x i : ℝ) : EReal) := by
    rw [coe_sum]; simp only [EReal.coe_mul]
  -- the sum of squared deviations is a real
  have hR : ∀ m : ℝ, (∑ i, (((x i : ℝ) : EReal) - (m : EReal)) * (((x i : ℝ) : EReal) - (m : EReal)))
      = ((∑ i, (x i - m) * (x i - m) : ℝ) : EReal) := by
    intro m
    rw [coe_sum]; simp only [EReal.coe_mul, EReal.coe_sub]
  rw [hm, hQ, hR, Ideal.div_coe h5, Ideal.div_coe h5, ← EReal.coe_mul, ← EReal.coe_mul, ← EReal.coe_mul,
    ← EReal.coe_sub, EReal.coe_eq_coe_iff, sum_sq_sub]
  ring

/-- A reduction that starts from `0`. -/
theorem zero_add_sum_eq (X : Fin 50000 → EReal) : (0 : EReal) + ∑ i, X i = ∑ i, X i := zero_add _

end Cert.Alg

end
-- ==== Proof.Val.Fin.lean ====
/-
  Finiteness of the inputs, read back. The precondition says, per float input x, that the and-reduction
  over every axis of the elementwise test |x| < +∞ is 1, and chains the nine results with `and`. Here:
  +∞ is what the pattern 0x7F800000 denotes; an extended real x with max x (-x) < +∞ is a real number
  (the two infinities both have absolute value +∞); an and-reduction that is 1 had a 1 at every index;
  and so every entry of the node features and of the two 128 × 128 weights that stand fifth and sixth
  among the arguments is a real number.
-/
import proofs.«111111_j10943576670413_1_alg».proof.Defs
import proofs.«111111_j10943576670413_1_alg».proof.Proof.Gen.Pre_finite_inputs
import Idealize.ShloMosaic.Lib.ReduceAll
import Idealize.ShloMosaic.Lib.ValueIdx

noncomputable section

namespace Cert.KernelIdeal.Val

open Idealize.ShloMosaic Idealize.SL.Sem

/-- The rank-0 shape has one index. -/
instance subsingleton_scalar_idx : Subsingleton Cert.Pre_finite_inputs.S_.Idx := ⟨fun a b => funext fun d => d.elim0⟩

/-- The f32 pattern 0x7F800000 denotes +∞. -/
theorem inf_pattern : Ideal.ofBits .f32 0x7F800000#32 = (⊤ : EReal) := by
  simp [Ideal.ofBits, Ideal.ieee]

/-- An extended real whose absolute value `max x (-x)` compares strictly below +∞ is a real number. -/
theorem real_of_abs_lt_inf (x : EReal)
    (h : Ideal.cmp .olt (max x (-x)) (Ideal.ofBits .f32 0x7F800000#32) = 1#1) : ∃ r : ℝ, x = (r : EReal) := by
  rw [inf_pattern] at h
  induction x using EReal.rec with
  | bot => simp [Ideal.cmp] at h
  | coe r => exact ⟨r, rfl⟩
  | top => simp [Ideal.cmp] at h

/-- The all-finite test read back at one index: if the and-reduction over every axis of the
    elementwise comparison of `|x|` against the broadcast +∞ is 1, the entry at `i` is a real. -/
theorem real_of_all_finite {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (e : Host.reduce IntOp.andi
        (cmpf .olt (Host.absf x) (broadcastInDim s ![] hb (constant (F := Ideal) Cert.Pre_finite_inputs.S_ .f32 0x7F800000#32)))
        (constantI Cert.Pre_finite_inputs.S_ 1 1#1) hr hu ValueIdx.ix0 = 1#1) (i : s.Idx) :
    ∃ r : ℝ, x i = (r : EReal) :=
  real_of_abs_lt_inf (x i) (Host.reduce_andi_all _ _ hr hu ValueIdx.ix0 e i)

/-- The precondition's chain of nine conjuncts, opened: the entries of the node features (first
    conjunct) and of the two 128 × 128 weights in fifth and sixth place are real numbers. -/
theorem reals (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ j : Cert.KernelIdeal.S50000x128.Idx, ∃ r : ℝ,
        (m ((c.tc : Thread Cert.KernelIdeal.nD Cert.KernelIdeal.τ).loc Cert.KernelIdeal.main_arg0) : Cert.KernelIdeal.S50000x128.Idx → EReal) j = (r : EReal))
    ∧ (∀ j : Cert.KernelIdeal.S128x128.Idx, ∃ r : ℝ,
        (m ((c.tc : Thread Cert.KernelIdeal.nD Cert.KernelIdeal.τ).loc Cert.KernelIdeal.main_arg4) : Cert.KernelIdeal.S128x128.Idx → EReal) j = (r : EReal))
    ∧ (∀ j : Cert.KernelIdeal.S128x128.Idx, ∃ r : ℝ,
        (m ((c.tc : Thread Cert.KernelIdeal.nD Cert.KernelIdeal.τ).loc Cert.KernelIdeal.main_arg5) : Cert.KernelIdeal.S128x128.Idx → EReal) j = (r : EReal)) := by
  have h := congrFun (hpre c) ValueIdx.ix0
  dsimp only [Cert.Pre_finite_inputs.fn, Cert.Pre_finite_inputs.fn_part1, Cert.Pre_finite_inputs.fn_part2, andi] at h
  simp only [IntOp.andi_eq_one] at h
  obtain ⟨⟨⟨⟨⟨⟨⟨⟨h0, _⟩, _⟩, _⟩, h4⟩, h5⟩, _⟩, _⟩, _⟩ := h
  exact ⟨fun j => real_of_all_finite _ _ _ _ h0 j, fun j => real_of_all_finite _ _ _ _ h4 j,
    fun j => real_of_all_finite _ _ _ _ h5 j⟩

/-- Every entry of the node features is a real number. -/
theorem real_h (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) (i : Fin 50000) (k : Fin 128) :
    ∃ r : ℝ, (m ((c.tc : Thread Cert.KernelIdeal.nD Cert.KernelIdeal.τ).loc Cert.KernelIdeal.main_arg0) : Cert.KernelIdeal.S50000x128.Idx → EReal) (ValueIdx.ix2 i k) = (r : EReal) :=
  (reals m hpre c).1 (ValueIdx.ix2 i k)

/-- Every entry of the weight matrix in fifth place is a real number. -/
theorem real_WC (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) (j k : Fin 128) :
    ∃ r : ℝ, (m ((c.tc : Thread Cert.KernelIdeal.nD Cert.KernelIdeal.τ).loc Cert.KernelIdeal.main_arg4) : Cert.KernelIdeal.S128x128.Idx → EReal) (ValueIdx.ix2 j k) = (r : EReal) :=
  (reals m hpre c).2.1 (ValueIdx.ix2 j k)

/-- Every entry of the weight matrix in sixth place is a real number. -/
theorem real_WD (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) (j k : Fin 128) :
    ∃ r : ℝ, (m ((c.tc : Thread Cert.KernelIdeal.nD Cert.KernelIdeal.τ).loc Cert.KernelIdeal.main_arg5) : Cert.KernelIdeal.S128x128.Idx → EReal) (ValueIdx.ix2 j k) = (r : EReal) :=
  (reals m hpre c).2.2 (ValueIdx.ix2 j k)

end Cert.KernelIdeal.Val

end
-- ==== Proof.Val.Norm.lean ====
/-
  The last host stretch and the normalisation launch, read at an index. The host divides the two column sums of
  the statistics launch by the row count (the mean, and the mean of squares), squares the mean, subtracts (the
  variance), and reshapes the two argument rows of 128 (gamma, beta) to 1 × 128; the launch then normalises the
  summed features by those four rows. So the result array is the normalisation of the statistics launch's
  first array by mean = S1 / N, variance = S2 / N - (S1 / N) * (S1 / N), gamma and beta.
-/
import proofs.«111111_j10943576670413_1_alg».proof.Proof.KI.Run
import proofs.«111111_j10943576670413_1_alg».proof.Proof.KI.Args
import proofs.«111111_j10943576670413_1_alg».proof.Proof.Val.R4
import Idealize.ShloMosaic.Lib.StableHlo.Run
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.StableHlo

variable (m : (ℓ : Loc nD τ sig) → Buf (Elt Ideal) ℓ) (ρ : Dev nD → PrngReg)

/-- The gamma row is written by no host operation and changed by no launch up to the statistics launch's exit. -/
theorem W8_main_arg7 (c : Dev nD) : W8 m ρ c (Proc.devRef .tc main_arg7) = m ((c : Thread nD τ).loc main_arg7) :=
  ((keep9 m ρ c main_arg7 (by decide)).symm.trans (W10_of_ne m ρ c main_arg7 (by decide)).symm).trans (W10_main_arg7 m ρ c)

/-- The beta row likewise. -/
theorem W8_main_arg8 (c : Dev nD) : W8 m ρ c (Proc.devRef .tc main_arg8) = m ((c : Thread nD τ).loc main_arg8) :=
  ((keep9 m ρ c main_arg8 (by decide)).symm.trans (W10_of_ne m ρ c main_arg8 (by decide)).symm).trans (W10_main_arg8 m ρ c)

/-- The summed features pass the last host stretch untouched. -/
theorem feat9 (c : Dev nD) (H : S50000x128.Idx → EReal) (hH : W8 m ρ c main_v37_0 = H) : V9 m ρ c main_v37_0 = H :=
  (keep9 m ρ c main_v37_0 (by decide)).trans hH

/-- The mean row: the column sums divided by the row count. -/
theorem mean9 (c : Dev nD) (S1 : S1x128.Idx → EReal) (h1 : W8 m ρ c main_v37_1 = S1) :
    V9 m ρ c main_v39 = fun y : S1x128.Idx => Ideal.div (S1 y) (Ideal.ofBits .f32 0x47435000#32) := by
  show StableHlo.after hostOps4 (W8 m ρ c) (Proc.devRef .tc main_v39) = _
  after_results
  rw [h1]
  rfl

/-- The variance row: the mean of squares less the square of the mean. -/
theorem var9 (c : Dev nD) (S1 S2 : S1x128.Idx → EReal) (h1 : W8 m ρ c main_v37_1 = S1) (h2 : W8 m ρ c main_v37_2 = S2) :
    V9 m ρ c main_v43 = fun y : S1x128.Idx => Ideal.div (S2 y) (Ideal.ofBits .f32 0x47435000#32)
      - Ideal.div (S1 y) (Ideal.ofBits .f32 0x47435000#32) * Ideal.div (S1 y) (Ideal.ofBits .f32 0x47435000#32) := by
  show StableHlo.after hostOps4 (W8 m ρ c) (Proc.devRef .tc main_v43) = _
  after_results
  rw [h1, h2]
  rfl

/-- The gamma row as a 1 × 128 array: at (0, j) the argument row's j. -/
theorem gamma9 (c : Dev nD) (g : S128.Idx → EReal) (hg : m ((c.tc : Thread nD τ).loc main_arg7) = g) :
    V9 m ρ c main_v44 = fun y : S1x128.Idx => g (ix1 (y 1 : Fin 128)) := by
  have hg' : W8 m ρ c (Proc.devRef .tc main_arg7) = g := (W8_main_arg7 m ρ c).trans hg
  show StableHlo.after hostOps4 (W8 m ρ c) (Proc.devRef .tc main_v44) = _
  after_results
  rw [hg']
  funext y
  obtain ⟨u, q, rfl⟩ : ∃ (u : Fin 1) (q : Fin 128), y = ix2 u q := ⟨y 0, y 1, eq_ix2 y⟩
  exact shapeCast_a_1a_apply g _ u q

/-- The beta row as a 1 × 128 array: at (0, j) the argument row's j. -/
theorem beta9 (c : Dev nD) (b : S128.Idx → EReal) (hb : m ((c.tc : Thread nD τ).loc main_arg8) = b) :
    V9 m ρ c main_v45 = fun y : S1x128.Idx => b (ix1 (y 1 : Fin 128)) := by
  have hb' : W8 m ρ c (Proc.devRef .tc main_arg8) = b := (W8_main_arg8 m ρ c).trans hb
  show StableHlo.after hostOps4 (W8 m ρ c) (Proc.devRef .tc main_v45) = _
  after_results
  rw [hb']
  funext y
  obtain ⟨u, q, rfl⟩ : ∃ (u : Fin 1) (q : Fin 128), y = ix2 u q := ⟨y 0, y 1, eq_ix2 y⟩
  exact shapeCast_a_1a_apply b _ u q

/-- THE RESULT ARRAY after the normalisation launch, as one function of the statistics launch's three arrays and
    the two argument rows. -/
theorem kOut_eq (c : Dev nD) (H : S50000x128.Idx → EReal) (S1 S2 : S1x128.Idx → EReal) (g b : S128.Idx → EReal)
    (hH : W8 m ρ c main_v37_0 = H) (h1 : W8 m ρ c main_v37_1 = S1) (h2 : W8 m ρ c main_v37_2 = S2)
    (hg : m ((c.tc : Thread nD τ).loc main_arg7) = g) (hb : m ((c.tc : Thread nD τ).loc main_arg8) = b) :
    W10 m ρ c main_v46
      = norm4 H (fun y : S1x128.Idx => Ideal.div (S1 y) (Ideal.ofBits .f32 0x47435000#32))
          (fun y : S1x128.Idx => Ideal.div (S2 y) (Ideal.ofBits .f32 0x47435000#32)
            - Ideal.div (S1 y) (Ideal.ofBits .f32 0x47435000#32) * Ideal.div (S1 y) (Ideal.ofBits .f32 0x47435000#32))
          (fun y : S1x128.Idx => g (ix1 (y 1 : Fin 128))) (fun y : S1x128.Idx => b (ix1 (y 1 : Fin 128))) := by
  refine (W10_arr m ρ c 5).trans ?_
  rw [arr4_eq, feat9 m ρ c H hH, mean9 m ρ c S1 h1, var9 m ρ c S1 S2 h1 h2, gamma9 m ρ c g hg, beta9 m ρ c b hb]

/-- The result array at row `i`, column `j`. -/
theorem kOut_apply (c : Dev nD) (H : S50000x128.Idx → EReal) (S1 S2 : S1x128.Idx → EReal) (g b : S128.Idx → EReal)
    (hH : W8 m ρ c main_v37_0 = H) (h1 : W8 m ρ c main_v37_1 = S1) (h2 : W8 m ρ c main_v37_2 = S2)
    (hg : m ((c.tc : Thread nD τ).loc main_arg7) = g) (hb : m ((c.tc : Thread nD τ).loc main_arg8) = b)
    (i : Fin 50000) (j : Fin 128) :
    (show S50000x128.Idx → EReal from W10 m ρ c main_v46) (ix2 i j)
      = norm4_elt (H (ix2 i j)) (Ideal.div (S1 (ix2 0 j)) (Ideal.ofBits .f32 0x47435000#32))
          (Ideal.div (S2 (ix2 0 j)) (Ideal.ofBits .f32 0x47435000#32)
            - Ideal.div (S1 (ix2 0 j)) (Ideal.ofBits .f32 0x47435000#32) * Ideal.div (S1 (ix2 0 j)) (Ideal.ofBits .f32 0x47435000#32))
          (g (ix1 j)) (b (ix1 j)) := by
  rw [kOut_eq m ρ c H S1 S2 g b hH h1 h2 hg hb]
  rfl

end Cert.KernelIdeal.Val

end
-- ==== Proof.Val.R3.lean ====
/-
  The batch-norm statistics, fourth launch, read as values. After its ten points the tile output's array
  holds the pointwise sum of the two argument arrays, and the two 1 × 128 outputs hold, column by column,
  the sum over all 50000 rows of that sum and of its square.
  Each point writes back the tile of the pointwise sum its block covers, and the ten tiles of 5000 rows cover
  the 50000 rows. The two running rows start from zero at the first point and at each point gain the column
  sums of that point's tile (a reduction over the tile's 5000 rows), so after point n they hold the column
  sums over tiles 0 … n; the last point copies them out, and the ten tile sums regroup into one sum over
  the 50000 rows.
-/
import proofs.«111111_j10943576670413_1_alg».proof.Proof.KI.Reg3
import proofs.«111111_j10943576670413_1_alg».proof.Proof.Val.Alg
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

variable (V : (c : Dev nD) → (b : Ref sig .tc) → Buf (Elt Ideal) ((c : Thread nD τ).loc b))

/-! ## The payloads at an index -/

/-- The output tile's payload: the pointwise sum of the two tiles (the reshapes are identities). -/
theorem pay3_3_eq (v3 v5 : Vec Ideal S5000x128 .f32) : k3_pay3 v3 v5 = addf v3 v5 := by
  unfold k3_pay3
  simp only [shapeCast_self]

/-- Column `j` of a tile of 5000 rows, with row `k` put back, is the index (k, j). -/
theorem lift3_ix2 (h : S5000x128.Reduces [0] S128) (j : Fin 128) (k : Fin (S5000x128.size 0)) :
    h.lift (ix1 j) k = ix2 (⟨k.val, k.isLt⟩ : Fin 5000) j := by
  funext c; apply Fin.ext
  fin_cases c <;> rfl

/-- The reduction of a tile over its rows, from the zero word, at column `j`: the sum of the column. -/
theorem colred3 (x : Vec Ideal S5000x128 .f32) (h : S5000x128.Reduces [0] S128) (hφ : FKind.Formats .f32)
    (hacc : (0x00000000#32 : BitVec 32) = FKind.add.neutral .f32 hφ) (j : Fin 128) :
    multiReduction (F := Ideal) .add [0] S128 x 0x00000000#32 h hφ hacc (ix1 j) = ∑ r : Fin 5000, x (ix2 r j) := by
  refine (Ideal.multiReduction_add_single x 0x00000000#32 h hφ hacc (ix1 j)).trans ?_
  exact Finset.sum_congr rfl fun k _ => congrArg x (lift3_ix2 h j k)

/-- The zero rows. -/
theorem pay3_1_apply (y : S1x128.Idx) : (k3_pay1 (F := Ideal) : S1x128.Idx → EReal) y = 0 := by
  unfold k3_pay1
  simp only [shapeCast_self]
  exact Cert.Alg.ofBits_zero
theorem pay3_2_apply (y : S1x128.Idx) : (k3_pay2 (F := Ideal) : S1x128.Idx → EReal) y = 0 := by
  unfold k3_pay2
  simp only [shapeCast_self]
  exact Cert.Alg.ofBits_zero

/-- The running sum row's payload at column `j`: the row carried in plus the column sum of the tile of sums. -/
theorem pay3_4_apply (v3 v5 : Vec Ideal S5000x128 .f32) (v9 : Vec Ideal S1x128 .f32) (j : Fin 128) :
    (k3_pay4 v3 v5 v9 : S1x128.Idx → EReal) (ix2 (0 : Fin 1) j)
      = v9 (ix2 (0 : Fin 1) j) + ∑ r : Fin 5000, (v3 (ix2 r j) + v5 (ix2 r j)) := by
  unfold k3_pay4
  simp only [shapeCast_self, pay3_3_eq]
  refine congrArg (v9 (ix2 (0 : Fin 1) j) + ·) ?_
  refine (shapeCast_a_1a_apply _ _ (0 : Fin 1) j).trans ?_
  exact colred3 _ _ _ _ j

/-- The running sum-of-squares row's payload at column `j`: the row carried in plus the column sum of the squares. -/
theorem pay3_5_apply (v3 v5 : Vec Ideal S5000x128 .f32) (v16 : Vec Ideal S1x128 .f32) (j : Fin 128) :
    (k3_pay5 v3 v5 v16 : S1x128.Idx → EReal) (ix2 (0 : Fin 1) j)
      = v16 (ix2 (0 : Fin 1) j) + ∑ r : Fin 5000, (v3 (ix2 r j) + v5 (ix2 r j)) * (v3 (ix2 r j) + v5 (ix2 r j)) := by
  unfold k3_pay5
  simp only [shapeCast_self, pay3_3_eq]
  refine congrArg (v16 (ix2 (0 : Fin 1) j) + ·) ?_
  refine (shapeCast_a_1a_apply _ _ (0 : Fin 1) j).trans ?_
  exact colred3 _ _ _ _ j

/-! ## The index maps and the input tiles -/

/-- The printed index maps, over the ten points: the two input tiles and the output tile sit at row block `t`,
    column block 0; the two row outputs at block (0, 0). -/
theorem idx3_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The first input tile at point `t`, row `r`, column `j`: row 5000 t + r of its array. -/
theorem iblk3_0_apply (c : Dev nD) (t : Fin cfg3.N) (r : Fin 5000) (j : Fin 128) :
    (iblk3 V c 0 t : S5000x128.Idx → EReal) (ix2 r j)
      = V c main_v9 (ix2 (⟨5000 * t.val + r.val, by have := t.isLt; have : cfg3.N = 10 := N_3; omega⟩ : Fin 50000) j) := by
  obtain ⟨e00, e01, e10, e11, -⟩ := idx3_facts t
  show V c main_v9 (((cfg3.win 0).blk t).view.emb (ix2 r j)) = _
  refine congrArg (V c main_v9) ?_
  funext a; apply Fin.ext
  match a with
  | ⟨0, _⟩ => show win3_0.index t (0 : Fin 2) * 5000 + 1 * r.val = 5000 * t.val + r.val; omega
  | ⟨1, _⟩ => show win3_0.index t (1 : Fin 2) * 128 + 1 * j.val = j.val; omega

/-- The second input tile likewise. -/
theorem iblk3_1_apply (c : Dev nD) (t : Fin cfg3.N) (r : Fin 5000) (j : Fin 128) :
    (iblk3 V c 1 t : S5000x128.Idx → EReal) (ix2 r j)
      = V c main_v36 (ix2 (⟨5000 * t.val + r.val, by have := t.isLt; have : cfg3.N = 10 := N_3; omega⟩ : Fin 50000) j) := by
  obtain ⟨e00, e01, e10, e11, -⟩ := idx3_facts t
  show V c main_v36 (((cfg3.win 1).blk t).view.emb (ix2 r j)) = _
  refine congrArg (V c main_v36) ?_
  funext a; apply Fin.ext
  match a with
  | ⟨0, _⟩ => show win3_1.index t (0 : Fin 2) * 5000 + 1 * r.val = 5000 * t.val + r.val; omega
  | ⟨1, _⟩ => show win3_1.index t (1 : Fin 2) * 128 + 1 * j.val = j.val; omega

/-! ## The tile output: the pointwise sum of the two arrays -/

/-- The sum of two extended reals. -/
def add3 (a b : EReal) : EReal := a + b

/-- The sum of two arrays, index by index. -/
def hsum3 (d s : S50000x128.Idx → EReal) : S50000x128.Idx → EReal := fun z => d z + s z

theorem hsum3_apply (d s : S50000x128.Idx → EReal) (i : Fin 50000) (j : Fin 128) :
    hsum3 d s (ix2 i j) = d (ix2 i j) + s (ix2 i j) := rfl

/-- The output tile after the body at position `n`: the sum of the two input tiles there. -/
theorem after3_2_eq (c : Dev nD) (t : Fin cfg3.N) :
    (dat3 (F := Ideal) V c).after 2 t = out3_2 (iblk3 V c 0 t) (iblk3 V c 1 t) := by
  rw [after3_2]
  by_cases h0 : t.val % 10 = 0
  · rw [outsAt3_A V c t h0]; unfold step3; dsimp only
  · rw [outsAt3_pos V c t h0]; unfold step3; dsimp only

/-- WHAT POINT `t` WRITES BACK to the tile output is block `t` of the sum of the two arrays. -/
theorem flushed3_2_eq (c : Dev nD) (t : Fin cfg3.N) :
    (dat3 (F := Ideal) V c).flushed 2 t
      = ((cfg3.win 2).blk t).view.read (Elt Ideal) (hsum3 (V c main_v9) (V c main_v36)) := by
  show (cfg3.win 2).cut (grid3.coords t) ((dat3 (F := Ideal) V c).after 2 t) = _
  rw [after3_2_eq, out3_2_eq, pay3_3_eq]
  obtain ⟨e00, e01, e10, e11, e20, e21, -⟩ := idx3_facts t
  funext y
  show add3 (V c main_v9 (((cfg3.win 0).blk t).view.emb y)) (V c main_v36 (((cfg3.win 1).blk t).view.emb y))
    = add3 (V c main_v9 (((cfg3.win 2).blk t).view.emb y)) (V c main_v36 (((cfg3.win 2).blk t).view.emb y))
  have h0 : ((cfg3.win 0).blk t).view.emb y = ((cfg3.win 2).blk t).view.emb y := by
    funext a; apply Fin.ext
    match a with
    | ⟨0, _⟩ => show win3_0.index t (0 : Fin 2) * 5000 + 1 * (y 0).val = win3_2.index t (0 : Fin 2) * 5000 + 1 * (y 0).val; omega
    | ⟨1, _⟩ => show win3_0.index t (1 : Fin 2) * 128 + 1 * (y 1).val = win3_2.index t (1 : Fin 2) * 128 + 1 * (y 1).val; omega
  have h1 : ((cfg3.win 1).blk t).view.emb y = ((cfg3.win 2).blk t).view.emb y := by
    funext a; apply Fin.ext
    match a with
    | ⟨0, _⟩ => show win3_1.index t (0 : Fin 2) * 5000 + 1 * (y 0).val = win3_2.index t (0 : Fin 2) * 5000 + 1 * (y 0).val; omega
    | ⟨1, _⟩ => show win3_1.index t (1 : Fin 2) * 128 + 1 * (y 1).val = win3_2.index t (1 : Fin 2) * 128 + 1 * (y 1).val; omega
  rw [h0, h1]

/-- An index of the tile output's array is in point `t`'s block iff each coordinate is in the block's range. -/
theorem mem_blk3_2 (t : Fin cfg3.N) (z : S50000x128.Idx) :
    z ∈ ((cfg3.win 2).blk t).view.set ↔ ∀ a : Fin 2, win3_2.index t a * S5000x128.size a ≤ (z a).val ∧ (z a).val < win3_2.index t a * S5000x128.size a + S5000x128.size a := by
  show z ∈ ((View.whole main_v37_0).slice (win3_2.rect t)).set ↔ _
  rw [View.set_slice_whole, Rect.mem_set_unit]
  exact Iff.rfl

/-- The ten row blocks tile the array: row `r` is in the block of point `r / 5000`. -/
theorem cover3_2 (z : S50000x128.Idx) : ∃ t : Fin cfg3.N, (cfg3.win 2).flush t = true ∧ z ∈ ((cfg3.win 2).blk t).view.set := by
  have hz0 : (z 0).val < 50000 := (z 0).isLt
  have hz1 : (z 1).val < 128 := (z 1).isLt
  have hN : cfg3.N = 10 := N_3
  let t : Fin cfg3.N := ⟨(z 0).val / 5000, by rw [hN]; omega⟩
  obtain ⟨e00, e01, e10, e11, e20, e21, -⟩ := idx3_facts t
  have ht : t.val = (z 0).val / 5000 := rfl
  refine ⟨t, flush3_2 t, ?_⟩
  rw [mem_blk3_2]
  intro a
  match a with
  | ⟨0, _⟩ => show win3_2.index t (0 : Fin 2) * 5000 ≤ (z 0).val ∧ (z 0).val < win3_2.index t (0 : Fin 2) * 5000 + 5000; omega
  | ⟨1, _⟩ => show win3_2.index t (1 : Fin 2) * 128 ≤ (z 1).val ∧ (z 1).val < win3_2.index t (1 : Fin 2) * 128 + 128; omega

/-- THE TILE OUTPUT'S ARRAY after the launch: the sum of the two arrays as the launch finds them. -/
theorem arr3_2_eq (c : Dev nD) :
    (dat3 (F := Ideal) V c).arrAt 2 cfg3.N = hsum3 (V c main_v9) (V c main_v36) :=
  (dat3 (F := Ideal) V c).arrAt_eq_of_cover 2 (hsum3 (V c main_v9) (V c main_v36))
    (fun t _ => flushed3_2_eq V c t) cover3_2

/-! ## The two running rows: sums over the tiles so far -/

/-- The sum of `f` over the 5000 rows of tile `t` (zero past the tenth tile). -/
def tile3 (f : Fin 50000 → EReal) (t : ℕ) : EReal :=
  if h : t < 10 then ∑ r : Fin 5000, f ⟨5000 * t + r.val, by omega⟩ else 0

/-- The sum of two arrays at row `i` of column `j`, and its square. -/
def fsum3 (d s : S50000x128.Idx → EReal) (j : Fin 128) (i : Fin 50000) : EReal := d (ix2 i j) + s (ix2 i j)
def fsq3 (d s : S50000x128.Idx → EReal) (j : Fin 128) (i : Fin 50000) : EReal :=
  (d (ix2 i j) + s (ix2 i j)) * (d (ix2 i j) + s (ix2 i j))

/-- The ten tile sums add up to the sum over all 50000 rows. -/
theorem tiles3_total (f : Fin 50000 → EReal) : ∑ t ∈ Finset.range 10, tile3 f t = ∑ i : Fin 50000, f i := by
  rw [Finset.sum_range, ← Cert.Alg.sum_tiles f]
  exact Finset.sum_congr rfl fun t _ => by unfold tile3; rw [dif_pos t.isLt]

/-- The running sum row after the body at position `n`, at column `j`: the column sums of tiles 0 … n of the
    sum of the two arrays, added up from zero (by induction on `n`: the first point starts from the zero row,
    each later point adds its tile's column sum to the row the point before left). -/
theorem scratch3_0_apply (c : Dev nD) (n : ℕ) (hn : n < cfg3.N) (j : Fin 128) :
    ((outsAt3 V c n hn).2.2.2.1 : S1x128.Idx → EReal) (ix2 (0 : Fin 1) j)
      = ∑ t ∈ Finset.range (n + 1), tile3 (fsum3 (V c main_v9) (V c main_v36) j) t := by
  have hN : cfg3.N = 10 := N_3
  induction n with
  | zero =>
    rw [outsAt3_zero]
    show (sacc3_0 (F := Ideal) _ _ szero3_0 : S1x128.Idx → EReal) (ix2 (0 : Fin 1) j) = _
    rw [sacc3_0_eq, szero3_0_eq, pay3_4_apply, pay3_1_apply, zero_add, Finset.sum_range_one]
    unfold tile3; rw [dif_pos (by omega)]
    exact Finset.sum_congr rfl fun r _ => by rw [iblk3_0_apply, iblk3_1_apply] <;> rfl
  | succ n ih =>
    rw [outsAt3_succ]
    show (sacc3_0 (F := Ideal) _ _ (outsAt3 V c n (Nat.lt_of_succ_lt hn)).2.2.2.1 : S1x128.Idx → EReal) (ix2 (0 : Fin 1) j) = _
    rw [sacc3_0_eq, pay3_4_apply, ih (Nat.lt_of_succ_lt hn), Finset.sum_range_succ _ (n + 1)]
    congr 1
    unfold tile3; rw [dif_pos (by omega)]
    exact Finset.sum_congr rfl fun r _ => by rw [iblk3_0_apply, iblk3_1_apply] <;> rfl

/-- The running sum-of-squares row likewise, over the squares. -/
theorem scratch3_1_apply (c : Dev nD) (n : ℕ) (hn : n < cfg3.N) (j : Fin 128) :
    ((outsAt3 V c n hn).2.2.2.2 : S1x128.Idx → EReal) (ix2 (0 : Fin 1) j)
      = ∑ t ∈ Finset.range (n + 1), tile3 (fsq3 (V c main_v9) (V c main_v36) j) t := by
  have hN : cfg3.N = 10 := N_3
  induction n with
  | zero =>
    rw [outsAt3_zero]
    show (sacc3_1 (F := Ideal) _ _ szero3_1 : S1x128.Idx → EReal) (ix2 (0 : Fin 1) j) = _
    rw [sacc3_1_eq, szero3_1_eq, pay3_5_apply, pay3_2_apply, zero_add, Finset.sum_range_one]
    unfold tile3; rw [dif_pos (by omega)]
    exact Finset.sum_congr rfl fun r _ => by rw [iblk3_0_apply, iblk3_1_apply] <;> rfl
  | succ n ih =>
    rw [outsAt3_succ]
    show (sacc3_1 (F := Ideal) _ _ (outsAt3 V c n (Nat.lt_of_succ_lt hn)).2.2.2.2 : S1x128.Idx → EReal) (ix2 (0 : Fin 1) j) = _
    rw [sacc3_1_eq, pay3_5_apply, ih (Nat.lt_of_succ_lt hn), Finset.sum_range_succ _ (n + 1)]
    congr 1
    unfold tile3; rw [dif_pos (by omega)]
    exact Finset.sum_congr rfl fun r _ => by rw [iblk3_0_apply, iblk3_1_apply] <;> rfl

/-- The two row outputs' components are the two running rows (copied). -/
theorem outsAt3_row3 (c : Dev nD) (n : ℕ) (hn : n < cfg3.N) : (outsAt3 V c n hn).2.1 = (outsAt3 V c n hn).2.2.2.1 := by
  cases n <;> exact srow3_eq _
theorem outsAt3_row4 (c : Dev nD) (n : ℕ) (hn : n < cfg3.N) : (outsAt3 V c n hn).2.2.1 = (outsAt3 V c n hn).2.2.2.2 := by
  cases n <;> exact srow3_eq _

/-! ## The two row outputs: the column sums over all 50000 rows -/

/-- The column sums of the sum of two arrays. -/
def colsum3 (d s : S50000x128.Idx → EReal) : S1x128.Idx → EReal :=
  fun y => ∑ i : Fin 50000, (d (ix2 i (y 1 : Fin 128)) + s (ix2 i (y 1 : Fin 128)))

theorem colsum3_apply (d s : S50000x128.Idx → EReal) (j : Fin 128) :
    colsum3 d s (ix2 (0 : Fin 1) j) = ∑ i : Fin 50000, (d (ix2 i j) + s (ix2 i j)) := rfl

/-- The column sums of the squares of the sum of two arrays. -/
def colsq3 (d s : S50000x128.Idx → EReal) : S1x128.Idx → EReal :=
  fun y => ∑ i : Fin 50000, (d (ix2 i (y 1 : Fin 128)) + s (ix2 i (y 1 : Fin 128))) * (d (ix2 i (y 1 : Fin 128)) + s (ix2 i (y 1 : Fin 128)))

theorem colsq3_apply (d s : S50000x128.Idx → EReal) (j : Fin 128) :
    colsq3 d s (ix2 (0 : Fin 1) j) = ∑ i : Fin 50000, (d (ix2 i j) + s (ix2 i j)) * (d (ix2 i j) + s (ix2 i j)) := rfl

/-- WHAT THE LAST POINT WRITES BACK to the first row output (the one point that writes it back): the column
    sums over all ten tiles, regrouped over the 50000 rows. -/
theorem read_blk3_3 (t : Fin cfg3.N) (G : S1x128.Idx → EReal) :
    ((cfg3.win 3).blk t).view.read (Elt Ideal) G = G := by
  obtain ⟨-, -, -, -, -, -, e30, e31, e40, e41⟩ := idx3_facts t
  funext y
  show G (((cfg3.win 3).blk t).view.emb y) = G y
  refine congrArg G ?_
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

theorem flushed3_3_eq (c : Dev nD) (t : Fin cfg3.N) (hf : (cfg3.win 3).flush t = true) :
    (dat3 (F := Ideal) V c).flushed 3 t
      = ((cfg3.win 3).blk t).view.read (Elt Ideal) (colsum3 (V c main_v9) (V c main_v36)) := by
  have h9 : t.val % 10 = 9 := (flush3_3 t).mp hf
  have hN : t.val < 10 := lt_of_lt_of_eq t.isLt (show cfg3.N = 10 from N_3)
  rw [read_blk3_3]
  show (cfg3.win 3).cut (grid3.coords t) ((dat3 (F := Ideal) V c).after 3 t) = _
  rw [after3_3, outsAt3_row3]
  funext y
  obtain ⟨u, j, rfl⟩ : ∃ (u : Fin 1) (j : Fin 128), y = ix2 u j := ⟨y 0, y 1, eq_ix2 y⟩
  obtain rfl : u = 0 := Subsingleton.elim _ _
  refine Eq.trans (b := ((outsAt3 V c t.val t.isLt).2.2.2.1 : S1x128.Idx → EReal) (ix2 (0 : Fin 1) j)) rfl ?_
  rw [colsum3_apply, scratch3_0_apply, show t.val + 1 = 10 by omega]
  exact tiles3_total _

/-- The same for the second row output, over the squares. -/
theorem read_blk3_4 (t : Fin cfg3.N) (G : S1x128.Idx → EReal) :
    ((cfg3.win 4).blk t).view.read (Elt Ideal) G = G := by
  obtain ⟨-, -, -, -, -, -, e30, e31, e40, e41⟩ := idx3_facts t
  funext y
  show G (((cfg3.win 4).blk t).view.emb y) = G y
  refine congrArg G ?_
  funext a; apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

theorem flushed3_4_eq (c : Dev nD) (t : Fin cfg3.N) (hf : (cfg3.win 4).flush t = true) :
    (dat3 (F := Ideal) V c).flushed 4 t
      = ((cfg3.win 4).blk t).view.read (Elt Ideal) (colsq3 (V c main_v9) (V c main_v36)) := by
  have h9 : t.val % 10 = 9 := (flush3_4 t).mp hf
  have hN : t.val < 10 := lt_of_lt_of_eq t.isLt (show cfg3.N = 10 from N_3)
  rw [read_blk3_4]
  show (cfg3.win 4).cut (grid3.coords t) ((dat3 (F := Ideal) V c).after 4 t) = _
  rw [after3_4, outsAt3_row4]
  funext y
  obtain ⟨u, j, rfl⟩ : ∃ (u : Fin 1) (j : Fin 128), y = ix2 u j := ⟨y 0, y 1, eq_ix2 y⟩
  obtain rfl : u = 0 := Subsingleton.elim _ _
  refine Eq.trans (b := ((outsAt3 V c t.val t.isLt).2.2.2.2 : S1x128.Idx → EReal) (ix2 (0 : Fin 1) j)) rfl ?_
  rw [colsq3_apply, scratch3_1_apply, show t.val + 1 = 10 by omega]
  exact tiles3_total _

/-- An index of a row output's array is in point `t`'s block iff each coordinate is in the block's range. -/
theorem mem_blk3_3 (t : Fin cfg3.N) (z : S1x128.Idx) :
    z ∈ ((cfg3.win 3).blk t).view.set ↔ ∀ a : Fin 2, win3_3.index t a * S1x128.size a ≤ (z a).val ∧ (z a).val < win3_3.index t a * S1x128.size a + S1x128.size a := by
  show z ∈ ((View.whole main_v37_1).slice (win3_3.rect t)).set ↔ _
  rw [View.set_slice_whole, Rect.mem_set_unit]
  exact Iff.rfl
theorem mem_blk3_4 (t : Fin cfg3.N) (z : S1x128.Idx) :
    z ∈ ((cfg3.win 4).blk t).view.set ↔ ∀ a : Fin 2, win3_4.index t a * S1x128.size a ≤ (z a).val ∧ (z a).val < win3_4.index t a * S1x128.size a + S1x128.size a := by
  show z ∈ ((View.whole main_v37_2).slice (win3_4.rect t)).set ↔ _
  rw [View.set_slice_whole, Rect.mem_set_unit]
  exact Iff.rfl

/-- The last point's block is the whole row. -/
theorem cover3_3 (z : S1x128.Idx) : ∃ t : Fin cfg3.N, (cfg3.win 3).flush t = true ∧ z ∈ ((cfg3.win 3).blk t).view.set := by
  have hz0 : (z 0).val < 1 := (z 0).isLt
  have hz1 : (z 1).val < 128 := (z 1).isLt
  have hN : cfg3.N = 10 := N_3
  let t : Fin cfg3.N := ⟨9, by rw [hN]; omega⟩
  obtain ⟨-, -, -, -, -, -, e30, e31, e40, e41⟩ := idx3_facts t
  refine ⟨t, (flush3_3 t).mpr rfl, ?_⟩
  rw [mem_blk3_3]
  intro a
  match a with
  | ⟨0, _⟩ => show win3_3.index t (0 : Fin 2) * 1 ≤ (z 0).val ∧ (z 0).val < win3_3.index t (0 : Fin 2) * 1 + 1; omega
  | ⟨1, _⟩ => show win3_3.index t (1 : Fin 2) * 128 ≤ (z 1).val ∧ (z 1).val < win3_3.index t (1 : Fin 2) * 128 + 128; omega
theorem cover3_4 (z : S1x128.Idx) : ∃ t : Fin cfg3.N, (cfg3.win 4).flush t = true ∧ z ∈ ((cfg3.win 4).blk t).view.set := by
  have hz0 : (z 0).val < 1 := (z 0).isLt
  have hz1 : (z 1).val < 128 := (z 1).isLt
  have hN : cfg3.N = 10 := N_3
  let t : Fin cfg3.N := ⟨9, by rw [hN]; omega⟩
  obtain ⟨-, -, -, -, -, -, e30, e31, e40, e41⟩ := idx3_facts t
  refine ⟨t, (flush3_4 t).mpr rfl, ?_⟩
  rw [mem_blk3_4]
  intro a
  match a with
  | ⟨0, _⟩ => show win3_4.index t (0 : Fin 2) * 1 ≤ (z 0).val ∧ (z 0).val < win3_4.index t (0 : Fin 2) * 1 + 1; omega
  | ⟨1, _⟩ => show win3_4.index t (1 : Fin 2) * 128 ≤ (z 1).val ∧ (z 1).val < win3_4.index t (1 : Fin 2) * 128 + 128; omega

/-- THE FIRST ROW OUTPUT'S ARRAY after the launch: the column sums of the sum of the two arrays. -/
theorem arr3_3_eq (c : Dev nD) :
    (dat3 (F := Ideal) V c).arrAt 3 cfg3.N = colsum3 (V c main_v9) (V c main_v36) :=
  (dat3 (F := Ideal) V c).arrAt_eq_of_cover 3 (colsum3 (V c main_v9) (V c main_v36))
    (fun t hf => flushed3_3_eq V c t hf) cover3_3

/-- THE SECOND ROW OUTPUT'S ARRAY after the launch: the column sums of the squares of the sum. -/
theorem arr3_4_eq (c : Dev nD) :
    (dat3 (F := Ideal) V c).arrAt 4 cfg3.N = colsq3 (V c main_v9) (V c main_v36) :=
  (dat3 (F := Ideal) V c).arrAt_eq_of_cover 4 (colsq3 (V c main_v9) (V c main_v36))
    (fun t hf => flushed3_4_eq V c t hf) cover3_4

end Cert.KernelIdeal.Val

end
-- ==== Proof.Val.R0.lean ====
/-
  The node projection read as numbers. With exact arithmetic each of the ten grid points writes, into its 5000 rows
  of the 50000 × 512 result, the matrix product of its 5000 × 128 tile of node features with the 128 × 512 weight
  block; the tiles partition the rows, so after the launch the result is the full product: entry (i, j) is
  ∑ₖ x(i, k) · w(k, j) of the arrays as the launch found them.
-/
import proofs.«111111_j10943576670413_1_alg».proof.Proof.KI.Reg0
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

variable (V : (c : Dev nD) → (b : Ref sig .tc) → Buf (Elt Ideal) ((c : Thread nD τ).loc b))

/-! ## The contraction's operand indices, axis by axis -/

/-- The left operand's row is the output's row. -/
theorem lhs0_0 (i : S5000x512.Idx) (q : dot_S5000x128_S128x512_S5000x512_1_0_0_1_n_n.contr.Idx) :
    (dot_S5000x128_S128x512_S5000x512_1_0_0_1_n_n.lhsIdx i q 0).val = (i 0).val := by
  unfold DotDims.lhsIdx
  rw [dif_neg (show ¬(0 : Fin S5000x128.rank) ∈ dot_S5000x128_S128x512_S5000x512_1_0_0_1_n_n.lhsBatch by decide), dif_pos (show (0 : Fin S5000x128.rank) ∈ dot_S5000x128_S128x512_S5000x512_1_0_0_1_n_n.lhsNonContracting by decide)]
  rfl
/-- The left operand's column is the contraction coordinate. -/
theorem lhs0_1 (i : S5000x512.Idx) (q : dot_S5000x128_S128x512_S5000x512_1_0_0_1_n_n.contr.Idx) :
    (dot_S5000x128_S128x512_S5000x512_1_0_0_1_n_n.lhsIdx i q 1).val = (q ⟨0, by decide⟩).val :=
  dot_S5000x128_S128x512_S5000x512_1_0_0_1_n_n.lhsIdx_val_of_single rfl i q
/-- The right operand's row is the contraction coordinate. -/
theorem rhs0_0 (i : S5000x512.Idx) (q : dot_S5000x128_S128x512_S5000x512_1_0_0_1_n_n.contr.Idx) :
    (dot_S5000x128_S128x512_S5000x512_1_0_0_1_n_n.rhsIdx i q 0).val = (q ⟨0, by decide⟩).val :=
  dot_S5000x128_S128x512_S5000x512_1_0_0_1_n_n.rhsIdx_val_of_single rfl i q
/-- The right operand's column is the output's column. -/
theorem rhs0_1 (i : S5000x512.Idx) (q : dot_S5000x128_S128x512_S5000x512_1_0_0_1_n_n.contr.Idx) :
    (dot_S5000x128_S128x512_S5000x512_1_0_0_1_n_n.rhsIdx i q 1).val = (i 1).val := by
  unfold DotDims.rhsIdx
  rw [dif_neg (show ¬(1 : Fin S128x512.rank) ∈ dot_S5000x128_S128x512_S5000x512_1_0_0_1_n_n.rhsBatch by decide), dif_pos (show (1 : Fin S128x512.rank) ∈ dot_S5000x128_S128x512_S5000x512_1_0_0_1_n_n.rhsNonContracting by decide)]
  rfl

/-! ## One tile -/

/-- The tile's payload at row `p`, column `q`: with exact arithmetic the narrowing to bf16 changes nothing and the
    accumulator starts at zero, so the entry is the plain inner product of row `p` of the left block with column `q`
    of the right block. -/
theorem pay0_apply (x0 : Vec Ideal S5000x128 .f32) (x1 : Vec Ideal S128x512 .f32) (p : Fin 5000) (q : Fin 512) :
    (k0_pay1 x0 x1 : S5000x512.Idx → EReal) (ix2 p q) = ∑ k : Fin 128, (x0 : S5000x128.Idx → EReal) (ix2 p k) * (x1 : S128x512.Idx → EReal) (ix2 k q) := by
  unfold k0_pay1
  simp only [shapeCast_self]
  simp only [matmul]
  rw [Ideal.matmul_constant_zero_apply, ← Equiv.sum_comp (contrEquiv1 dot_S5000x128_S128x512_S5000x512_1_0_0_1_n_n 128 rfl rfl).symm]
  refine Finset.sum_congr rfl fun k _ => ?_
  have hk := contrEquiv1_symm_val dot_S5000x128_S128x512_S5000x512_1_0_0_1_n_n 128 rfl rfl k
  have el : dot_S5000x128_S128x512_S5000x512_1_0_0_1_n_n.lhsIdx (ix2 p q) ((contrEquiv1 dot_S5000x128_S128x512_S5000x512_1_0_0_1_n_n 128 rfl rfl).symm k) = ix2 p k := funext fun a => Fin.ext (by
    match a with
    | ⟨0, _⟩ => exact lhs0_0 _ _
    | ⟨1, _⟩ => exact (lhs0_1 _ _).trans hk)
  have er : dot_S5000x128_S128x512_S5000x512_1_0_0_1_n_n.rhsIdx (ix2 p q) ((contrEquiv1 dot_S5000x128_S128x512_S5000x512_1_0_0_1_n_n 128 rfl rfl).symm k) = ix2 k q := funext fun a => Fin.ext (by
    match a with
    | ⟨0, _⟩ => exact (rhs0_0 _ _).trans hk
    | ⟨1, _⟩ => exact rhs0_1 _ _)
  rw [el, er]
  rfl

/-! ## The tiles in the arrays -/

theorem zeroOff0 : (![0, 0] : Fin 2 → Nat) = fun _ => 0 := funext fun a => by fin_cases a <;> rfl

/-- The block indices at grid point `t`: the left operand's tile and the result's tile are the `t`-th row tile,
    the right operand's block is the whole array. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the left tile at point `t` is row `5000·t + p` of the node-feature array. -/
theorem tileX0 (c : Dev nD) (t : Fin cfg0.N) (p : Fin 5000) (k : Fin 128) (r : Fin 50000) (hr : r.val = 5000 * t.val + p.val) :
    (iblk0 V c 0 t : S5000x128.Idx → EReal) (ix2 p k) = (V c main_arg0 : S50000x128.Idx → EReal) (ix2 r k) := by
  obtain ⟨e0, e1, -⟩ := blockIdx0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The right block at every point is the whole weight array. -/
theorem tileW0 (c : Dev nD) (t : Fin cfg0.N) (k : Fin 128) (q q' : Fin 512) (hq : q'.val = q.val) :
    (iblk0 V c 1 t : S128x512.Idx → EReal) (ix2 k q) = (V c main_v4 : S128x512.Idx → EReal) (ix2 k q') := by
  obtain ⟨-, -, e2, e3, -⟩ := blockIdx0 t
  unfold iblk0
  rw [View.read_apply]
  show V c main_v4 _ = V c main_v4 _
  congr 1
  funext a
  apply Fin.ext
  match a with
  | ⟨0, _⟩ => show win0_1.index t (0 : Fin 2) * 128 + 1 * k.val = k.val; rw [e2]; omega
  | ⟨1, _⟩ => show win0_1.index t (1 : Fin 2) * 512 + 1 * q.val = q'.val; rw [e3, hq]; omega

/-- The full product: entry `i` is the inner product of row `i 0` of `A` with column `i 1` of `W`. -/
def prod0 (A : S50000x128.Idx → EReal) (W : S128x512.Idx → EReal) : S50000x512.Idx → EReal := fun i =>
  ∑ k : Fin 128, A (ix2 (⟨(i 0).val, (i 0).isLt⟩ : Fin 50000) k) * W (ix2 k (⟨(i 1).val, (i 1).isLt⟩ : Fin 512))

/-- Entry (`p`, `q`) of the tile computed at point `t` is the full product's entry at row `5000·t + p`, column `q`. -/
theorem tile0 (c : Dev nD) (t : Fin cfg0.N) (p : Fin 5000) (q : Fin 512) (i : S50000x512.Idx)
    (h0 : (i 0).val = 5000 * t.val + p.val) (h1 : (i 1).val = q.val) :
    (k0_pay1 (iblk0 V c 0 t) (iblk0 V c 1 t) : S5000x512.Idx → EReal) (ix2 p q) = prod0 (V c main_arg0) (V c main_v4) i := by
  rw [pay0_apply]
  show ∑ k : Fin 128, _ = ∑ k : Fin 128, _
  refine Finset.sum_congr rfl fun k _ => ?_
  exact congrArg₂ (· * ·) (tileX0 V c t p k ⟨(i 0).val, (i 0).isLt⟩ h0) (tileW0 V c t k q ⟨(i 1).val, (i 1).isLt⟩ h1)

/-- What point `t` writes back is its block of the full product. -/
theorem flushed0 (c : Dev nD) (t : Fin cfg0.N) :
    (dat0 V c).flushed 2 t = ((cfg0.win 2).blk t).view.read (Elt Ideal) (prod0 (V c main_arg0) (V c main_v4)) := by
  show (cfg0.win 2).cut (grid0.coords t) ((dat0 V c).after 2 t) = _
  rw [after0_2]
  unfold out0_2
  rw [View.canon_unit_zero zeroOff0]
  simp only [View.ld_unit_zero (S := S5000x128) zeroOff0, View.ld_unit_zero (S := S128x512) zeroOff0]
  obtain ⟨-, -, -, -, e4, e5⟩ := blockIdx0 t
  refine funext fun (j : S5000x512.Idx) => ?_
  obtain ⟨p, q, rfl⟩ : ∃ (p : Fin 5000) (q : Fin 512), j = ix2 p q := ⟨j 0, j 1, eq_ix2 j⟩
  show (k0_pay1 (iblk0 V c 0 t) (iblk0 V c 1 t) : S5000x512.Idx → EReal) (ix2 p q)
    = prod0 (V c main_arg0) (V c main_v4) (((cfg0.win 2).blk t).view.emb (ix2 p q))
  refine tile0 V c t p q _ ?_ ?_
  · show win0_2.index t (0 : Fin 2) * 5000 + 1 * p.val = 5000 * t.val + p.val; rw [e4]; omega
  · show win0_2.index t (1 : Fin 2) * 512 + 1 * q.val = q.val; rw [e5]; omega

/-- An index of the result lies in point `t`'s block iff each coordinate is in the block's range on its axis. -/
theorem mem_blk0 (t : Fin cfg0.N) (i : S50000x512.Idx) :
    i ∈ ((cfg0.win 2).blk t).view.set ↔ ∀ a : Fin 2, win0_2.index t a * S5000x512.size a ≤ (i a).val ∧ (i a).val < win0_2.index t a * S5000x512.size a + S5000x512.size a := by
  show i ∈ ((View.whole main_v5).slice (win0_2.rect t)).set ↔ _
  rw [View.set_slice_whole, Rect.mem_set_unit]
  exact Iff.rfl

/-- The row tiles partition the rows: row `r` belongs to point `r / 5000`. -/
theorem cover0 (i : S50000x512.Idx) : ∃ t : Fin cfg0.N, (cfg0.win 2).flush t = true ∧ i ∈ ((cfg0.win 2).blk t).view.set := by
  have hi0 : (i 0).val < 50000 := (i 0).isLt
  have hi1 : (i 1).val < 512 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e4, e5⟩ := blockIdx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 512 ≤ (i 1).val ∧ (i 1).val < win0_2.index t (1 : Fin 2) * 512 + 512; rw [e5]; omega

/-- After the launch the result array holds the full product of the two arrays as the launch found them. -/
theorem arr0_eq (c : Dev nD) : (dat0 V c).arrAt 2 cfg0.N = prod0 (V c main_arg0) (V c main_v4) :=
  (dat0 V c).arrAt_eq_of_cover 2 (prod0 (V c main_arg0) (V c main_v4)) (fun t _ => flushed0 V c t) cover0

/-- The full product at row `i`, column `j`. -/
theorem prod0_apply (A : S50000x128.Idx → EReal) (W : S128x512.Idx → EReal) (i : Fin 50000) (j : Fin 512) :
    prod0 A W (ix2 i j) = ∑ k : Fin 128, A (ix2 i k) * W (ix2 k j) := rfl

/-- Entry (`i`, `j`) of the result after the launch: ∑ₖ x(i, k) · w(k, j). -/
theorem arr0_apply (c : Dev nD) (i : Fin 50000) (j : Fin 512) :
    (show S50000x512.Idx → EReal from (dat0 (F := Ideal) V c).arrAt 2 cfg0.N) (ix2 i j)
      = ∑ k : Fin 128, (show S50000x128.Idx → EReal from V c main_arg0) (ix2 i k) * (show S128x512.Idx → EReal from V c main_v4) (ix2 k j) :=
  (congrFun (arr0_eq V c) (ix2 i j)).trans rfl

end Cert.KernelIdeal.Val

end
-- ==== Proof.Val.R1.lean ====
/-
  The edge projection read as numbers. With exact arithmetic each of the fifty grid points writes, into its 16000 rows
  of the 800000 × 128 result, the matrix product of its 16000 × 128 tile of edge features with the 128 × 128 weight
  block; the tiles partition the rows, so after the launch the result is the full product: entry (i, j) is
  ∑ₖ e(i, k) · w(k, j) of the arrays as the launch found them.
-/
import proofs.«111111_j10943576670413_1_alg».proof.Proof.KI.Reg1
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

variable (V : (c : Dev nD) → (b : Ref sig .tc) → Buf (Elt Ideal) ((c : Thread nD τ).loc b))

/-! ## The contraction's operand indices, axis by axis -/

/-- The left operand's row is the output's row. -/
theorem lhs1_0 (i : S16000x128.Idx) (q : dot_S16000x128_S128x128_S16000x128_1_0_0_1_n_n.contr.Idx) :
    (dot_S16000x128_S128x128_S16000x128_1_0_0_1_n_n.lhsIdx i q 0).val = (i 0).val := by
  unfold DotDims.lhsIdx
  rw [dif_neg (show ¬(0 : Fin S16000x128.rank) ∈ dot_S16000x128_S128x128_S16000x128_1_0_0_1_n_n.lhsBatch by decide), dif_pos (show (0 : Fin S16000x128.rank) ∈ dot_S16000x128_S128x128_S16000x128_1_0_0_1_n_n.lhsNonContracting by decide)]
  rfl
/-- The left operand's column is the contraction coordinate. -/
theorem lhs1_1 (i : S16000x128.Idx) (q : dot_S16000x128_S128x128_S16000x128_1_0_0_1_n_n.contr.Idx) :
    (dot_S16000x128_S128x128_S16000x128_1_0_0_1_n_n.lhsIdx i q 1).val = (q ⟨0, by decide⟩).val :=
  dot_S16000x128_S128x128_S16000x128_1_0_0_1_n_n.lhsIdx_val_of_single rfl i q
/-- The right operand's row is the contraction coordinate. -/
theorem rhs1_0 (i : S16000x128.Idx) (q : dot_S16000x128_S128x128_S16000x128_1_0_0_1_n_n.contr.Idx) :
    (dot_S16000x128_S128x128_S16000x128_1_0_0_1_n_n.rhsIdx i q 0).val = (q ⟨0, by decide⟩).val :=
  dot_S16000x128_S128x128_S16000x128_1_0_0_1_n_n.rhsIdx_val_of_single rfl i q
/-- The right operand's column is the output's column. -/
theorem rhs1_1 (i : S16000x128.Idx) (q : dot_S16000x128_S128x128_S16000x128_1_0_0_1_n_n.contr.Idx) :
    (dot_S16000x128_S128x128_S16000x128_1_0_0_1_n_n.rhsIdx i q 1).val = (i 1).val := by
  unfold DotDims.rhsIdx
  rw [dif_neg (show ¬(1 : Fin S128x128.rank) ∈ dot_S16000x128_S128x128_S16000x128_1_0_0_1_n_n.rhsBatch by decide), dif_pos (show (1 : Fin S128x128.rank) ∈ dot_S16000x128_S128x128_S16000x128_1_0_0_1_n_n.rhsNonContracting by decide)]
  rfl

/-! ## One tile -/

/-- The tile's payload at row `p`, column `q`: with exact arithmetic the narrowing to bf16 changes nothing and the
    accumulator starts at zero, so the entry is the plain inner product of row `p` of the left block with column `q`
    of the right block. -/
theorem pay1_apply (x0 : Vec Ideal S16000x128 .f32) (x1 : Vec Ideal S128x128 .f32) (p : Fin 16000) (q : Fin 128) :
    (k1_pay1 x0 x1 : S16000x128.Idx → EReal) (ix2 p q) = ∑ k : Fin 128, (x0 : S16000x128.Idx → EReal) (ix2 p k) * (x1 : S128x128.Idx → EReal) (ix2 k q) := by
  unfold k1_pay1
  simp only [shapeCast_self]
  simp only [matmul]
  rw [Ideal.matmul_constant_zero_apply, ← Equiv.sum_comp (contrEquiv1 dot_S16000x128_S128x128_S16000x128_1_0_0_1_n_n 128 rfl rfl).symm]
  refine Finset.sum_congr rfl fun k _ => ?_
  have hk := contrEquiv1_symm_val dot_S16000x128_S128x128_S16000x128_1_0_0_1_n_n 128 rfl rfl k
  have el : dot_S16000x128_S128x128_S16000x128_1_0_0_1_n_n.lhsIdx (ix2 p q) ((contrEquiv1 dot_S16000x128_S128x128_S16000x128_1_0_0_1_n_n 128 rfl rfl).symm k) = ix2 p k := funext fun a => Fin.ext (by
    match a with
    | ⟨0, _⟩ => exact lhs1_0 _ _
    | ⟨1, _⟩ => exact (lhs1_1 _ _).trans hk)
  have er : dot_S16000x128_S128x128_S16000x128_1_0_0_1_n_n.rhsIdx (ix2 p q) ((contrEquiv1 dot_S16000x128_S128x128_S16000x128_1_0_0_1_n_n 128 rfl rfl).symm k) = ix2 k q := funext fun a => Fin.ext (by
    match a with
    | ⟨0, _⟩ => exact (rhs1_0 _ _).trans hk
    | ⟨1, _⟩ => exact rhs1_1 _ _)
  rw [el, er]
  rfl

/-! ## The tiles in the arrays -/

theorem zeroOff1 : (![0, 0] : Fin 2 → Nat) = fun _ => 0 := funext fun a => by fin_cases a <;> rfl

/-- The block indices at grid point `t`: the left operand's tile and the result's tile are the `t`-th row tile,
    the right operand's block is the whole array. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the left tile at point `t` is row `16000·t + p` of the edge-feature array. -/
theorem tileX1 (c : Dev nD) (t : Fin cfg1.N) (p : Fin 16000) (k : Fin 128) (r : Fin 800000) (hr : r.val = 16000 * t.val + p.val) :
    (iblk1 V c 0 t : S16000x128.Idx → EReal) (ix2 p k) = (V c main_arg1 : S800000x128.Idx → EReal) (ix2 r k) := by
  obtain ⟨e0, e1, -⟩ := blockIdx1 t
  unfold iblk1
  rw [View.read_apply]
  show V c main_arg1 _ = V c main_arg1 _
  congr 1
  funext a
  apply Fin.ext
  match a with
  | ⟨0, _⟩ => show win1_0.index t (0 : Fin 2) * 16000 + 1 * p.val = r.val; rw [e0, hr]; omega
  | ⟨1, _⟩ => show win1_0.index t (1 : Fin 2) * 128 + 1 * k.val = k.val; rw [e1]; omega

/-- The right block at every point is the whole weight array. -/
theorem tileW1 (c : Dev nD) (t : Fin cfg1.N) (k : Fin 128) (q q' : Fin 128) (hq : q'.val = q.val) :
    (iblk1 V c 1 t : S128x128.Idx → EReal) (ix2 k q) = (V c main_v10 : S128x128.Idx → EReal) (ix2 k q') := by
  obtain ⟨-, -, e2, e3, -⟩ := blockIdx1 t
  unfold iblk1
  rw [View.read_apply]
  show V c main_v10 _ = V c main_v10 _
  congr 1
  funext a
  apply Fin.ext
  match a with
  | ⟨0, _⟩ => show win1_1.index t (0 : Fin 2) * 128 + 1 * k.val = k.val; rw [e2]; omega
  | ⟨1, _⟩ => show win1_1.index t (1 : Fin 2) * 128 + 1 * q.val = q'.val; rw [e3, hq]; omega

/-- The full product: entry `i` is the inner product of row `i 0` of `A` with column `i 1` of `W`. -/
def prod1 (A : S800000x128.Idx → EReal) (W : S128x128.Idx → EReal) : S800000x128.Idx → EReal := fun i =>
  ∑ k : Fin 128, A (ix2 (⟨(i 0).val, (i 0).isLt⟩ : Fin 800000) k) * W (ix2 k (⟨(i 1).val, (i 1).isLt⟩ : Fin 128))

/-- Entry (`p`, `q`) of the tile computed at point `t` is the full product's entry at row `16000·t + p`, column `q`. -/
theorem tile1 (c : Dev nD) (t : Fin cfg1.N) (p : Fin 16000) (q : Fin 128) (i : S800000x128.Idx)
    (h0 : (i 0).val = 16000 * t.val + p.val) (h1 : (i 1).val = q.val) :
    (k1_pay1 (iblk1 V c 0 t) (iblk1 V c 1 t) : S16000x128.Idx → EReal) (ix2 p q) = prod1 (V c main_arg1) (V c main_v10) i := by
  rw [pay1_apply]
  show ∑ k : Fin 128, _ = ∑ k : Fin 128, _
  refine Finset.sum_congr rfl fun k _ => ?_
  exact congrArg₂ (· * ·) (tileX1 V c t p k ⟨(i 0).val, (i 0).isLt⟩ h0) (tileW1 V c t k q ⟨(i 1).val, (i 1).isLt⟩ h1)

/-- What point `t` writes back is its block of the full product. -/
theorem flushed1 (c : Dev nD) (t : Fin cfg1.N) :
    (dat1 V c).flushed 2 t = ((cfg1.win 2).blk t).view.read (Elt Ideal) (prod1 (V c main_arg1) (V c main_v10)) := by
  show (cfg1.win 2).cut (grid1.coords t) ((dat1 V c).after 2 t) = _
  rw [after1_2]
  unfold out1_2
  rw [View.canon_unit_zero zeroOff1]
  simp only [View.ld_unit_zero (S := S16000x128) zeroOff1, View.ld_unit_zero (S := S128x128) zeroOff1]
  obtain ⟨-, -, -, -, e4, e5⟩ := blockIdx1 t
  refine funext fun (j : S16000x128.Idx) => ?_
  obtain ⟨p, q, rfl⟩ : ∃ (p : Fin 16000) (q : Fin 128), j = ix2 p q := ⟨j 0, j 1, eq_ix2 j⟩
  show (k1_pay1 (iblk1 V c 0 t) (iblk1 V c 1 t) : S16000x128.Idx → EReal) (ix2 p q)
    = prod1 (V c main_arg1) (V c main_v10) (((cfg1.win 2).blk t).view.emb (ix2 p q))
  refine tile1 V c t p q _ ?_ ?_
  · show win1_2.index t (0 : Fin 2) * 16000 + 1 * p.val = 16000 * t.val + p.val; rw [e4]; omega
  · show win1_2.index t (1 : Fin 2) * 128 + 1 * q.val = q.val; rw [e5]; omega

/-- An index of the result lies in point `t`'s block iff each coordinate is in the block's range on its axis. -/
theorem mem_blk1 (t : Fin cfg1.N) (i : S800000x128.Idx) :
    i ∈ ((cfg1.win 2).blk t).view.set ↔ ∀ a : Fin 2, win1_2.index t a * S16000x128.size a ≤ (i a).val ∧ (i a).val < win1_2.index t a * S16000x128.size a + S16000x128.size a := by
  show i ∈ ((View.whole main_v11).slice (win1_2.rect t)).set ↔ _
  rw [View.set_slice_whole, Rect.mem_set_unit]
  exact Iff.rfl

/-- The row tiles partition the rows: row `r` belongs to point `r / 16000`. -/
theorem cover1 (i : S800000x128.Idx) : ∃ t : Fin cfg1.N, (cfg1.win 2).flush t = true ∧ i ∈ ((cfg1.win 2).blk t).view.set := by
  have hi0 : (i 0).val < 800000 := (i 0).isLt
  have hi1 : (i 1).val < 128 := (i 1).isLt
  have hN : cfg1.N = 50 := N_1
  obtain ⟨t, ht⟩ : ∃ t : Fin cfg1.N, t.val = (i 0).val / 16000 := ⟨⟨(i 0).val / 16000, by rw [hN]; omega⟩, rfl⟩
  obtain ⟨-, -, -, -, e4, e5⟩ := blockIdx1 t
  refine ⟨t, flush1_2 t, ?_⟩
  rw [mem_blk1]
  intro a
  match a with
  | ⟨0, _⟩ => show win1_2.index t (0 : Fin 2) * 16000 ≤ (i 0).val ∧ (i 0).val < win1_2.index t (0 : Fin 2) * 16000 + 16000; rw [e4, ht]; omega
  | ⟨1, _⟩ => show win1_2.index t (1 : Fin 2) * 128 ≤ (i 1).val ∧ (i 1).val < win1_2.index t (1 : Fin 2) * 128 + 128; rw [e5]; omega

/-- After the launch the result array holds the full product of the two arrays as the launch found them. -/
theorem arr1_eq (c : Dev nD) : (dat1 V c).arrAt 2 cfg1.N = prod1 (V c main_arg1) (V c main_v10) :=
  (dat1 V c).arrAt_eq_of_cover 2 (prod1 (V c main_arg1) (V c main_v10)) (fun t _ => flushed1 V c t) cover1

/-- The full product at row `i`, column `j`. -/
theorem prod1_apply (A : S800000x128.Idx → EReal) (W : S128x128.Idx → EReal) (i : Fin 800000) (j : Fin 128) :
    prod1 A W (ix2 i j) = ∑ k : Fin 128, A (ix2 i k) * W (ix2 k j) := rfl

/-- Entry (`i`, `j`) of the result after the launch: ∑ₖ x(i, k) · w(k, j). -/
theorem arr1_apply (c : Dev nD) (i : Fin 800000) (j : Fin 128) :
    (show S800000x128.Idx → EReal from (dat1 (F := Ideal) V c).arrAt 2 cfg1.N) (ix2 i j)
      = ∑ k : Fin 128, (show S800000x128.Idx → EReal from V c main_arg1) (ix2 i k) * (show S128x128.Idx → EReal from V c main_v10) (ix2 k j) :=
  (congrFun (arr1_eq V c) (ix2 i j)).trans rfl

end Cert.KernelIdeal.Val

end
-- ==== Proof.Val.Proj.lean ====
/-
  The five projections in terms of the program's arguments. The first host stretch transposes the four
  128 × 128 node weights and lays the transposes side by side in a 128 × 512 block; the first launch
  multiplies the node features by that block; the second host stretch cuts the 50000 × 512 product into
  its four column blocks of 128 and transposes the edge weight; the second launch multiplies the edge
  features by it. Column 128·q + j of the side-by-side block is column j of the q-th transpose, that is
  row j of the q-th weight, so column block q of the product is h · W_qᵀ: entry (i, j) is
  ∑ₖ h(i, k) · W_q(j, k). Likewise the edge projection is e · W_Eᵀ.
-/
import proofs.«111111_j10943576670413_1_alg».proof.Proof.KI.RunA
import proofs.«111111_j10943576670413_1_alg».proof.Proof.Val.R0
import proofs.«111111_j10943576670413_1_alg».proof.Proof.Val.R1
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

variable (m : (ℓ : Loc nD τ sig) → Buf (Elt Ideal) ℓ) (ρ : Dev nD → PrngReg)

/-! ## Rows against rows -/

/-- `A · Wᵀ` for the node features: entry (i, j) is the inner product of row i of `A` with row j of `W`. -/
def lin (A : S50000x128.Idx → EReal) (W : S128x128.Idx → EReal) : S50000x128.Idx → EReal := fun i =>
  ∑ k : Fin 128, A (ix2 (⟨(i 0).val, (i 0).isLt⟩ : Fin 50000) k) * W (ix2 (⟨(i 1).val, (i 1).isLt⟩ : Fin 128) k)
theorem lin_apply (A : S50000x128.Idx → EReal) (W : S128x128.Idx → EReal) (i : Fin 50000) (j : Fin 128) :
    lin A W (ix2 i j) = ∑ k : Fin 128, A (ix2 i k) * W (ix2 j k) := rfl

/-- `A · Wᵀ` for the edge features. -/
def line (A : S800000x128.Idx → EReal) (W : S128x128.Idx → EReal) : S800000x128.Idx → EReal := fun i =>
  ∑ k : Fin 128, A (ix2 (⟨(i 0).val, (i 0).isLt⟩ : Fin 800000) k) * W (ix2 (⟨(i 1).val, (i 1).isLt⟩ : Fin 128) k)
theorem line_apply (A : S800000x128.Idx → EReal) (W : S128x128.Idx → EReal) (i : Fin 800000) (j : Fin 128) :
    line A W (ix2 i j) = ∑ k : Fin 128, A (ix2 i k) * W (ix2 j k) := rfl

namespace Proj

/-! ## The four transposed weights side by side -/

/-- The 128 × 512 block: the transposes of four 128 × 128 matrices laid along the columns. -/
def wcat (WA WB WC WD : S128x128.Idx → EReal) : S128x512.Idx → EReal :=
  concatenate S128x512 1 [⟨S128x128, transpose S128x128 [1, 0] WA transposes_S128x128_S128x128_1_0⟩,
    ⟨S128x128, transpose S128x128 [1, 0] WB transposes_S128x128_S128x128_1_0⟩,
    ⟨S128x128, transpose S128x128 [1, 0] WC transposes_S128x128_S128x128_1_0⟩,
    ⟨S128x128, transpose S128x128 [1, 0] WD transposes_S128x128_S128x128_1_0⟩] concatenates_S128x128_S128x128_S128x128_S128x128_S128x512_d1

/-- Column `0 + j` of the block is column `j` of the first piece, which is row `j` of the first matrix. -/
theorem wcat_apply_0 (WA WB WC WD : S128x128.Idx → EReal) (k j : Fin 128) (j' : Fin 512) (hj : j'.val = 0 + j.val) :
    wcat WA WB WC WD (ix2 k j') = WA (ix2 j k) := by
  unfold wcat
  refine (concatenate_apply_piece (1 : Fin S128x512.rank) _ _ (ix2 k j') 0 (by simp) S128x128 _ rfl rfl 0 rfl (ix2 k j) ?_ ?_).trans ?_
  · intro b hb
    match b with
    | ⟨0, _⟩ => rfl
    | ⟨1, _⟩ => exact absurd rfl hb
  · exact hj.symm
  · exact transpose_ix2_apply WA _ k j

/-- Column `128 + j` of the block is column `j` of the second piece, which is row `j` of the second matrix. -/
theorem wcat_apply_1 (WA WB WC WD : S128x128.Idx → EReal) (k j : Fin 128) (j' : Fin 512) (hj : j'.val = 128 + j.val) :
    wcat WA WB WC WD (ix2 k j') = WB (ix2 j k) := by
  unfold wcat
  refine (concatenate_apply_piece (1 : Fin S128x512.rank) _ _ (ix2 k j') 1 (by simp) S128x128 _ rfl rfl 128 rfl (ix2 k j) ?_ ?_).trans ?_
  · intro b hb
    match b with
    | ⟨0, _⟩ => rfl
    | ⟨1, _⟩ => exact absurd rfl hb
  · exact hj.symm
  · exact transpose_ix2_apply WB _ k j

/-- Column `256 + j` of the block is column `j` of the third piece, which is row `j` of the third matrix. -/
theorem wcat_apply_2 (WA WB WC WD : S128x128.Idx → EReal) (k j : Fin 128) (j' : Fin 512) (hj : j'.val = 256 + j.val) :
    wcat WA WB WC WD (ix2 k j') = WC (ix2 j k) := by
  unfold wcat
  refine (concatenate_apply_piece (1 : Fin S128x512.rank) _ _ (ix2 k j') 2 (by simp) S128x128 _ rfl rfl 256 rfl (ix2 k j) ?_ ?_).trans ?_
  · intro b hb
    match b with
    | ⟨0, _⟩ => rfl
    | ⟨1, _⟩ => exact absurd rfl hb
  · exact hj.symm
  · exact transpose_ix2_apply WC _ k j

/-- Column `384 + j` of the block is column `j` of the fourth piece, which is row `j` of the fourth matrix. -/
theorem wcat_apply_3 (WA WB WC WD : S128x128.Idx → EReal) (k j : Fin 128) (j' : Fin 512) (hj : j'.val = 384 + j.val) :
    wcat WA WB WC WD (ix2 k j') = WD (ix2 j k) := by
  unfold wcat
  refine (concatenate_apply_piece (1 : Fin S128x512.rank) _ _ (ix2 k j') 3 (by simp) S128x128 _ rfl rfl 384 rfl (ix2 k j) ?_ ?_).trans ?_
  · intro b hb
    match b with
    | ⟨0, _⟩ => rfl
    | ⟨1, _⟩ => exact absurd rfl hb
  · exact hj.symm
  · exact transpose_ix2_apply WD _ k j

/-! ## A column block of the product -/

/-- Columns 0 … 127 of `A` times the block are `A` against the rows of the first matrix. -/
theorem slice_prod_0 (A : S50000x128.Idx → EReal) (WA WB WC WD : S128x128.Idx → EReal) :
    extractStridedSlice S50000x128 ![0, 0] (prod0 A (wcat WA WB WC WD)) slices_S50000x512_S50000x128_0_0 = lin A WA := by
  funext x
  obtain ⟨i, j, rfl⟩ : ∃ (i : Fin 50000) (j : Fin 128), x = ix2 i j := ⟨x 0, x 1, eq_ix2 x⟩
  refine (slice2_axis1_apply 0 _ _ i j ⟨0 + j.val, by omega⟩ rfl).trans ?_
  refine (prod0_apply _ _ i _).trans ?_
  refine (Finset.sum_congr rfl fun k _ => ?_).trans (lin_apply A WA i j).symm
  exact congrArg (A (ix2 i k) * ·) (wcat_apply_0 WA WB WC WD k j _ rfl)

/-- Columns 128 … 255 of `A` times the block are `A` against the rows of the second matrix. -/
theorem slice_prod_1 (A : S50000x128.Idx → EReal) (WA WB WC WD : S128x128.Idx → EReal) :
    extractStridedSlice S50000x128 ![0, 128] (prod0 A (wcat WA WB WC WD)) slices_S50000x512_S50000x128_0_128 = lin A WB := by
  funext x
  obtain ⟨i, j, rfl⟩ : ∃ (i : Fin 50000) (j : Fin 128), x = ix2 i j := ⟨x 0, x 1, eq_ix2 x⟩
  refine (slice2_axis1_apply 128 _ _ i j ⟨128 + j.val, by omega⟩ rfl).trans ?_
  refine (prod0_apply _ _ i _).trans ?_
  refine (Finset.sum_congr rfl fun k _ => ?_).trans (lin_apply A WB i j).symm
  exact congrArg (A (ix2 i k) * ·) (wcat_apply_1 WA WB WC WD k j _ rfl)

/-- Columns 256 … 383 of `A` times the block are `A` against the rows of the third matrix. -/
theorem slice_prod_2 (A : S50000x128.Idx → EReal) (WA WB WC WD : S128x128.Idx → EReal) :
    extractStridedSlice S50000x128 ![0, 256] (prod0 A (wcat WA WB WC WD)) slices_S50000x512_S50000x128_0_256 = lin A WC := by
  funext x
  obtain ⟨i, j, rfl⟩ : ∃ (i : Fin 50000) (j : Fin 128), x = ix2 i j := ⟨x 0, x 1, eq_ix2 x⟩
  refine (slice2_axis1_apply 256 _ _ i j ⟨256 + j.val, by omega⟩ rfl).trans ?_
  refine (prod0_apply _ _ i _).trans ?_
  refine (Finset.sum_congr rfl fun k _ => ?_).trans (lin_apply A WC i j).symm
  exact congrArg (A (ix2 i k) * ·) (wcat_apply_2 WA WB WC WD k j _ rfl)

/-- Columns 384 … 511 of `A` times the block are `A` against the rows of the fourth matrix. -/
theorem slice_prod_3 (A : S50000x128.Idx → EReal) (WA WB WC WD : S128x128.Idx → EReal) :
    extractStridedSlice S50000x128 ![0, 384] (prod0 A (wcat WA WB WC WD)) slices_S50000x512_S50000x128_0_384 = lin A WD := by
  funext x
  obtain ⟨i, j, rfl⟩ : ∃ (i : Fin 50000) (j : Fin 128), x = ix2 i j := ⟨x 0, x 1, eq_ix2 x⟩
  refine (slice2_axis1_apply 384 _ _ i j ⟨384 + j.val, by omega⟩ rfl).trans ?_
  refine (prod0_apply _ _ i _).trans ?_
  refine (Finset.sum_congr rfl fun k _ => ?_).trans (lin_apply A WD i j).symm
  exact congrArg (A (ix2 i k) * ·) (wcat_apply_3 WA WB WC WD k j _ rfl)

/-- `A` times the transpose of `W` is `A` against the rows of `W`. -/
theorem prod1_transpose (A : S800000x128.Idx → EReal) (W : S128x128.Idx → EReal) :
    prod1 A (transpose S128x128 [1, 0] W transposes_S128x128_S128x128_1_0) = line A W := by
  funext x
  obtain ⟨i, j, rfl⟩ : ∃ (i : Fin 800000) (j : Fin 128), x = ix2 i j := ⟨x 0, x 1, eq_ix2 x⟩
  refine (prod1_apply _ _ i j).trans ?_
  refine (Finset.sum_congr rfl fun k _ => ?_).trans (line_apply A W i j).symm
  exact congrArg (A (ix2 i k) * ·) (transpose_ix2_apply W _ k j)

/-! ## The buffers at the boundaries -/

/-- The first host stretch writes no argument: the node features are as at launch. -/
theorem W1_arg0 (c : Dev nD) : W1 m ρ c (Proc.devRef .tc main_arg0) = m ((c.tc : Thread nD τ).loc main_arg0) := by
  show StableHlo.after hostOps0 (W0 m ρ c) (Proc.devRef .tc main_arg0) = _
  after_results

/-- The first host stretch leaves the four transposed weights side by side in the 128 × 512 block. -/
theorem W1_v4 (c : Dev nD) : W1 m ρ c (Proc.devRef .tc main_v4)
    = wcat (m ((c.tc : Thread nD τ).loc main_arg2)) (m ((c.tc : Thread nD τ).loc main_arg3)) (m ((c.tc : Thread nD τ).loc main_arg4)) (m ((c.tc : Thread nD τ).loc main_arg5)) := by
  show StableHlo.after hostOps0 (W0 m ρ c) (Proc.devRef .tc main_v4) = _
  after_results
  dsimp only [Matrix.cons_val]
  rfl

/-- After the node projection its result is the product of the node features with that block. -/
theorem W2_v5 (c : Dev nD) : W2 m ρ c (Proc.devRef .tc main_v5)
    = prod0 (m ((c.tc : Thread nD τ).loc main_arg0)) (wcat (m ((c.tc : Thread nD τ).loc main_arg2)) (m ((c.tc : Thread nD τ).loc main_arg3)) (m ((c.tc : Thread nD τ).loc main_arg4)) (m ((c.tc : Thread nD τ).loc main_arg5))) := by
  refine (W2_arr m ρ c 2).trans ?_
  refine (arr0_eq (V1 m ρ) c).trans ?_
  show prod0 (W1 m ρ c (Proc.devRef .tc main_arg0)) (W1 m ρ c (Proc.devRef .tc main_v4)) = _
  rw [W1_arg0, W1_v4]

/-- The second host stretch cuts columns 0 … 127 out of the product. -/
theorem W3_v6 (c : Dev nD) : W3 m ρ c (Proc.devRef .tc main_v6)
    = extractStridedSlice S50000x128 ![0, 0] (W2 m ρ c (Proc.devRef .tc main_v5)) slices_S50000x512_S50000x128_0_0 := by
  show StableHlo.after hostOps1 (W2 m ρ c) (Proc.devRef .tc main_v6) = _
  after_results

/-- The second host stretch cuts columns 128 … 255 out of the product. -/
theorem W3_v7 (c : Dev nD) : W3 m ρ c (Proc.devRef .tc main_v7)
    = extractStridedSlice S50000x128 ![0, 128] (W2 m ρ c (Proc.devRef .tc main_v5)) slices_S50000x512_S50000x128_0_128 := by
  show StableHlo.after hostOps1 (W2 m ρ c) (Proc.devRef .tc main_v7) = _
  after_results

/-- The second host stretch cuts columns 256 … 383 out of the product. -/
theorem W3_v8 (c : Dev nD) : W3 m ρ c (Proc.devRef .tc main_v8)
    = extractStridedSlice S50000x128 ![0, 256] (W2 m ρ c (Proc.devRef .tc main_v5)) slices_S50000x512_S50000x128_0_256 := by
  show StableHlo.after hostOps1 (W2 m ρ c) (Proc.devRef .tc main_v8) = _
  after_results

/-- The second host stretch cuts columns 384 … 511 out of the product. -/
theorem W3_v9 (c : Dev nD) : W3 m ρ c (Proc.devRef .tc main_v9)
    = extractStridedSlice S50000x128 ![0, 384] (W2 m ρ c (Proc.devRef .tc main_v5)) slices_S50000x512_S50000x128_0_384 := by
  show StableHlo.after hostOps1 (W2 m ρ c) (Proc.devRef .tc main_v9) = _
  after_results

/-- Neither host stretch nor the node projection writes the edge features. -/
theorem W3_arg1 (c : Dev nD) : W3 m ρ c (Proc.devRef .tc main_arg1) = m ((c.tc : Thread nD τ).loc main_arg1) := by
  have h1 : W3 m ρ c (Proc.devRef .tc main_arg1) = W2 m ρ c (Proc.devRef .tc main_arg1) := by
    show StableHlo.after hostOps1 (W2 m ρ c) (Proc.devRef .tc main_arg1) = _
    after_results
  have h3 : W1 m ρ c (Proc.devRef .tc main_arg1) = m ((c.tc : Thread nD τ).loc main_arg1) := by
    show StableHlo.after hostOps0 (W0 m ρ c) (Proc.devRef .tc main_arg1) = _
    after_results
  exact h1.trans ((W2_of_ne m ρ c main_arg1 (by decide)).trans h3)

/-- The second host stretch transposes the edge weight, itself as at launch. -/
theorem W3_v10 (c : Dev nD) : W3 m ρ c (Proc.devRef .tc main_v10)
    = transpose S128x128 [1, 0] (m ((c.tc : Thread nD τ).loc main_arg6)) transposes_S128x128_S128x128_1_0 := by
  have h1 : W3 m ρ c (Proc.devRef .tc main_v10) = transpose S128x128 [1, 0] (W2 m ρ c (Proc.devRef .tc main_arg6)) transposes_S128x128_S128x128_1_0 := by
    show StableHlo.after hostOps1 (W2 m ρ c) (Proc.devRef .tc main_v10) = _
    after_results
  have h3 : W1 m ρ c (Proc.devRef .tc main_arg6) = m ((c.tc : Thread nD τ).loc main_arg6) := by
    show StableHlo.after hostOps0 (W0 m ρ c) (Proc.devRef .tc main_arg6) = _
    after_results
  rw [h1, W2_of_ne m ρ c main_arg6 (by decide), h3]

end Proj

/-! ## The projections -/

/-- Column block 0 of the product is the node features against the rows of the first weight. -/
theorem kAh_eq (c : Dev nD) : W3 m ρ c main_v6 = lin (m ((c.tc : Thread nD τ).loc main_arg0)) (m ((c.tc : Thread nD τ).loc main_arg2)) := by
  refine (Proj.W3_v6 m ρ c).trans ?_
  rw [Proj.W2_v5]
  exact Proj.slice_prod_0 _ _ _ _ _

/-- Column block 1 of the product is the node features against the rows of the second weight. -/
theorem kBh_eq (c : Dev nD) : W3 m ρ c main_v7 = lin (m ((c.tc : Thread nD τ).loc main_arg0)) (m ((c.tc : Thread nD τ).loc main_arg3)) := by
  refine (Proj.W3_v7 m ρ c).trans ?_
  rw [Proj.W2_v5]
  exact Proj.slice_prod_1 _ _ _ _ _

/-- Column block 2 of the product is the node features against the rows of the third weight. -/
theorem kCh_eq (c : Dev nD) : W3 m ρ c main_v8 = lin (m ((c.tc : Thread nD τ).loc main_arg0)) (m ((c.tc : Thread nD τ).loc main_arg4)) := by
  refine (Proj.W3_v8 m ρ c).trans ?_
  rw [Proj.W2_v5]
  exact Proj.slice_prod_2 _ _ _ _ _

/-- Column block 3 of the product is the node features against the rows of the fourth weight. -/
theorem kDh_eq (c : Dev nD) : W3 m ρ c main_v9 = lin (m ((c.tc : Thread nD τ).loc main_arg0)) (m ((c.tc : Thread nD τ).loc main_arg5)) := by
  refine (Proj.W3_v9 m ρ c).trans ?_
  rw [Proj.W2_v5]
  exact Proj.slice_prod_3 _ _ _ _ _

/-- The edge projection's result is the edge features against the rows of the edge weight. -/
theorem ken_eq (c : Dev nD) : W4 m ρ c main_v11 = line (m ((c.tc : Thread nD τ).loc main_arg1)) (m ((c.tc : Thread nD τ).loc main_arg6)) := by
  refine (W4_arr m ρ c 2).trans ?_
  refine (arr1_eq (V3 m ρ) c).trans ?_
  show prod1 (W3 m ρ c (Proc.devRef .tc main_arg1)) (W3 m ρ c (Proc.devRef .tc main_v10)) = _
  rw [Proj.W3_arg1, Proj.W3_v10]
  exact Proj.prod1_transpose _ _

end Cert.KernelIdeal.Val

end
-- ==== Proof.Val.R2.lean ====
/-
  The gated message, third launch, read as values: after its 160 points the result array holds, at
  every index, ch * logistic((a + b) + en) of the four argument arrays at that index.
  Each point writes back the tile of that one function which its block covers (the four input tiles
  sit over the same rows as the output tile), and the 160 tiles of 5000 rows cover the 800000 rows.
-/
import proofs.«111111_j10943576670413_1_alg».proof.Proof.KI.Reg2
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The whole-tile rectangle starts at the origin. -/
theorem origin2 : (![0, 0] : Fin 2 → Nat) = fun _ => 0 := funext fun a => by fin_cases a <;> rfl

/-- The gate on four extended reals: the message `ch` scaled by the logistic of `(a + b) + en`. -/
def gateAt (a b ch en : EReal) : EReal := ch * Ideal.logistic ((a + b) + en)

/-- The gated message of four arrays, index by index. -/
def gate2 (a b ch en : S800000x128.Idx → EReal) : S800000x128.Idx → EReal :=
  fun i => gateAt (a i) (b i) (ch i) (en i)

theorem gate2_apply (a b ch en : S800000x128.Idx → EReal) (i : S800000x128.Idx) :
    gate2 a b ch en i = ch i * Ideal.logistic ((a i + b i) + en i) := rfl

/-- The body's payload is that tree of pointwise operations of its four loaded tiles (the reshapes are identities). -/
theorem pay2_eq (v0 v2 v5 v9 : Vec Ideal S5000x128 .f32) :
    k2_pay1 v0 v2 v5 v9 = mulf v9 (logistic (addf (addf v0 v2) v5)) := by
  unfold k2_pay1
  simp only [shapeCast_self]

/-- The payload at an index of the tile. -/
theorem pay2_apply (v0 v2 v5 v9 : Vec Ideal S5000x128 .f32) (i : Fin 5000) (j : Fin 128) :
    k2_pay1 v0 v2 v5 v9 (ix2 i j) = gateAt (v0 (ix2 i j)) (v2 (ix2 i j)) (v9 (ix2 i j)) (v5 (ix2 i j)) := by
  rw [pay2_eq]; rfl

/-- The four input tiles sit at the output tile's block index, at every point. -/
theorem same_tile2 (t : Fin cfg2.N) : win2_0.index t = win2_4.index t ∧ win2_1.index t = win2_4.index t
    ∧ win2_2.index t = win2_4.index t ∧ win2_3.index t = win2_4.index t := ⟨rfl, rfl, rfl, rfl⟩

/-- The output's block index at point `t`: tile `t` of the rows, the one tile of the lanes. -/
theorem idx_at2 : ∀ t : Fin cfg2.N, win2_4.index t (0 : Fin 2) = t.val ∧ win2_4.index t (1 : Fin 2) = 0 :=
  (by decide +kernel : ∀ t : Fin grid2.N, win2_4.index t (0 : Fin 2) = t.val ∧ win2_4.index t (1 : Fin 2) = 0)

/-- WHAT POINT `t` WRITES BACK is tile `t` of the gated message of the four argument arrays. -/
theorem flushed2_eq (c : Dev nD) (t : Fin cfg2.N) :
    (dat2 (F := Ideal) V c).flushed 4 t
      = ((cfg2.win 4).blk t).view.read (Elt Ideal) (gate2 (V c main_v18) (V c main_v25) (V c main_v32) (V c main_v11)) := by
  show (cfg2.win 4).cut (grid2.coords t) ((dat2 (F := Ideal) V c).after 4 t) = _
  rw [after2_4]
  unfold out2_4
  rw [View.canon_unit_zero origin2]
  simp only [View.ld_unit_zero (S := S5000x128) origin2]
  rw [pay2_eq]
  obtain ⟨e0, e1, e2, e3⟩ := same_tile2 t
  funext y
  show gateAt (V c main_v18 (((cfg2.win 0).blk t).view.emb y)) (V c main_v25 (((cfg2.win 1).blk t).view.emb y))
        (V c main_v32 (((cfg2.win 2).blk t).view.emb y)) (V c main_v11 (((cfg2.win 3).blk t).view.emb y))
      = gateAt (V c main_v18 (((cfg2.win 4).blk t).view.emb y)) (V c main_v25 (((cfg2.win 4).blk t).view.emb y))
        (V c main_v32 (((cfg2.win 4).blk t).view.emb y)) (V c main_v11 (((cfg2.win 4).blk t).view.emb y))
  have h0 : ((cfg2.win 0).blk t).view.emb y = ((cfg2.win 4).blk t).view.emb y := by
    funext a; apply Fin.ext
    show win2_0.index t a * S5000x128.size a + 1 * (y a).val = win2_4.index t a * S5000x128.size a + 1 * (y a).val
    rw [e0]
  have h1 : ((cfg2.win 1).blk t).view.emb y = ((cfg2.win 4).blk t).view.emb y := by
    funext a; apply Fin.ext
    show win2_1.index t a * S5000x128.size a + 1 * (y a).val = win2_4.index t a * S5000x128.size a + 1 * (y a).val
    rw [e1]
  have h2 : ((cfg2.win 2).blk t).view.emb y = ((cfg2.win 4).blk t).view.emb y := by
    funext a; apply Fin.ext
    show win2_2.index t a * S5000x128.size a + 1 * (y a).val = win2_4.index t a * S5000x128.size a + 1 * (y a).val
    rw [e2]
  have h3 : ((cfg2.win 3).blk t).view.emb y = ((cfg2.win 4).blk t).view.emb y := by
    funext a; apply Fin.ext
    show win2_3.index t a * S5000x128.size a + 1 * (y a).val = win2_4.index t a * S5000x128.size a + 1 * (y a).val
    rw [e3]
  rw [h0, h1, h2, h3]

/-- An index of the array is in point `t`'s tile iff each coordinate is in the tile's range on its axis. -/
theorem mem_blk2 (t : Fin cfg2.N) (i : S800000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v33).slice (win2_4.rect t)).set ↔ _
  rw [View.set_slice_whole, Rect.mem_set_unit]
  exact Iff.rfl

/-- Every index of the array is in some point's tile: row `r` is in tile `r / 5000`. -/
theorem cover2 (i : S800000x128.Idx) :
    ∃ t : Fin cfg2.N, (cfg2.win 4).flush t = true ∧ i ∈ ((cfg2.win 4).blk t).view.set := by
  have hi0 : (i 0).val < 800000 := (i 0).isLt
  have hi1 : (i 1).val < 128 := (i 1).isLt
  obtain ⟨t, ht⟩ : ∃ t : Fin cfg2.N, t.val = (i 0).val / 5000 :=
    ⟨⟨(i 0).val / 5000, by show _ < grid2.N; rw [N_2]; omega⟩, rfl⟩
  obtain ⟨q0, q1⟩ := idx_at2 t
  refine ⟨t, flush2_4 t, ?_⟩
  rw [mem_blk2]
  intro a
  match a with
  | ⟨0, _⟩ =>
    show win2_4.index t (0 : Fin 2) * 5000 ≤ (i 0).val ∧ (i 0).val < win2_4.index t (0 : Fin 2) * 5000 + 5000
    rw [q0, ht]; omega
  | ⟨1, _⟩ =>
    show win2_4.index t (1 : Fin 2) * 128 ≤ (i 1).val ∧ (i 1).val < win2_4.index t (1 : Fin 2) * 128 + 128
    rw [q1]; omega

/-- THE ARRAY after the launch: the gated message of the four argument arrays. -/
theorem arr2_eq (c : Dev nD) :
    (dat2 (F := Ideal) V c).arrAt 4 cfg2.N = gate2 (V c main_v18) (V c main_v25) (V c main_v32) (V c main_v11) :=
  (dat2 (F := Ideal) V c).arrAt_eq_of_cover 4 (gate2 (V c main_v18) (V c main_v25) (V c main_v32) (V c main_v11))
    (fun t _ => flushed2_eq V c t) cover2

/-- The result array at an index: ch * logistic((a + b) + en) there, for any names `a`, `b`, `ch`, `en` of
    the four argument arrays at their literal type. -/
theorem arr2_apply_of (c : Dev nD) (a b ch en : S800000x128.Idx → EReal)
    (ha : V c main_v18 = a) (hb : V c main_v25 = b) (hch : V c main_v32 = ch) (hen : V c main_v11 = en)
    (i : Fin 800000) (j : Fin 128) :
    ((dat2 (F := Ideal) V c).arrAt 4 cfg2.N : S800000x128.Idx → EReal) (ix2 i j)
      = ch (ix2 i j) * Ideal.logistic ((a (ix2 i j) + b (ix2 i j)) + en (ix2 i j)) := by
  subst ha; subst hb; subst hch; subst hen
  rw [arr2_eq]; rfl

/-- The result array at an index, over the argument arrays themselves. -/
theorem arr2_apply (c : Dev nD) (i : Fin 800000) (j : Fin 128) :
    ((dat2 (F := Ideal) V c).arrAt 4 cfg2.N : S800000x128.Idx → EReal) (ix2 i j)
      = gate2 (V c main_v18) (V c main_v25) (V c main_v32) (V c main_v11) (ix2 i j) := by
  rw [arr2_eq]

end Cert.KernelIdeal.Val

end
-- ==== Proof.Val.Gate.lean ====
/-
  The kernel's arrays up to the segment sum are the reference's, as whole arrays. The two programs normalise
  the edge endpoints by the same five integer operations on the same arguments; the kernel's four node
  projections and its edge projection are, entry by entry, the reference's products with the transposed
  weights; so the three gathers read equal tables at equal index columns, the gated message
  Ch[src] · logistic(Ah[src] + Bh[dst] + e·WEᵀ) is the same array, and the segment sum adds equal messages
  into the zero table at equal destination rows.
-/
import proofs.«111111_j10943576670413_1_alg».proof.Proof.KI.RunA
import proofs.«111111_j10943576670413_1_alg».proof.Proof.Val.Proj
import proofs.«111111_j10943576670413_1_alg».proof.Proof.Val.R2
import proofs.«111111_j10943576670413_1_alg».proof.Proof.Val.Ref
import proofs.«111111_j10943576670413_1_alg».proof.Proof.Val.Alg
import Idealize.ShloMosaic.Lib.StableHlo.Run
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem Idealize.ShloMosaic.StableHlo
open Idealize.ShloMosaic.Pipeline (Dat)
open scoped BigOperators

variable (m : (ℓ : Loc nD τ sig) → Buf (Elt Ideal) ℓ) (ρ : Dev nD → PrngReg)

/-! ## The program's arguments are never written -/

/-- The source index column as the launch found it is still there at the third stretch's entry: no host
    operation and no launch before it writes an argument of the program. -/
theorem arg9_W4 (c : Dev nD) : W4 m ρ c (Proc.devRef .tc main_arg9) = m ((c.tc : Thread nD τ).loc main_arg9) := by
  rw [W4_of_ne m ρ c main_arg9 (by decide)]
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results
/-- Likewise the destination index column. -/
theorem arg10_W4 (c : Dev nD) : W4 m ρ c (Proc.devRef .tc main_arg10) = m ((c.tc : Thread nD τ).loc main_arg10) := by
  rw [W4_of_ne m ρ c main_arg10 (by decide)]
  show StableHlo.after hostOps1 (W2 m ρ c) (Proc.devRef .tc main_arg10) = _
  after_results
  rw [W2_of_ne m ρ c main_arg10 (by decide)]
  show StableHlo.after hostOps0 (W0 m ρ c) (Proc.devRef .tc main_arg10) = _
  after_results
/-- And it is still there after the third stretch and the third launch. -/
theorem arg10_W6 (c : Dev nD) : W6 m ρ c (Proc.devRef .tc main_arg10) = m ((c.tc : Thread nD τ).loc main_arg10) := by
  rw [W6_of_ne m ρ c main_arg10 (by decide)]
  show StableHlo.after hostOps2 (W4 m ρ c) (Proc.devRef .tc main_arg10) = _
  after_results
  exact arg10_W4 m ρ c

/-! ## The normalised index columns -/

/-- The source index column, negative entries wrapped by the table's height, as a one-column matrix: the same
    five operations on the same argument as the reference's. -/
theorem kidx_src (c : Dev nD) :
    W5 m ρ c main_v17 = Cert.ReferenceIdeal.Read.val_main_v13 (F := Ideal) (m ((c.tc : Thread nD τ).loc main_arg9)) := by
  show StableHlo.after hostOps2 (W4 m ρ c) (Proc.devRef .tc main_v17) = _
  after_results
  rw [arg9_W4]
  rfl
/-- The destination index column likewise. -/
theorem kidx_dst (c : Dev nD) :
    W5 m ρ c main_v24 = Cert.ReferenceIdeal.Read.val_main_v20 (F := Ideal) (m ((c.tc : Thread nD τ).loc main_arg10)) := by
  show StableHlo.after hostOps2 (W4 m ρ c) (Proc.devRef .tc main_v24) = _
  after_results
  rw [arg10_W4]
  rfl
/-- The source index column once more, for the third gather. -/
theorem kidx_src' (c : Dev nD) :
    W5 m ρ c main_v31 = Cert.ReferenceIdeal.Read.val_main_v35 (F := Ideal) (m ((c.tc : Thread nD τ).loc main_arg9)) := by
  show StableHlo.after hostOps2 (W4 m ρ c) (Proc.devRef .tc main_v31) = _
  after_results
  rw [arg9_W4]
  rfl

/-! ## The projections are the reference's -/

/-- A node projection h·Wᵀ is the reference's product with the transposed weight, entry by entry. -/
theorem lin_v1 (A : S50000x128.Idx → EReal) (W : S128x128.Idx → EReal) :
    lin A W = Cert.ReferenceIdeal.Read.val_main_v1 (F := Ideal) A W := by
  funext i
  obtain ⟨a, b, rfl⟩ : ∃ (a : Fin 50000) (b : Fin 128), i = ix2 a b := ⟨i 0, i 1, eq_ix2 i⟩
  rw [lin_apply, Cert.ReferenceIdeal.RefValue.lin_apply_v1]
theorem lin_v3 (A : S50000x128.Idx → EReal) (W : S128x128.Idx → EReal) :
    lin A W = Cert.ReferenceIdeal.Read.val_main_v3 (F := Ideal) A W := by
  funext i
  obtain ⟨a, b, rfl⟩ : ∃ (a : Fin 50000) (b : Fin 128), i = ix2 a b := ⟨i 0, i 1, eq_ix2 i⟩
  rw [lin_apply, Cert.ReferenceIdeal.RefValue.lin_apply_v3]
theorem lin_v5 (A : S50000x128.Idx → EReal) (W : S128x128.Idx → EReal) :
    lin A W = Cert.ReferenceIdeal.Read.val_main_v5 (F := Ideal) A W := by
  funext i
  obtain ⟨a, b, rfl⟩ : ∃ (a : Fin 50000) (b : Fin 128), i = ix2 a b := ⟨i 0, i 1, eq_ix2 i⟩
  rw [lin_apply, Cert.ReferenceIdeal.RefValue.lin_apply_v5]
theorem lin_v42 (A : S50000x128.Idx → EReal) (W : S128x128.Idx → EReal) :
    lin A W = Cert.ReferenceIdeal.Read.val_main_v42 (F := Ideal) A W := by
  funext i
  obtain ⟨a, b, rfl⟩ : ∃ (a : Fin 50000) (b : Fin 128), i = ix2 a b := ⟨i 0, i 1, eq_ix2 i⟩
  rw [lin_apply, Cert.ReferenceIdeal.RefValue.lin_apply_v42]
/-- The edge projection e·WEᵀ likewise. -/
theorem line_v7 (A : S800000x128.Idx → EReal) (W : S128x128.Idx → EReal) :
    line A W = Cert.ReferenceIdeal.Read.val_main_v7 (F := Ideal) A W := by
  funext i
  obtain ⟨a, b, rfl⟩ : ∃ (a : Fin 800000) (b : Fin 128), i = ix2 a b := ⟨i 0, i 1, eq_ix2 i⟩
  rw [line_apply, Cert.ReferenceIdeal.RefValue.lin_apply_v7]

/-! ## The three gathers -/

/-- Ah[src]: the gather of the kernel's first projection is the reference's — equal tables, equal index columns. -/
theorem kA_eq (c : Dev nD) :
    W5 m ρ c main_v18 = Cert.ReferenceIdeal.Read.val_main_v14 (F := Ideal) (m ((c.tc : Thread nD τ).loc main_arg0))
      (m ((c.tc : Thread nD τ).loc main_arg2)) (m ((c.tc : Thread nD τ).loc main_arg9)) := by
  have h6 : W4 m ρ c (Proc.devRef .tc main_v6) = _ := (W4_of_ne m ρ c main_v6 (by decide)).trans ((kAh_eq m ρ c).trans (lin_v1 _ _))
  show StableHlo.after hostOps2 (W4 m ρ c) (Proc.devRef .tc main_v18) = _
  after_results
  rw [arg9_W4, h6]
  rfl

/-- Bh[dst]. -/
theorem kB_eq (c : Dev nD) :
    W5 m ρ c main_v25 = Cert.ReferenceIdeal.Read.val_main_v21 (F := Ideal) (m ((c.tc : Thread nD τ).loc main_arg0))
      (m ((c.tc : Thread nD τ).loc main_arg3)) (m ((c.tc : Thread nD τ).loc main_arg10)) := by
  have h7 : W4 m ρ c (Proc.devRef .tc main_v7) = _ := (W4_of_ne m ρ c main_v7 (by decide)).trans ((kBh_eq m ρ c).trans (lin_v3 _ _))
  show StableHlo.after hostOps2 (W4 m ρ c) (Proc.devRef .tc main_v25) = _
  after_results_simp
  rw [arg10_W4, h7]
  rfl
/-- Ch[src]. -/
theorem kC_eq (c : Dev nD) :
    W5 m ρ c main_v32 = Cert.ReferenceIdeal.Read.val_main_v36 (F := Ideal) (m ((c.tc : Thread nD τ).loc main_arg0))
      (m ((c.tc : Thread nD τ).loc main_arg4)) (m ((c.tc : Thread nD τ).loc main_arg9)) := by
  have h8 : W4 m ρ c (Proc.devRef .tc main_v8) = _ := (W4_of_ne m ρ c main_v8 (by decide)).trans ((kCh_eq m ρ c).trans (lin_v5 _ _))
  show StableHlo.after hostOps2 (W4 m ρ c) (Proc.devRef .tc main_v32) = _
  after_results_simp
  rw [arg9_W4, h8]
  rfl

/-! ## The edge projection, the gated message, the segment sum -/

/-- The edge projection is not written by the third stretch; it is the reference's. -/
theorem ken5_eq (c : Dev nD) :
    W5 m ρ c main_v11 = Cert.ReferenceIdeal.Read.val_main_v7 (F := Ideal) (m ((c.tc : Thread nD τ).loc main_arg1))
      (m ((c.tc : Thread nD τ).loc main_arg6)) := by
  show StableHlo.after hostOps2 (W4 m ρ c) (Proc.devRef .tc main_v11) = _
  after_results
  exact (ken_eq m ρ c).trans (line_v7 _ _)

/-- The gated message Ch[src] · logistic(Ah[src] + Bh[dst] + e·WEᵀ), all 800000 × 128 entries. -/
theorem kMM_eq (c : Dev nD) :
    W6 m ρ c main_v33 = Cert.ReferenceIdeal.Read.val_main_v37 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg6)) (m ((c.tc : Thread nD τ).loc main_arg9))
      (m ((c.tc : Thread nD τ).loc main_arg10)) := by
  have hA : V5 m ρ c main_v18 = _ := kA_eq m ρ c
  have hB : V5 m ρ c main_v25 = _ := kB_eq m ρ c
  have hC : V5 m ρ c main_v32 = _ := kC_eq m ρ c
  have hE : V5 m ρ c main_v11 = _ := ken5_eq m ρ c
  refine (W6_arr m ρ c 4).trans ?_
  rw [arr2_eq (V5 m ρ) c, hA, hB, hC, hE]
  funext i
  obtain ⟨e, j, rfl⟩ : ∃ (e : Fin 800000) (j : Fin 128), i = ix2 e j := ⟨i 0, i 1, eq_ix2 i⟩
  rw [gate2_apply, Cert.ReferenceIdeal.RefValue.v37_apply]

/-- The segment sum: the messages added into the zero table at their destination rows. The scatter is one
    function of its three operands on both sides; the operands are equal. -/
theorem kMsum_eq (c : Dev nD) :
    W7 m ρ c main_v36 = Cert.ReferenceIdeal.Read.val_main_v40 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg6)) (m ((c.tc : Thread nD τ).loc main_arg9))
      (m ((c.tc : Thread nD τ).loc main_arg10)) := by
  have hM : W6 m ρ c (Proc.devRef .tc main_v33) = _ := kMM_eq m ρ c
  show StableHlo.after hostOps3 (W6 m ρ c) (Proc.devRef .tc main_v36) = _
  after_results
  rw [arg10_W6, hM]
  rfl

/-- The fourth projection h·WDᵀ is written by the second stretch only; it is the reference's. -/
theorem kDh_keep (c : Dev nD) :
    W7 m ρ c main_v9 = Cert.ReferenceIdeal.Read.val_main_v42 (F := Ideal) (m ((c.tc : Thread nD τ).loc main_arg0))
      (m ((c.tc : Thread nD τ).loc main_arg5)) := by
  show StableHlo.after hostOps3 (W6 m ρ c) (Proc.devRef .tc main_v9) = _
  after_results
  rw [W6_of_ne m ρ c main_v9 (by decide)]
  show StableHlo.after hostOps2 (W4 m ρ c) (Proc.devRef .tc main_v9) = _
  after_results
  rw [W4_of_ne m ρ c main_v9 (by decide)]
  exact (kDh_eq m ρ c).trans (lin_v42 _ _)

end Cert.KernelIdeal.Val
end
-- ==== Proof.Val.Stats.lean ====
/-
  The statistics launch (the fourth) leaves the reference's pre-normalisation array and its column sums.
  The launch enters with h·WDᵀ in its first array and the summed gated messages in its second; its three
  results are their sum index by index, that sum's column sums, and the column sums of its squares. The
  sum of the two entry arrays is the reference's HN, so the results are HN, Σᵢ HN(i, j) and Σᵢ HN(i, j)².
-/
import proofs.«111111_j10943576670413_1_alg».proof.Proof.KI.Run
import proofs.«111111_j10943576670413_1_alg».proof.Proof.Val.R3
import proofs.«111111_j10943576670413_1_alg».proof.Proof.Val.Gate
import proofs.«111111_j10943576670413_1_alg».proof.Proof.Val.Ref
import Idealize.ShloMosaic.Lib.ValueIdx

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The launch's first result is the reference's pre-normalisation array HN: the launch enters with h·WDᵀ
    in its first array and the summed messages in its second, its first result is their sum index by
    index, and HN is that sum. -/
theorem kHpre_eq (c : Dev nD) :
    (W8 m ρ c main_v37_0 : S50000x128.Idx → EReal) = Cert.ReferenceIdeal.RefValue.HN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) := by
  rw [show W8 m ρ c main_v37_0 = (dat3 (F := Ideal) (V7 m ρ) c).arrAt 2 cfg3.N from W8_arr m ρ c 2, arr3_2_eq]
  funext z
  obtain ⟨i, j, rfl⟩ : ∃ (i : Fin 50000) (j : Fin 128), z = ix2 i j := ⟨z 0, z 1, eq_ix2 z⟩
  rw [hsum3_apply, Cert.ReferenceIdeal.RefValue.hn_apply, ← kDh_keep m ρ c, ← kMsum_eq m ρ c]

/-- The launch's second result, at column j, is the sum of column j of HN over the 50000 rows. -/
theorem kSum_apply (c : Dev nD) (j : Fin 128) :
    (W8 m ρ c main_v37_1 : S1x128.Idx → EReal) (ix2 0 j)
      = (∑ i : Fin 50000, Cert.ReferenceIdeal.RefValue.HN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (ix2 i j) : EReal) := by
  rw [show W8 m ρ c main_v37_1 = (dat3 (F := Ideal) (V7 m ρ) c).arrAt 3 cfg3.N from W8_arr m ρ c 3, arr3_3_eq,
    colsum3_apply]
  refine Finset.sum_congr (M := EReal) rfl fun i _ => ?_
  rw [Cert.ReferenceIdeal.RefValue.hn_apply, ← kDh_keep m ρ c, ← kMsum_eq m ρ c]

/-- The launch's third result, at column j, is the sum of the squares of column j of HN. -/
theorem kSq_apply (c : Dev nD) (j : Fin 128) :
    (W8 m ρ c main_v37_2 : S1x128.Idx → EReal) (ix2 0 j)
      = (∑ i : Fin 50000, Cert.ReferenceIdeal.RefValue.HN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (ix2 i j)
          * Cert.ReferenceIdeal.RefValue.HN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (ix2 i j) : EReal) := by
  rw [show W8 m ρ c main_v37_2 = (dat3 (F := Ideal) (V7 m ρ) c).arrAt 4 cfg3.N from W8_arr m ρ c 4, arr3_4_eq,
    colsq3_apply]
  refine Finset.sum_congr (M := EReal) rfl fun i _ => ?_
  rw [Cert.ReferenceIdeal.RefValue.hn_apply, ← kDh_keep m ρ c, ← kMsum_eq m ρ c]

end Cert.KernelIdeal.Val

end
-- ==== Proof.LibGS.lean ====
/-
  Three index-level readings of the host's gather and accumulating scatter, for the dimension numbers of a row
  lookup `table[idx]` and of the segment sums `zeros.at[idx].add(updates)` over rows and over scalars.

  * rows gather: entry `(e, k)` of the result is the table's entry `(r, k)`, `r` the start word of edge `e` read
    signed, negative words sent to row 0, clipped to the last row;
  * rows scatter-add: entry `(s, k)` of the result is the operand's entry plus the sum of the updates' entries
    `(e, k)` over the edges `e` whose start word, read signed and not clipped, is `s`;
  * vector scatter-add: the same with scalars in place of rows.

  Each is stated over the record given by its literal fields, with the well-formedness proof a variable, so that it
  applies to any program's record with those fields by unfolding the record's name.
-/
import Idealize.ShloMosaic.PureOps.Ideal
import Idealize.ShloMosaic.Lib.ValueIdx
import Idealize.ShloMosaic.Lib.ValueIdxRank1

noncomputable section

open scoped BigOperators

namespace Cert.LibGS

open Idealize.ShloMosaic Idealize.ShloMosaic.ValueIdx

/-! ## The records -/

/-- The scalar segment sum's dimension numbers: operand `[N]`, indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row segment sum's dimension numbers: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row lookup's dimension numbers: table `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-! ## When an update lands on an element -/

/-- An update lands on operand element `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i H
      intro a
      have h1 := congrFun (Option.some.inj h) a
      have h2 := congrArg Fin.val h1
      simp only at h2
      have := H a
      omega
    · exact absurd h (by simp)
  · intro h
    have H : ∀ a, 0 ≤ d.start j idx a + (d.window j a : ℤ) ∧ d.start j idx a + (d.window j a : ℤ) < s.size a := by
      intro a
      have := h a
      have := (i a).isLt
      omega
    rw [dif_pos H]
    congr 1
    funext a
    apply Fin.ext
    have := h a
    simp only
    omega

/-! ## The scalar segment sum -/

section Vec
variable {N E w : Nat} (wf : ScatterDims.WF ⟨1, ![N]⟩ ⟨2, ![E, 1]⟩ ⟨1, ![E]⟩ [] [0] [0] 1)

/-- Update `j` starts at the word `idx[j, 0]`, read signed. -/
theorem vec_start (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no window coordinate. -/
theorem vec_window (j : (⟨1, ![E]⟩ : Shape).Idx) : (vecScatterDims N E wf).window j 0 = 0 := by
  unfold ScatterDims.window
  rw [dif_neg]
  show (0 : Fin 1) ∉ (List.finRange 1).filter (fun a => a ∉ [(0 : Fin 1)])
  decide

/-- Update `j` lands on element `s` exactly when its start word, read signed, is `s`. -/
theorem vec_resultIdx?_iff (idx : IVec ⟨2, ![E, 1]⟩ w) (j : (⟨1, ![E]⟩ : Shape).Idx) (s : Fin N) :
    (vecScatterDims N E wf).resultIdx? j idx = some (ix1 s) ↔ (idx (ix2 (j 0) 0)).toInt = (s.val : ℤ) := by
  rw [resultIdx?_eq_some_iff]
  constructor
  · intro h
    have h0 := h 0
    rw [vec_start, vec_window] at h0
    have h1 : (idx (ix2 (j 0) 0)).toInt + ((0 : ℕ) : ℤ) = (s.val : ℤ) := h0
    simpa using h1
  · intro h a
    obtain rfl : a = 0 := Subsingleton.elim _ _
    rw [vec_start, vec_window]
    show (idx (ix2 (j 0) 0)).toInt + ((0 : ℕ) : ℤ) = (s.val : ℤ)
    simpa using h

end Vec

/-- THE SCALAR SEGMENT SUM READ AT `s`: the operand's entry plus the updates of the edges whose start word, read
    signed, is `s`. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (s : Fin N) :
    Ideal.hostScatterAdd (vecScatterDims N E wf) x idx upd (ix1 s)
      = x (ix1 s) + ∑ e ∈ Finset.univ.filter (fun e : Fin E => (idx (ix2 e 0)).toInt = (s.val : ℤ)), upd (ix1 e) := by
  unfold Ideal.hostScatterAdd
  congr 1
  rw [Finset.sum_filter, Finset.sum_filter, ← Equiv.sum_comp (idxEquiv1 (n := E)).symm]
  refine Finset.sum_congr rfl fun e _ => ?_
  exact if_congr (vec_resultIdx?_iff wf idx (ix1 e) s) rfl rfl

/-! ## The row segment sum -/

section Rows
variable {N E C w : Nat} (wf : ScatterDims.WF ⟨2, ![N, C]⟩ ⟨2, ![E, 1]⟩ ⟨2, ![E, C]⟩ [1] [0] [0] 1)

/-- On the row axis update `j` starts at the word `idx[j₀, 0]`, read signed … -/
theorem rows_start0 (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at `0`. -/
theorem rows_start1 (idx : IVec ⟨2, ![E, 1]⟩ w) (j : (⟨2, ![E, C]⟩ : Shape).Idx) :
    (rowScatterDims N E C wf).start j idx 1 = 0 := by
  unfold ScatterDims.start
  rw [dif_neg]
  show (1 : Fin 2) ∉ [(0 : Fin 2)]
  decide

/-- The row axis is inserted: no window coordinate there … -/
theorem rows_window0 (j : (⟨2, ![E, C]⟩ : Shape).Idx) : (rowScatterDims N E C wf).window j 0 = 0 := by
  unfold ScatterDims.window
  rw [dif_neg]
  show (0 : Fin 2) ∉ (List.finRange 2).filter (fun a => a ∉ [(0 : Fin 2)])
  decide

/-- … and the column axis carries the update's column. -/
theorem rows_window1 (j : (⟨2, ![E, C]⟩ : Shape).Idx) : (rowScatterDims N E C wf).window j 1 = (j 1).val := by
  unfold ScatterDims.window
  have hm : (1 : Fin 2) ∈ (rowScatterDims N E C wf).sKept := by
    show (1 : Fin 2) ∈ (List.finRange 2).filter (fun a => a ∉ [(0 : Fin 2)])
    decide
  rw [dif_pos hm]
  rfl

/-- Update `j` lands on element `(s, k)` exactly when its start word, read signed, is `s` and its column is `k`. -/
theorem rows_resultIdx?_iff (idx : IVec ⟨2, ![E, 1]⟩ w) (j : (⟨2, ![E, C]⟩ : Shape).Idx) (s : Fin N) (k : Fin C) :
    (rowScatterDims N E C wf).resultIdx? j idx = some (ix2 s k)
      ↔ (idx (ix2 (j 0) 0)).toInt = (s.val : ℤ) ∧ j 1 = k := by
  rw [resultIdx?_eq_some_iff]
  constructor
  · intro h
    have h0 := h 0
    have h1 := h 1
    rw [rows_start0, rows_window0] at h0
    rw [rows_start1, rows_window1] at h1
    have h0' : (idx (ix2 (j 0) 0)).toInt + ((0 : ℕ) : ℤ) = (s.val : ℤ) := h0
    have h1' : (0 : ℤ) + (((j 1).val : ℕ) : ℤ) = (k.val : ℤ) := h1
    refine ⟨by simpa using h0', Fin.ext ?_⟩
    omega
  · rintro ⟨h0, h1⟩ a
    match a with
    | ⟨0, _⟩ =>
      show (rowScatterDims N E C wf).start j idx 0 + (((rowScatterDims N E C wf).window j 0 : ℕ) : ℤ) = (s.val : ℤ)
      rw [rows_start0, rows_window0]
      simpa using h0
    | ⟨1, _⟩ =>
      show (rowScatterDims N E C wf).start j idx 1 + (((rowScatterDims N E C wf).window j 1 : ℕ) : ℤ) = (k.val : ℤ)
      rw [rows_start1, rows_window1, h1]
      simp

end Rows

/-- THE ROW SEGMENT SUM READ AT `(s, k)`: the operand's entry plus the updates' entries `(e, k)` of the edges whose
    start word, read signed, is `s`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (s : Fin N) (k : Fin C) :
    Ideal.hostScatterAdd (rowScatterDims N E C wf) x idx upd (ix2 s k)
      = x (ix2 s k)
        + ∑ e ∈ Finset.univ.filter (fun e : Fin E => (idx (ix2 e 0)).toInt = (s.val : ℤ)), upd (ix2 e k) := by
  unfold Ideal.hostScatterAdd
  congr 1
  rw [Finset.sum_filter, Finset.sum_filter, sum_idx2]
  refine Finset.sum_congr rfl fun e _ => ?_
  by_cases hP : (idx (ix2 e 0)).toInt = (s.val : ℤ)
  · rw [if_pos hP, Finset.sum_eq_single k]
    · exact if_pos ((rows_resultIdx?_iff wf idx (ix2 e k) s k).2 ⟨hP, rfl⟩)
    · intro b _ hb
      exact if_neg fun h => hb ((rows_resultIdx?_iff wf idx (ix2 e b) s k).1 h).2
    · intro h
      exact absurd (Finset.mem_univ k) h
  · rw [if_neg hP]
    exact Finset.sum_eq_zero fun b _ => if_neg fun h => hP ((rows_resultIdx?_iff wf idx (ix2 e b) s k).1 h).1

/-! ## The row lookup -/

/-- THE ROW LOOKUP READ AT `(e, k)`: the table's entry `(r, k)`, `r` the start word of `e` read signed, a negative
    word sent to `0`, clipped to the last row. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg]
      show (1 : Fin 2) ∉ [(0 : Fin 2)]
      decide
    have ho : (rowGatherDims N E C wf).offCoord (ix2 e k) 1 = k.val := by
      unfold GatherDims.offCoord
      have hm : (1 : Fin 2) ∈ (rowGatherDims N E C wf).sKept := by
        show (1 : Fin 2) ∈ (List.finRange 2).filter (fun a => a ∉ [(0 : Fin 2)] ++ [])
        decide
      rw [dif_pos hm]
      rfl
    rw [hs, ho]
    omega

end Cert.LibGS

end
-- ==== Proof.Val.RealHN.lean ====
/-
  The reference's pre-normalisation array HN = h·WDᵀ + (the segment sum of the gated messages) has REAL entries
  (neither infinity) when h, WC and WD have. An entry of h·WDᵀ is a finite sum of products of reals. An entry of
  the segment sum is the zero table's entry plus a finite sum of gated messages; a gated message is a looked-up
  entry of h·WCᵀ (again a finite sum of products of reals) times a value of the logistic function, which is a real
  at every extended real. This is what licenses the variance identity E[x²] − E[x]² = E[(x − E[x])²] on the
  extended reals for the columns of HN.
-/
import proofs.«111111_j10943576670413_1_alg».proof.Proof.Val.Ref
import proofs.«111111_j10943576670413_1_alg».proof.Proof.Val.Alg
import proofs.«111111_j10943576670413_1_alg».proof.Proof.LibGS

noncomputable section

namespace Cert.ReferenceIdeal.RefValue

open Cert.ReferenceIdeal Cert.ReferenceIdeal.Read Idealize.ShloMosaic Idealize.ShloMosaic.ValueIdx
open scoped BigOperators

variable (x0 : (⟨S50000x128, .f32⟩ : BufTy).Contents (Elt Ideal))
  (x1 : (⟨S800000x128, .f32⟩ : BufTy).Contents (Elt Ideal))
  (x2 x3 x4 x5 x6 : (⟨S128x128, .f32⟩ : BufTy).Contents (Elt Ideal))
  (x9 x10 : (⟨S800000, .i32⟩ : BufTy).Contents (Elt Ideal))

/-- An entry of a product `h · Wᵀ` of matrices with real entries is a real: a finite sum of products of reals. -/
theorem lin_real (W : (⟨S128x128, .f32⟩ : BufTy).Contents (Elt Ideal))
    (h0 : ∀ (i : Fin 50000) (k : Fin 128), Cert.Alg.IsReal (x0 (ix2 i k)))
    (hW : ∀ (j k : Fin 128), Cert.Alg.IsReal (W (ix2 j k))) (i : Fin 50000) (j : Fin 128) :
    Cert.Alg.IsReal (∑ k : Fin 128, x0 (ix2 i k) * W (ix2 j k)) :=
  Cert.Alg.isReal_sum _ _ fun k _ => (h0 i k).mul (hW j k)

/-- Every entry of the looked-up rows of `h · WCᵀ` is a real: it is an entry of `h · WCᵀ`. -/
theorem v36_real (h0 : ∀ (i : Fin 50000) (k : Fin 128), Cert.Alg.IsReal (x0 (ix2 i k)))
    (h4 : ∀ (j k : Fin 128), Cert.Alg.IsReal (x4 (ix2 j k))) (e : Fin 800000) (j : Fin 128) :
    Cert.Alg.IsReal (val_main_v36 (F := Ideal) x0 x4 x9 (ix2 e j)) := by
  rw [v36_eq]
  unfold gather_S50000x128_S800000x1_S800000x128_1_0_n_n_0_1_1128
  rw [Cert.LibGS.gather_rows_apply (N := 50000) (E := 800000) (C := 128) (by norm_num), lin_apply_v5]
  exact lin_real x0 x4 h0 h4 _ j

/-- Every entry of the gated messages is a real: a real times a value of the logistic function. -/
theorem v37_real (h0 : ∀ (i : Fin 50000) (k : Fin 128), Cert.Alg.IsReal (x0 (ix2 i k)))
    (h4 : ∀ (j k : Fin 128), Cert.Alg.IsReal (x4 (ix2 j k))) (e : Fin 800000) (j : Fin 128) :
    Cert.Alg.IsReal (val_main_v37 (F := Ideal) x0 x1 x2 x3 x4 x6 x9 x10 (ix2 e j)) := by
  rw [v37_apply]
  exact (v36_real x0 x4 x9 h0 h4 e j).mul (Cert.Alg.isReal_logistic _)

/-- An accumulating scatter of reals into a table of reals has real entries, whatever its dimension numbers: each
    entry is the table's entry plus a finite sum of updates. -/
theorem isReal_scatterAdd {s si su : Shape} (d : ScatterDims s si su) {w : Nat} (x : FVec Ideal s .f32)
    (idx : IVec si w) (upd : FVec Ideal su .f32) (hx : ∀ i, Cert.Alg.IsReal (x i)) (hu : ∀ j, Cert.Alg.IsReal (upd j))
    (i : s.Idx) : Cert.Alg.IsReal (Host.scatterAdd (F := Ideal) (φ := .f32) d x idx upd i) := by
  unfold Host.scatterAdd
  rw [Ideal.hostScatterAdd_def]
  unfold Ideal.hostScatterAdd
  exact (hx i).add (Cert.Alg.isReal_sum _ _ fun j _ => hu j)

/-- The zero table's entries are the real number `0`. -/
theorem v38_real (i : S50000x128.Idx) : Cert.Alg.IsReal (val_main_v38 (F := Ideal) i) := by
  rw [val_main_v38_apply, val_main_cst_6_apply, Ideal.ofBits_def, Cert.Alg.ofBits_zero]
  exact Cert.Alg.isReal_zero

/-- Every entry of the segment sum is a real: the zero table's entry plus a finite sum of gated messages. -/
theorem v40_real (h0 : ∀ (i : Fin 50000) (k : Fin 128), Cert.Alg.IsReal (x0 (ix2 i k)))
    (h4 : ∀ (j k : Fin 128), Cert.Alg.IsReal (x4 (ix2 j k))) (i : Fin 50000) (j : Fin 128) :
    Cert.Alg.IsReal (val_main_v40 (F := Ideal) x0 x1 x2 x3 x4 x6 x9 x10 (ix2 i j)) := by
  have hu : ∀ q : S800000x128.Idx, Cert.Alg.IsReal (val_main_v37 (F := Ideal) x0 x1 x2 x3 x4 x6 x9 x10 q) := fun q => by
    rw [eq_ix2 q]
    exact v37_real x0 x1 x2 x3 x4 x6 x9 x10 h0 h4 (q 0) (q 1)
  rw [v40_eq]
  exact isReal_scatterAdd scatter_S50000x128_S800000x1_S800000x128_1_0_0_1 (val_main_v38 (F := Ideal))
    (val_main_v39 (F := Ideal) x10) (val_main_v37 (F := Ideal) x0 x1 x2 x3 x4 x6 x9 x10) v38_real hu (ix2 i j)

/-- THE PRE-NORMALISATION ARRAY HAS REAL ENTRIES when `h`, `WC` and `WD` have: each entry is an entry of `h · WDᵀ`
    plus an entry of the segment sum. -/
theorem hn_real (h0 : ∀ (i : Fin 50000) (k : Fin 128), Cert.Alg.IsReal (x0 (ix2 i k)))
    (h4 : ∀ (j k : Fin 128), Cert.Alg.IsReal (x4 (ix2 j k))) (h5 : ∀ (j k : Fin 128), Cert.Alg.IsReal (x5 (ix2 j k)))
    (i : Fin 50000) (j : Fin 128) : Cert.Alg.IsReal (HN x0 x1 x2 x3 x4 x5 x6 x9 x10 (ix2 i j)) := by
  rw [hn_apply, lin_apply_v42]
  exact (lin_real x0 x5 h0 h5 i j).add (v40_real x0 x1 x2 x3 x4 x6 x9 x10 h0 h4 i j)

end Cert.ReferenceIdeal.RefValue

end
-- ==== Proof.Val.Final.lean ====
/-
  The kernel's two results are the reference's. The node result: the normalisation launch leaves, at row i and
  column j, the clamp of ((HN(i,j) - mean j) * rsqrt(var j + eps)) * gamma j + beta j, where HN is the statistics
  launch's first array (the reference's pre-normalisation array), mean j its column sum over the row count, and
  var j the mean of squares less the square of the mean; the reference centres first and averages the squared
  deviations. The two variances agree because every entry of HN is a real number (the node features and the two
  weights it is built from are finite, and a logistic is always real). The edge result: the edge projection,
  written once by the second launch and handed back unchanged by every later stretch and launch.
-/
import proofs.«111111_j10943576670413_1_alg».proof.Proof.KI.Args
import proofs.«111111_j10943576670413_1_alg».proof.Proof.Val.R4
import proofs.«111111_j10943576670413_1_alg».proof.Proof.Val.Ref
import proofs.«111111_j10943576670413_1_alg».proof.Proof.Val.Alg
import proofs.«111111_j10943576670413_1_alg».proof.Proof.Val.Fin
import proofs.«111111_j10943576670413_1_alg».proof.Proof.Val.Norm
import proofs.«111111_j10943576670413_1_alg».proof.Proof.Val.Stats
import proofs.«111111_j10943576670413_1_alg».proof.Proof.Val.RealHN
import proofs.«111111_j10943576670413_1_alg».proof.Proof.Val.Gate
import Idealize.ShloMosaic.Lib.ValueIdx

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Cert.ReferenceIdeal.RefValue (HN MU VAR)
open scoped BigOperators

variable (m : (ℓ : Loc nD τ sig) → Buf (Elt Ideal) ℓ) (ρ : Dev nD → PrngReg)

/-- The eleven argument arrays as core `c` is launched with them, each at its literal type: the node features,
    the edge features, the five 128 × 128 weights (A, B, C, D, E), the scale and shift rows, the two endpoint
    columns. -/
abbrev xa0 (c : Dev nD) : S50000x128.Idx → EReal := m ((c.tc : Thread nD τ).loc main_arg0)
abbrev xa1 (c : Dev nD) : S800000x128.Idx → EReal := m ((c.tc : Thread nD τ).loc main_arg1)
abbrev xa2 (c : Dev nD) : S128x128.Idx → EReal := m ((c.tc : Thread nD τ).loc main_arg2)
abbrev xa3 (c : Dev nD) : S128x128.Idx → EReal := m ((c.tc : Thread nD τ).loc main_arg3)
abbrev xa4 (c : Dev nD) : S128x128.Idx → EReal := m ((c.tc : Thread nD τ).loc main_arg4)
abbrev xa5 (c : Dev nD) : S128x128.Idx → EReal := m ((c.tc : Thread nD τ).loc main_arg5)
abbrev xa6 (c : Dev nD) : S128x128.Idx → EReal := m ((c.tc : Thread nD τ).loc main_arg6)
abbrev xa7 (c : Dev nD) : S128.Idx → EReal := m ((c.tc : Thread nD τ).loc main_arg7)
abbrev xa8 (c : Dev nD) : S128.Idx → EReal := m ((c.tc : Thread nD τ).loc main_arg8)
abbrev xa9 (c : Dev nD) : S800000.Idx → BitVec 32 := m ((c.tc : Thread nD τ).loc main_arg9)
abbrev xa10 (c : Dev nD) : S800000.Idx → BitVec 32 := m ((c.tc : Thread nD τ).loc main_arg10)

/-- The row count as the kernel's host arithmetic spells it. -/
abbrev rows : EReal := Ideal.ofBits .f32 0x47435000#32

/-- The reference's column mean is the column sum over the row count: its reduction starts from the zero word. -/
theorem mu_eq (c : Dev nD) (j : Fin 128) :
    MU (xa0 m c) (xa1 m c) (xa2 m c) (xa3 m c) (xa4 m c) (xa5 m c) (xa6 m c) (xa9 m c) (xa10 m c) j = Ideal.div (∑ i : Fin 50000, HN (xa0 m c) (xa1 m c) (xa2 m c) (xa3 m c) (xa4 m c) (xa5 m c) (xa6 m c) (xa9 m c) (xa10 m c) (ix2 i j)) rows := by
  unfold MU
  rw [Cert.Alg.ofBits_zero, zero_add]

/-- The reference's column variance, the mean of the squared deviations, is the mean of squares less the square of
    the mean: every entry of the column is a real number. -/
theorem var_eq (hpre : Cert.Pre_KernelIdeal (hPre_finite_inputs := Cert.Pre_finite_inputs.Gen.facts) m) (c : Dev nD) (j : Fin 128) :
    VAR (xa0 m c) (xa1 m c) (xa2 m c) (xa3 m c) (xa4 m c) (xa5 m c) (xa6 m c) (xa9 m c) (xa10 m c) j
      = Ideal.div (∑ i : Fin 50000, HN (xa0 m c) (xa1 m c) (xa2 m c) (xa3 m c) (xa4 m c) (xa5 m c) (xa6 m c) (xa9 m c) (xa10 m c) (ix2 i j) * HN (xa0 m c) (xa1 m c) (xa2 m c) (xa3 m c) (xa4 m c) (xa5 m c) (xa6 m c) (xa9 m c) (xa10 m c) (ix2 i j)) rows
        - Ideal.div (∑ i : Fin 50000, HN (xa0 m c) (xa1 m c) (xa2 m c) (xa3 m c) (xa4 m c) (xa5 m c) (xa6 m c) (xa9 m c) (xa10 m c) (ix2 i j)) rows * Ideal.div (∑ i : Fin 50000, HN (xa0 m c) (xa1 m c) (xa2 m c) (xa3 m c) (xa4 m c) (xa5 m c) (xa6 m c) (xa9 m c) (xa10 m c) (ix2 i j)) rows := by
  unfold VAR MU
  rw [Cert.Alg.ofBits_zero, zero_add, zero_add]
  exact (Cert.Alg.var_identity (fun i => HN (xa0 m c) (xa1 m c) (xa2 m c) (xa3 m c) (xa4 m c) (xa5 m c) (xa6 m c) (xa9 m c) (xa10 m c) (ix2 i j))
    (fun i => Cert.ReferenceIdeal.RefValue.hn_real (xa0 m c) (xa1 m c) (xa2 m c) (xa3 m c) (xa4 m c) (xa5 m c) (xa6 m c) (xa9 m c) (xa10 m c) (real_h m hpre c) (real_WC m hpre c) (real_WD m hpre c) i j)
    rows Cert.Alg.ofBits_50000).symm

/-- THE NODE RESULT: the array the normalisation launch leaves is the reference's result array. -/
theorem k_out0 (hpre : Cert.Pre_KernelIdeal (hPre_finite_inputs := Cert.Pre_finite_inputs.Gen.facts) m) (c : Dev nD) :
    (show S50000x128.Idx → EReal from W10 m ρ c main_v46)
      = Cert.ReferenceIdeal.Read.val_main_v69 (F := Ideal) (xa0 m c) (xa1 m c) (xa2 m c) (xa3 m c) (xa4 m c) (xa5 m c) (xa6 m c) (xa7 m c) (xa8 m c) (xa9 m c) (xa10 m c) := by
  funext z
  obtain ⟨i, j, rfl⟩ : ∃ (i : Fin 50000) (j : Fin 128), z = ix2 i j := ⟨z 0, z 1, eq_ix2 z⟩
  refine (kOut_apply m ρ c (HN (xa0 m c) (xa1 m c) (xa2 m c) (xa3 m c) (xa4 m c) (xa5 m c) (xa6 m c) (xa9 m c) (xa10 m c)) (W8 m ρ c main_v37_1) (W8 m ρ c main_v37_2) (xa7 m c) (xa8 m c)
      (kHpre_eq m ρ c) rfl rfl rfl rfl i j).trans ?_
  rw [kSum_apply m ρ c j, kSq_apply m ρ c j, Cert.ReferenceIdeal.RefValue.ref_out_apply, norm4_elt_def,
    mu_eq m c j, var_eq m hpre c j]

/-- THE EDGE RESULT: the edge projection is written by the second launch only; the gate launch stages it as an
    input and hands it back, nothing later touches it, and it is the reference's edge projection. -/
theorem k_out1 (c : Dev nD) :
    (show S800000x128.Idx → EReal from W10 m ρ c main_v11)
      = Cert.ReferenceIdeal.Read.val_main_v7 (F := Ideal) (xa1 m c) (xa6 m c) :=
  calc W10 m ρ c (Proc.devRef .tc main_v11)
    _ = W9 m ρ c (Proc.devRef .tc main_v11) := W10_of_ne m ρ c main_v11 (by decide)
    _ = W8 m ρ c (Proc.devRef .tc main_v11) := keep9 m ρ c main_v11 (by decide)
    _ = W7 m ρ c (Proc.devRef .tc main_v11) := W8_of_ne m ρ c main_v11 (by decide)
    _ = W6 m ρ c (Proc.devRef .tc main_v11) := keep7 m ρ c main_v11 (by decide)
    _ = W5 m ρ c (Proc.devRef .tc main_v11) := (W6_arr m ρ c 3).trans (((dat2 (V5 m ρ) c).arrAt_in 3 rfl _).trans (A_eq2 (V5 m ρ) c 3))
    _ = Cert.ReferenceIdeal.Read.val_main_v7 (F := Ideal) (xa1 m c) (xa6 m c) := ken5_eq m ρ c

end Cert.KernelIdeal.Val

end
-- ==== Proof.lean ====
/-
  A gated graph-convolution layer, five launches against a plain reference. Over the extended reals both programs
  compute, per edge, the message Ch[src] · σ((Ah[src] + Bh[dst]) + e·WEᵀ) (σ the logistic function, Ah = h·WAᵀ and so
  on: the kernel takes the four node projections as column blocks of one product with the concatenated transposed
  weights), sum the messages into their destination nodes, add h·WDᵀ, and normalise every column by its batch
  mean and variance before the scale, the shift and the positive part. The two sides differ in three ways, none of
  which changes a value: the products and the column sums are tiled (sums over tiles regroup in a commutative
  monoid); the logistic is one operation on one side and 1/(1 + e⁻ˣ) on the other (the same function by
  definition); and the variance is E[x²] − E[x]² on one side and E[(x − E[x])²] on the other, which agree because
  every summand is a real number: the inputs are finite, a logistic is always real, and finite sums and products of
  reals are real. The frames: every launch runs to its end on each grid point and changes only its own result arrays;
  no host operation writes an argument.
-/
import proofs.«111111_j10943576670413_1_alg».proof.Defs
import proofs.«111111_j10943576670413_1_alg».proof.Proof.Gen.Kernel
import proofs.«111111_j10943576670413_1_alg».proof.Proof.Gen.KernelIdeal
import proofs.«111111_j10943576670413_1_alg».proof.Proof.Gen.ReferenceIdeal
import proofs.«111111_j10943576670413_1_alg».proof.Proof.Gen.Pre_finite_inputs
import proofs.«111111_j10943576670413_1_alg».proof.Proof.K.Args
import proofs.«111111_j10943576670413_1_alg».proof.Proof.KI.Args
import proofs.«111111_j10943576670413_1_alg».proof.Proof.Val.Final
import Idealize.ShloMosaic.Adequacy
import Idealize.ShloMosaic.Init

set_option maxRecDepth 16384

noncomputable section

namespace Cert.Proof

open Idealize.ShloMosaic Idealize.ShloMosaic.TcCoe Idealize.SL.Sem

/-- The word-level program runs to its end, faults nowhere and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is a line of host operations: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories agreeing on the arguments both idealized programs end with the same two results: the kernel's run
    leaves the last boundary's contents in every buffer, the reference's run its composed term, and the two are one
    function of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m g m' g' hpre hagree
  refine ⟨fun c => Cert.KernelIdeal.Hand.V10 m g c Cert.KernelIdeal.main_v46, fun c => Cert.KernelIdeal.Hand.V10 m g c Cert.KernelIdeal.main_v11, ?_, ?_⟩
  · refine (θ_run (Cert.KernelIdeal.defs (F := Ideal)) _ _).mono (fun r h c => ?_) (Cert.KernelIdeal.Hand.run_all (F := Ideal) m g)
    exact ⟨h c _ (Cert.KernelIdeal.Hand.mem_uc Cert.KernelIdeal.main_v46 (by decide)), h c _ (Cert.KernelIdeal.Hand.mem_uc Cert.KernelIdeal.main_v11 (by decide)),
      (h c _ (Cert.KernelIdeal.Hand.mem_uc Cert.KernelIdeal.main_arg0 (by decide))).trans (Cert.KernelIdeal.Hand.W10_main_arg0 m g c),
      (h c _ (Cert.KernelIdeal.Hand.mem_uc Cert.KernelIdeal.main_arg1 (by decide))).trans (Cert.KernelIdeal.Hand.W10_main_arg1 m g c),
      (h c _ (Cert.KernelIdeal.Hand.mem_uc Cert.KernelIdeal.main_arg2 (by decide))).trans (Cert.KernelIdeal.Hand.W10_main_arg2 m g c),
      (h c _ (Cert.KernelIdeal.Hand.mem_uc Cert.KernelIdeal.main_arg3 (by decide))).trans (Cert.KernelIdeal.Hand.W10_main_arg3 m g c),
      (h c _ (Cert.KernelIdeal.Hand.mem_uc Cert.KernelIdeal.main_arg4 (by decide))).trans (Cert.KernelIdeal.Hand.W10_main_arg4 m g c),
      (h c _ (Cert.KernelIdeal.Hand.mem_uc Cert.KernelIdeal.main_arg5 (by decide))).trans (Cert.KernelIdeal.Hand.W10_main_arg5 m g c),
      (h c _ (Cert.KernelIdeal.Hand.mem_uc Cert.KernelIdeal.main_arg6 (by decide))).trans (Cert.KernelIdeal.Hand.W10_main_arg6 m g c),
      (h c _ (Cert.KernelIdeal.Hand.mem_uc Cert.KernelIdeal.main_arg7 (by decide))).trans (Cert.KernelIdeal.Hand.W10_main_arg7 m g c),
      (h c _ (Cert.KernelIdeal.Hand.mem_uc Cert.KernelIdeal.main_arg8 (by decide))).trans (Cert.KernelIdeal.Hand.W10_main_arg8 m g c),
      (h c _ (Cert.KernelIdeal.Hand.mem_uc Cert.KernelIdeal.main_arg9 (by decide))).trans (Cert.KernelIdeal.Hand.W10_main_arg9 m g c),
      (h c _ (Cert.KernelIdeal.Hand.mem_uc Cert.KernelIdeal.main_arg10 (by decide))).trans (Cert.KernelIdeal.Hand.W10_main_arg10 m g c)⟩
  · refine (θ_run (Cert.ReferenceIdeal.defs (F := Ideal)) _ _).mono (fun r h c => ⟨(h c).1.trans ?_, (h c).2.1.trans ?_, (h c).2.2⟩)
      (Cert.ReferenceIdeal.Value.run (F := Ideal) m' g')
    · rw [Cert.ReferenceIdeal.Read.val_main_v69_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
      exact (Cert.KernelIdeal.Val.k_out0 m g hpre c).symm
    · rw [(hagree c).2.1, (hagree c).2.2.2.2.2.2.1]
      exact (Cert.KernelIdeal.Val.k_out1 m g c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
